-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1024 : Shape := ⟨3, ![8, 256, 1024]⟩
abbrev S8x256x32000 : Shape := ⟨3, ![8, 256, 32000]⟩
abbrev S2048x32 : Shape := ⟨2, ![2048, 32]⟩
abbrev S2048x32x1024 : Shape := ⟨3, ![2048, 32, 1024]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S1x1024 : Shape := ⟨2, ![1, 1024]⟩
abbrev S_ : Shape := ⟨0, ![]⟩

class Facts : Prop where
  bcast_S_S8x256x1024 : S_.BroadcastsInDim S8x256x1024 (![] : Fin 0 → Fin S8x256x1024.rank)
  reducesTo_S8x256x1024_S_d0_1_2 : S8x256x1024.ReducesTo [0, 1, 2] S_
  h_S_ : 0 < S_.numel
  bcast_S_S8x256x32000 : S_.BroadcastsInDim S8x256x32000 (![] : Fin 0 → Fin S8x256x32000.rank)
  reducesTo_S8x256x32000_S_d0_1_2 : S8x256x32000.ReducesTo [0, 1, 2] S_
  bcast_S_S2048x32 : S_.BroadcastsInDim S2048x32 (![] : Fin 0 → Fin S2048x32.rank)
  reducesTo_S2048x32_S_d0_1 : S2048x32.ReducesTo [0, 1] S_
  bcast_S_S2048x32x1024 : S_.BroadcastsInDim S2048x32x1024 (![] : Fin 0 → Fin S2048x32x1024.rank)
  reducesTo_S2048x32x1024_S_d0_1_2 : S2048x32x1024.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_arg3 : IVec S2048x32 32) (main_v48 : IVec S_ 1) (main_v50 : IVec S2048x32 1) : IVec S_ 1 :=
  let main_c_19 : IVec S_ 1 := constantI S_ 1 1#1
  let main_v51 : IVec S_ 1 := (fun x v => Host.reduce IntOp.andi x v reducesTo_S2048x32_S_d0_1 h_S_) main_v50 main_c_19
  let main_v52 : IVec S_ 1 := andi main_v48 main_v51
  let main_c_20 : IVec S_ 32 := constantI S_ 32 32000#32
  let main_v53 : IVec S2048x32 32 := broadcastInDim S2048x32 ![] bcast_S_S2048x32 main_c_20
  let main_v54 : IVec S2048x32 1 := cmpi .slt main_arg3 main_v53
  let main_c_21 : IVec S_ 1 := constantI S_ 1 1#1
  let main_v55 : IVec S_ 1 := (fun x v => Host.reduce IntOp.andi x v reducesTo_S2048x32_S_d0_1 h_S_) main_v54 main_c_21
  let main_v56 : IVec S_ 1 := andi main_v52 main_v55
  main_v56

def fn_part2 {F : FTy → Type} [FloatOps F] (main_arg3 : IVec S2048x32 32) (main_arg8 : FVec F S1024 .f32) (main_arg9 : FVec F S1x1024 .f32) (main_arg10 : FVec F S1 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x1024 .f32 := Host.absf main_arg9
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2048x32 32 := broadcastInDim S2048x32 ![] bcast_S_S2048x32 main_c_18
  let main_v50 : IVec S2048x32 1 := cmpi .sge main_arg3 main_v49
  fn_part3 (F := F) main_arg3 main_v48 main_v50

def fn_part1 {F : FTy → Type} [FloatOps F] (main_arg3 : IVec S2048x32 32) (main_arg5 : FVec F S1x2048 .f32) (main_arg6 : FVec F S1 .f32) (main_arg7 : FVec F S1024x2048 .f32) (main_arg8 : FVec F S1024 .f32) (main_arg9 : FVec F S1x1024 .f32) (main_arg10 : FVec F S1 .f32) (main_v13 : IVec S_ 1) (main_v16 : IVec S2048x32x1024 1) : IVec S_ 1 :=
  let main_c_5 : IVec S_ 1 := constantI S_ 1 1#1
  let main_v17 : IVec S_ 1 := (fun x v => Host.reduce IntOp.andi x v reducesTo_S2048x32x1024_S_d0_1_2 h_S_) main_v16 main_c_5
  let main_v18 : IVec S_ 1 := andi main_v13 main_v17
  let main_v19 : FVec F S1x2048 .f32 := Host.absf main_arg5
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1024x2048 .f32 := Host.absf main_arg7
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg3 main_arg8 main_arg9 main_arg10 main_v33

def fn {F : FTy → Type} [FloatOps F] (main_arg0 : FVec F S8x256x1024 .f32) (main_arg1 : FVec F S8x256x32000 .f32) (main_arg2 : FVec F S2048x32 .f32) (main_arg3 : IVec S2048x32 32) (main_arg4 : FVec F S2048x32x1024 .f32) (main_arg5 : FVec F S1x2048 .f32) (main_arg6 : FVec F S1 .f32) (main_arg7 : FVec F S1024x2048 .f32) (main_arg8 : FVec F S1024 .f32) (main_arg9 : FVec F S1x1024 .f32) (main_arg10 : FVec F S1 .f32) : IVec S_ 1 :=
  let main_v0 : FVec F S8x256x1024 .f32 := Host.absf main_arg0
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  let main_c : IVec S_ 1 := constantI S_ 1 1#1
  let main_v3 : IVec S_ 1 := (fun x v => Host.reduce IntOp.andi x v reducesTo_S8x256x1024_S_d0_1_2 h_S_) main_v2 main_c
  let main_v4 : FVec F S8x256x32000 .f32 := Host.absf main_arg1
  let main_cst_0 : FVec F S_ .f32 := constant S_ .f32 0x7F800000#32
  let main_v5 : FVec F S8x256x32000 .f32 := broadcastInDim S8x256x32000 ![] bcast_S_S8x256x32000 main_cst_0
  let main_v6 : IVec S8x256x32000 1 := cmpf .olt main_v4 main_v5
  let main_c_1 : IVec S_ 1 := constantI S_ 1 1#1
  let main_v7 : IVec S_ 1 := (fun x v => Host.reduce IntOp.andi x v reducesTo_S8x256x32000_S_d0_1_2 h_S_) main_v6 main_c_1
  let main_v8 : IVec S_ 1 := andi main_v3 main_v7
  let main_v9 : FVec F S2048x32 .f32 := Host.absf main_arg2
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_c_3 : IVec S_ 1 := constantI S_ 1 1#1
  let main_v12 : IVec S_ 1 := (fun x v => Host.reduce IntOp.andi x v reducesTo_S2048x32_S_d0_1 h_S_) main_v11 main_c_3
  let main_v13 : IVec S_ 1 := andi main_v8 main_v12
  let main_v14 : FVec F S2048x32x1024 .f32 := Host.absf main_arg4
  let main_cst_4 : FVec F S_ .f32 := constant S_ .f32 0x7F800000#32
  let main_v15 : FVec F S2048x32x1024 .f32 := broadcastInDim S2048x32x1024 ![] bcast_S_S2048x32x1024 main_cst_4
  let main_v16 : IVec S2048x32x1024 1 := cmpf .olt main_v14 main_v15
  fn_part1 (F := F) main_arg3 main_arg5 main_arg6 main_arg7 main_arg8 main_arg9 main_arg10 main_v13 main_v16
-- ==== Kernel.lean ====
abbrev S8x256x1024 : Shape := ⟨3, ![8, 256, 1024]⟩
abbrev S8x256x32000 : Shape := ⟨3, ![8, 256, 32000]⟩
abbrev S2048x32 : Shape := ⟨2, ![2048, 32]⟩
abbrev S2048x32x1024 : Shape := ⟨3, ![2048, 32, 1024]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S1x1024 : Shape := ⟨2, ![1, 1024]⟩
abbrev S2048x1024 : Shape := ⟨2, ![2048, 1024]⟩
abbrev S2048x32000 : Shape := ⟨2, ![2048, 32000]⟩
abbrev S1024x1 : Shape := ⟨2, ![1024, 1]⟩
abbrev S1x1 : Shape := ⟨2, ![1, 1]⟩
abbrev S1024x1024 : Shape := ⟨2, ![1024, 1024]⟩
abbrev S2048x1 : Shape := ⟨2, ![2048, 1]⟩
abbrev S128x1024 : Shape := ⟨2, ![128, 1024]⟩
abbrev S128x32x1024 : Shape := ⟨3, ![128, 32, 1024]⟩
abbrev S128x32 : Shape := ⟨2, ![128, 32]⟩
abbrev S128x1 : Shape := ⟨2, ![128, 1]⟩
abbrev S128x1x1024 : Shape := ⟨3, ![128, 1, 1024]⟩
abbrev S128 : Shape := ⟨1, ![128]⟩
abbrev S32x32000 : Shape := ⟨2, ![32, 32000]⟩
abbrev S32x1 : Shape := ⟨2, ![32, 1]⟩
abbrev S32 : Shape := ⟨1, ![32]⟩
abbrev S2048 : Shape := ⟨1, ![2048]⟩
abbrev S_ : Shape := ⟨0, ![]⟩
abbrev S2048x32x1 : Shape := ⟨3, ![2048, 32, 1]⟩
abbrev S1x1x1 : Shape := ⟨3, ![1, 1, 1]⟩
abbrev S2048x1x32 : Shape := ⟨3, ![2048, 1, 32]⟩
abbrev S2048x32x32 : Shape := ⟨3, ![2048, 32, 32]⟩
abbrev S2048x32x2 : Shape := ⟨3, ![2048, 32, 2]⟩

abbrev nBuf : Space → Nat
  | .hbm => 104
  | .vmem => 26
  | .smem => 0
  | _ => 0

abbrev bufTy : (tb : Table) → Fin (tcTables nBuf tb) → BufTy
  | .hbm, ⟨0, _⟩ => ⟨S8x256x1024, .f32⟩
  | .hbm, ⟨1, _⟩ => ⟨S8x256x32000, .f32⟩
  | .hbm, ⟨2, _⟩ => ⟨S2048x32, .f32⟩
  | .hbm, ⟨3, _⟩ => ⟨S2048x32, .i32⟩
  | .hbm, ⟨4, _⟩ => ⟨S2048x32x1024, .f32⟩
  | .hbm, ⟨5, _⟩ => ⟨S1x2048, .f32⟩
  | .hbm, ⟨6, _⟩ => ⟨S1, .f32⟩
  | .hbm, ⟨7, _⟩ => ⟨S1024x2048, .f32⟩
  | .hbm, ⟨8, _⟩ => ⟨S1024, .f32⟩
  | .hbm, ⟨9, _⟩ => ⟨S1x1024, .f32⟩
  | .hbm, ⟨10, _⟩ => ⟨S1, .f32⟩
  | .hbm, ⟨11, _⟩ => ⟨S2048x1024, .f32⟩
  | .hbm, ⟨12, _⟩ => ⟨S2048x32000, .f32⟩
  | .hbm, ⟨13, _⟩ => ⟨S1x1024, .f32⟩
  | .hbm, ⟨14, _⟩ => ⟨S1024x1, .f32⟩
  | .hbm, ⟨15, _⟩ => ⟨S1024x1, .bf16⟩
  | .hbm, ⟨16, _⟩ => ⟨S1x1024, .f32⟩
  | .hbm, ⟨17, _⟩ => ⟨S1024x1, .f32⟩
  | .hbm, ⟨18, _⟩ => ⟨S1024x1, .bf16⟩
  | .hbm, ⟨19, _⟩ => ⟨S1x1, .f32⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S1x1024, .f32⟩
  | .hbm, ⟨27, _⟩ => ⟨S1024x1, .f32⟩
  | .hbm, ⟨28, _⟩ => ⟨S1024x1, .bf16⟩
  | .hbm, ⟨29, _⟩ => ⟨S1x1, .f32⟩
  | .hbm, ⟨30, _⟩ => ⟨S2048x32, .f32⟩
  | .hbm, ⟨31, _⟩ => ⟨S2048x1, .f32⟩
  | .hbm, ⟨32, _⟩ => ⟨S2048x32000, .f32⟩
  | .hbm, ⟨33, _⟩ => ⟨S2048x1, .f32⟩
  | .hbm, ⟨34, _⟩ => ⟨S2048, .i32⟩
  | .hbm, ⟨35, _⟩ => ⟨S2048x1, .i32⟩
  | .hbm, ⟨36, _⟩ => ⟨S_, .i32⟩
  | .hbm, ⟨37, _⟩ => ⟨S2048x32, .i32⟩
  | .hbm, ⟨38, _⟩ => ⟨S2048x32, .i1⟩
  | .hbm, ⟨39, _⟩ => ⟨S_, .i32⟩
  | .hbm, ⟨40, _⟩ => ⟨S2048x32, .i32⟩
  | .hbm, ⟨41, _⟩ => ⟨S2048x32, .i32⟩
  | .hbm, ⟨42, _⟩ => ⟨S2048x32, .i32⟩
  | .hbm, ⟨43, _⟩ => ⟨S2048x32x1, .i32⟩
  | .hbm, ⟨44, _⟩ => ⟨S1, .i32⟩
  | .hbm, ⟨45, _⟩ => ⟨S_, .i32⟩
  | .hbm, ⟨46, _⟩ => ⟨S2048x32x1, .i32⟩
  | .hbm, ⟨47, _⟩ => ⟨S2048x32x1, .i1⟩
  | .hbm, ⟨48, _⟩ => ⟨S1x1x1, .i32⟩
  | .hbm, ⟨49, _⟩ => ⟨S2048x32x1, .i32⟩
  | .hbm, ⟨50, _⟩ => ⟨S2048x32x1, .i1⟩
  | .hbm, ⟨51, _⟩ => ⟨S2048x32x1, .i1⟩
  | .hbm, ⟨52, _⟩ => ⟨S_, .i1⟩
  | .hbm, ⟨53, _⟩ => ⟨S2048x32, .i1⟩
  | .hbm, ⟨54, _⟩ => ⟨S2048x32, .f32⟩
  | .hbm, ⟨55, _⟩ => ⟨S_, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x32, .f32⟩
  | .hbm, ⟨61, _⟩ => ⟨S2048x32x1, .i32⟩
  | .hbm, ⟨62, _⟩ => ⟨S2048x1x32, .i32⟩
  | .hbm, ⟨63, _⟩ => ⟨S2048x32x32, .i32⟩
  | .hbm, ⟨64, _⟩ => ⟨S2048x32x32, .i32⟩
  | .hbm, ⟨65, _⟩ => ⟨S2048x32x32, .i1⟩
  | .hbm, ⟨66, _⟩ => ⟨S2048x32x32, .f32⟩
  | .hbm, ⟨67, _⟩ => ⟨S2048x32x1, .f32⟩
  | .hbm, ⟨68, _⟩ => ⟨S2048x32x32, .f32⟩
  | .hbm, ⟨69, _⟩ => ⟨S2048x32x32, .f32⟩
  | .hbm, ⟨70, _⟩ => ⟨S_, .f32⟩
  | .hbm, ⟨71, _⟩ => ⟨S2048x32, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S_, .f32⟩
  | .hbm, ⟨81, _⟩ => ⟨S2048x32, .f32⟩
  | .hbm, ⟨82, _⟩ => ⟨S2048x32, .f32⟩
  | .hbm, ⟨83, _⟩ => ⟨S2048x32, .f32⟩
  | .hbm, ⟨84, _⟩ => ⟨S_, .i32⟩
  | .hbm, ⟨85, _⟩ => ⟨S2048x1, .i32⟩
  | .hbm, ⟨86, _⟩ => ⟨S2048x1, .i1⟩
  | .hbm, ⟨87, _⟩ => ⟨S_, .i32⟩
  | .hbm, ⟨88, _⟩ => ⟨S2048x1, .i32⟩
  | .hbm, ⟨89, _⟩ => ⟨S2048x1, .i32⟩
  | .hbm, ⟨90, _⟩ => ⟨S2048x1, .i32⟩
  | .hbm, ⟨91, _⟩ => ⟨S_, .i32⟩
  | .hbm, ⟨92, _⟩ => ⟨S2048x32, .i32⟩
  | .hbm, ⟨93, _⟩ => ⟨S2048x32, .i1⟩
  | .hbm, ⟨94, _⟩ => ⟨S_, .i32⟩
  | .hbm, ⟨95, _⟩ => ⟨S2048x32, .i32⟩
  | .hbm, ⟨96, _⟩ => ⟨S2048x32, .i32⟩
  | .hbm, ⟨97, _⟩ => ⟨S2048x32, .i32⟩
  | .hbm, ⟨98, _⟩ => ⟨S2048x32, .i32⟩
  | .hbm, ⟨99, _⟩ => ⟨S2048x32x1, .i32⟩
  | .hbm, ⟨100, _⟩ => ⟨S2048x32x1, .i32⟩
  | .hbm, ⟨101, _⟩ => ⟨S2048x32x2, .i32⟩
  | .hbm, ⟨102, _⟩ => ⟨S2048x32000, .f32⟩
  | .hbm, ⟨103, _⟩ => ⟨S8x256x32000, .f32⟩
  | .local _ .vmem, ⟨0, _⟩ => ⟨S128x1024, .f32⟩
  | .local _ .vmem, ⟨1, _⟩ => ⟨S128x1024, .f32⟩
  | .local _ .vmem, ⟨2, _⟩ => ⟨S128x32x1024, .f32⟩
  | .local _ .vmem, ⟨3, _⟩ => ⟨S128x32x1024, .f32⟩
  | .local _ .vmem, ⟨4, _⟩ => ⟨S128x32, .f32⟩
  | .local _ .vmem, ⟨5, _⟩ => ⟨S128x32, .f32⟩
  | .local _ .vmem, ⟨6, _⟩ => ⟨S1024x1, .bf16⟩
  | .local _ .vmem, ⟨7, _⟩ => ⟨S1024x1, .bf16⟩
  | .local _ .vmem, ⟨8, _⟩ => ⟨S1x1, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1, .bf16⟩
  | .local _ .vmem, ⟨13, _⟩ => ⟨S1x1, .f32⟩
  | .local _ .vmem, ⟨14, _⟩ => ⟨S128x32, .f32⟩
  | .local _ .vmem, ⟨15, _⟩ => ⟨S128x32, .f32⟩
  | .local _ .vmem, ⟨16, _⟩ => ⟨S128x1, .f32⟩
  | .local _ .vmem, ⟨17, _⟩ => ⟨S128x1, .f32⟩
  | .local _ .vmem, ⟨18, _⟩ => ⟨S32x32000, .f32⟩
  | .local _ .vmem, ⟨19, _⟩ => ⟨S32x32000, .f32⟩
  | .local _ .vmem, ⟨20, _⟩ => ⟨S32x1, .f32⟩
  | .local _ .vmem, ⟨21, _⟩ => ⟨S32x1, .f32⟩
  | .local _ .vmem, ⟨22, _⟩ => ⟨S32x32000, .f32⟩
  | .local _ .vmem, ⟨23, _⟩ => ⟨S32x32000, .f32⟩
  | .local _ .vmem, ⟨24, _⟩ => ⟨S32x1, .f32⟩
  | .local _ .vmem, ⟨25, _⟩ => ⟨S32x1, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20_0 : Ref sig .tc := ⟨.hbm, 32, rfl⟩
abbrev main_v20_1 : Ref sig .tc := ⟨.hbm, 33, rfl⟩
abbrev main_v21 : Ref sig .tc := ⟨.hbm, 34, rfl⟩
abbrev main_v22 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_cst : Ref sig .tc := ⟨.hbm, 55, rfl⟩
abbrev main_call0_v14 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst : Ref sig .tc := ⟨.hbm, 70, rfl⟩
abbrev main_v36 : Ref sig .tc := ⟨.hbm, 71, rfl⟩
abbrev main_cst_0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_1 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c : Ref sig .tc := ⟨.hbm, 84, rfl⟩
abbrev main_v47 : Ref sig .tc := ⟨.hbm, 85, rfl⟩
abbrev main_v48 : Ref sig .tc := ⟨.hbm, 86, rfl⟩
abbrev main_c_2 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_3 : Ref sig .tc := ⟨.hbm, 91, rfl⟩
abbrev main_v52 : Ref sig .tc := ⟨.hbm, 92, rfl⟩
abbrev main_v53 : Ref sig .tc := ⟨.hbm, 93, rfl⟩
abbrev main_c_4 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x32000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x32000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8x256x1024_S2048x1024 : S8x256x1024.ShapeCasts S2048x1024
  shapeCasts_S8x256x32000_S2048x32000 : S8x256x32000.ShapeCasts S2048x32000
  slices_S1x2048_S1x1024_0_0 : S1x2048.Slices ![0, 0] S1x1024
  transposes_S1x1024_S1024x1_1_0 : S1x1024.Transposes [1, 0] S1024x1
  bitsLt_bf16_f32 : FTy.bits .bf16 < FTy.bits .f32
  slices_S1x2048_S1x1024_0_1024 : S1x2048.Slices ![0, 1024] S1x1024
  shapeCasts_S1_S1x1 : S1.ShapeCasts S1x1
  slices_S1024x2048_S1024x1024_0_0 : S1024x2048.Slices ![0, 0] S1024x1024
  transposes_S1024x1024_S1024x1024_1_0 : S1024x1024.Transposes [1, 0] S1024x1024
  slices_S1024x2048_S1024x1024_0_1024 : S1024x2048.Slices ![0, 1024] S1024x1024
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x32x1024_S128x1x1024_0_0_0 : ∀ a, (![0, 0, 0] : Fin 3 → Nat) a + S128x1x1024.size a ≤ S128x32x1024.size a
  h_S128x1x1024 : 0 < S128x1x1024.numel
  shapeCasts_S128x1x1024_S128x1024 : S128x1x1024.ShapeCasts S128x1024
  inb_S128x32x1024_S128x1x1024_0_1_0 : ∀ a, (![0, 1, 0] : Fin 3 → Nat) a + S128x1x1024.size a ≤ S128x32x1024.size a
  inb_S128x32x1024_S128x1x1024_0_2_0 : ∀ a, (![0, 2, 0] : Fin 3 → Nat) a + S128x1x1024.size a ≤ S128x32x1024.size a
  inb_S128x32x1024_S128x1x1024_0_3_0 : ∀ a, (![0, 3, 0] : Fin 3 → Nat) a + S128x1x1024.size a ≤ S128x32x1024.size a
  inb_S128x32x1024_S128x1x1024_0_4_0 : ∀ a, (![0, 4, 0] : Fin 3 → Nat) a + S128x1x1024.size a ≤ S128x32x1024.size a
  inb_S128x32x1024_S128x1x1024_0_5_0 : ∀ a, (![0, 5, 0] : Fin 3 → Nat) a + S128x1x1024.size a ≤ S128x32x1024.size a
  inb_S128x32x1024_S128x1x1024_0_6_0 : ∀ a, (![0, 6, 0] : Fin 3 → Nat) a + S128x1x1024.size a ≤ S128x32x1024.size a
  inb_S128x32x1024_S128x1x1024_0_7_0 : ∀ a, (![0, 7, 0] : Fin 3 → Nat) a + S128x1x1024.size a ≤ S128x32x1024.size a
  inb_S128x32x1024_S128x1x1024_0_8_0 : ∀ a, (![0, 8, 0] : Fin 3 → Nat) a + S128x1x1024.size a ≤ S128x32x1024.size a
  inb_S128x32x1024_S128x1x1024_0_9_0 : ∀ a, (![0, 9, 0] : Fin 3 → Nat) a + S128x1x1024.size a ≤ S128x32x1024.size a
  inb_S128x32x1024_S128x1x1024_0_10_0 : ∀ a, (![0, 10, 0] : Fin 3 → Nat) a + S128x1x1024.size a ≤ S128x32x1024.size a
  inb_S128x32x1024_S128x1x1024_0_11_0 : ∀ a, (![0, 11, 0] : Fin 3 → Nat) a + S128x1x1024.size a ≤ S128x32x1024.size a
  inb_S128x32x1024_S128x1x1024_0_12_0 : ∀ a, (![0, 12, 0] : Fin 3 → Nat) a + S128x1x1024.size a ≤ S128x32x1024.size a
  inb_S128x32x1024_S128x1x1024_0_13_0 : ∀ a, (![0, 13, 0] : Fin 3 → Nat) a + S128x1x1024.size a ≤ S128x32x1024.size a
  inb_S128x32x1024_S128x1x1024_0_14_0 : ∀ a, (![0, 14, 0] : Fin 3 → Nat) a + S128x1x1024.size a ≤ S128x32x1024.size a
  inb_S128x32x1024_S128x1x1024_0_15_0 : ∀ a, (![0, 15, 0] : Fin 3 → Nat) a + S128x1x1024.size a ≤ S128x32x1024.size a
  inb_S128x32x1024_S128x1x1024_0_16_0 : ∀ a, (![0, 16, 0] : Fin 3 → Nat) a + S128x1x1024.size a ≤ S128x32x1024.size a
  inb_S128x32x1024_S128x1x1024_0_17_0 : ∀ a, (![0, 17, 0] : Fin 3 → Nat) a + S128x1x1024.size a ≤ S128x32x1024.size a
  inb_S128x32x1024_S128x1x1024_0_18_0 : ∀ a, (![0, 18, 0] : Fin 3 → Nat) a + S128x1x1024.size a ≤ S128x32x1024.size a
  inb_S128x32x1024_S128x1x1024_0_19_0 : ∀ a, (![0, 19, 0] : Fin 3 → Nat) a + S128x1x1024.size a ≤ S128x32x1024.size a
  inb_S128x32x1024_S128x1x1024_0_20_0 : ∀ a, (![0, 20, 0] : Fin 3 → Nat) a + S128x1x1024.size a ≤ S128x32x1024.size a
  inb_S128x32x1024_S128x1x1024_0_21_0 : ∀ a, (![0, 21, 0] : Fin 3 → Nat) a + S128x1x1024.size a ≤ S128x32x1024.size a
  inb_S128x32x1024_S128x1x1024_0_22_0 : ∀ a, (![0, 22, 0] : Fin 3 → Nat) a + S128x1x1024.size a ≤ S128x32x1024.size a
  inb_S128x32x1024_S128x1x1024_0_23_0 : ∀ a, (![0, 23, 0] : Fin 3 → Nat) a + S128x1x1024.size a ≤ S128x32x1024.size a
  inb_S128x32x1024_S128x1x1024_0_24_0 : ∀ a, (![0, 24, 0] : Fin 3 → Nat) a + S128x1x1024.size a ≤ S128x32x1024.size a
  inb_S128x32x1024_S128x1x1024_0_25_0 : ∀ a, (![0, 25, 0] : Fin 3 → Nat) a + S128x1x1024.size a ≤ S128x32x1024.size a
  inb_S128x32x1024_S128x1x1024_0_26_0 : ∀ a, (![0, 26, 0] : Fin 3 → Nat) a + S128x1x1024.size a ≤ S128x32x1024.size a
  inb_S128x32x1024_S128x1x1024_0_27_0 : ∀ a, (![0, 27, 0] : Fin 3 → Nat) a + S128x1x1024.size a ≤ S128x32x1024.size a
  inb_S128x32x1024_S128x1x1024_0_28_0 : ∀ a, (![0, 28, 0] : Fin 3 → Nat) a + S128x1x1024.size a ≤ S128x32x1024.size a
  inb_S128x32x1024_S128x1x1024_0_29_0 : ∀ a, (![0, 29, 0] : Fin 3 → Nat) a + S128x1x1024.size a ≤ S128x32x1024.size a
  inb_S128x32x1024_S128x1x1024_0_30_0 : ∀ a, (![0, 30, 0] : Fin 3 → Nat) a + S128x1x1024.size a ≤ S128x32x1024.size a
  inb_S128x32x1024_S128x1x1024_0_31_0 : ∀ a, (![0, 31, 0] : Fin 3 → Nat) a + S128x1x1024.size a ≤ S128x32x1024.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x32_S128x32_0_0 : ∀ a, (![0, 0] : Fin 2 → Nat) a + S128x32.size a ≤ S128x32.size a
  h_S128x32 : 0 < S128x32.numel
  broadcasts_S128x1_S128x32 : S128x1.Broadcasts S128x32
  reduces_S128x32_S128 : S128x32.Reduces [1] S128
  shapeCasts_S128_S128x1 : S128.ShapeCasts S128x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1_S128x1_0_0 : ∀ a, (![0, 0] : Fin 2 → Nat) a + S128x1.size a ≤ S128x1.size a
  h_S128x1 : 0 < S128x1.numel
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  reduces_S32x32000_S32 : S32x32000.Reduces [1] S32
  shapeCasts_S32_S32x1 : S32.ShapeCasts S32x1
  broadcasts_S32x1_S32x32000 : S32x1.Broadcasts S32x32000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  bcast_S2048_S2048x1_0 : S2048.BroadcastsInDim S2048x1 (![0] : Fin 1 → Fin S2048x1.rank)
  bcast_S_S2048x32 : S_.BroadcastsInDim S2048x32 (![] : Fin 0 → Fin S2048x32.rank)
  shapeCasts_S2048x32_S2048x32x1 : S2048x32.ShapeCasts S2048x32x1
  bcast_S_S2048x32x1 : S_.BroadcastsInDim S2048x32x1 (![] : Fin 0 → Fin S2048x32x1.rank)
  bcast_S1_S1x1x1_2 : S1.BroadcastsInDim S1x1x1 (![2] : Fin 1 → Fin S1x1x1.rank)
  bcast_S1x1x1_S2048x32x1_0_1_2 : S1x1x1.BroadcastsInDim S2048x32x1 (![0, 1, 2] : Fin 3 → Fin S2048x32x1.rank)
  reducesTo_S2048x32x1_S2048x32_d2 : S2048x32x1.ReducesTo [2] S2048x32
  h_S_ : 0 < S_.numel
  bcast_S2048x1_S2048x32_0_1 : S2048x1.BroadcastsInDim S2048x32 (![0, 1] : Fin 2 → Fin S2048x32.rank)
  bcast_S2048x32_S2048x32x1_0_1 : S2048x32.BroadcastsInDim S2048x32x1 (![0, 1] : Fin 2 → Fin S2048x32x1.rank)
  bcast_S2048x32_S2048x1x32_0_2 : S2048x32.BroadcastsInDim S2048x1x32 (![0, 2] : Fin 2 → Fin S2048x1x32.rank)
  bcast_S2048x32x1_S2048x32x32_0_1_2 : S2048x32x1.BroadcastsInDim S2048x32x32 (![0, 1, 2] : Fin 3 → Fin S2048x32x32.rank)
  bcast_S2048x1x32_S2048x32x32_0_1_2 : S2048x1x32.BroadcastsInDim S2048x32x32 (![0, 1, 2] : Fin 3 → Fin S2048x32x32.rank)
  reducesTo_S2048x32x32_S2048x32_d1 : S2048x32x32.ReducesTo [1] S2048x32
  bcast_S_S2048x1 : S_.BroadcastsInDim S2048x1 (![] : Fin 0 → Fin S2048x1.rank)
  concatenates_S2048x32x1_S2048x32x1_S2048x32x2_d2 : Shape.Concatenates [S2048x32x1, S2048x32x1] S2048x32x2 2
  shapeCasts_S2048x32000_S8x256x32000 : S2048x32000.ShapeCasts S8x256x32000
  dot_S128x1024_S1024x1_S128x1_1_0_0_1_n_n_wf : DotDims.WF S128x1024 S1024x1 S128x1 [1] [0] [0] [1] [] []
  dot_S128x1024_S1024x1024_S128x1024_1_0_0_1_n_n_wf : DotDims.WF S128x1024 S1024x1024 S128x1024 [1] [0] [0] [1] [] []
  gather_S2048x32000_S2048x32x1_S2048x32_n_1_0_0_1_2_11_wf : GatherDims.WF S2048x32000 S2048x32x1 S2048x32 [] [1] [0] [1] [0] 2 ![1, 1]
  scatter_S2048x32000_S2048x32x2_S2048x32_n_01_01_2_wf : ScatterDims.WF S2048x32000 S2048x32x2 S2048x32 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S2048x1024.size a
  hwx0_0 : ∀ i : grid0.Coords, EltTy.bits .f32 = 32 ∨ (Rect.block (s := S2048x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x1024.size a ≤ S2048x32x1024.size a
  hwx0_1 : ∀ i : grid0.Coords, EltTy.bits .f32 = 32 ∨ (Rect.block (s := S2048x32x1024) S128x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S2048x32.size a
  hwx0_2 : ∀ i : grid0.Coords, EltTy.bits .f32 = 32 ∨ (Rect.block (s := S2048x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .bf16 = 32 ∨ (Rect.block (s := S1024x1) S1024x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .bf16 = 32 ∨ (Rect.block (s := S1024x1) S1024x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .bf16 = 32 ∨ (Rect.block (s := S1024x1) S1024x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x32.size a ≤ S2048x32.size a
  hwx0_11 : ∀ i : grid0.Coords, EltTy.bits .f32 = 32 ∨ (Rect.block (s := S2048x32) S128x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S2048x1.size a
  hwx0_12 : ∀ i : grid0.Coords, EltTy.bits .f32 = 32 ∨ (Rect.block (s := S2048x1) S128x1.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32000.size a ≤ S2048x32000.size a
  hwx1_0 : ∀ i : grid1.Coords, EltTy.bits .f32 = 32 ∨ (Rect.block (s := S2048x32000) S32x32000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S2048x1.size a
  hwx1_1 : ∀ i : grid1.Coords, EltTy.bits .f32 = 32 ∨ (Rect.block (s := S2048x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x32000.size a ≤ S2048x32000.size a
  hwx1_2 : ∀ i : grid1.Coords, EltTy.bits .f32 = 32 ∨ (Rect.block (s := S2048x32000) S32x32000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S2048x1.size a
  hwx1_3 : ∀ i : grid1.Coords, EltTy.bits .f32 = 32 ∨ (Rect.block (s := S2048x1) S32x1.size (cc1_transform_3 i) (hinb1_3 i)).WholeWords (EltTy.packing .f32)

variable [Facts₀]

def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def gather_S2048x32000_S2048x32x1_S2048x32_n_1_0_0_1_2_11 : GatherDims S2048x32000 S2048x32x1 S2048x32 where
  offsetDims := []
  collapsedSliceDims := [1]
  operandBatchingDims := [0]
  startIndicesBatchingDims := [0]
  startIndexMap := [1]
  indexVectorDim := 2
  sliceSizes := ![1, 1]
  wf := gather_S2048x32000_S2048x32x1_S2048x32_n_1_0_0_1_2_11_wf
def scatter_S2048x32000_S2048x32x2_S2048x32_n_01_01_2 : ScatterDims S2048x32000 S2048x32x2 S2048x32 where
  updateWindowDims := []
  insertedWindowDims := [0, 1]
  scatterDimsToOperandDims := [0, 1]
  indexVectorDim := 2
  wf := scatter_S2048x32000_S2048x32x2_S2048x32_n_01_01_2_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1024x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19_0) S128x32.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19_1) S128x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v1) S32x32000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S32x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20_0) S32x32000.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_1) S32x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x1024 : Shape := ⟨3, ![8, 256, 1024]⟩
abbrev S8x256x32000 : Shape := ⟨3, ![8, 256, 32000]⟩
abbrev S2048x32 : Shape := ⟨2, ![2048, 32]⟩
abbrev S2048x32x1024 : Shape := ⟨3, ![2048, 32, 1024]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S1x1024 : Shape := ⟨2, ![1, 1024]⟩
abbrev S2048x1024 : Shape := ⟨2, ![2048, 1024]⟩
abbrev S2048x32000 : Shape := ⟨2, ![2048, 32000]⟩
abbrev S_ : Shape := ⟨0, ![]⟩
abbrev S2048x2048 : Shape := ⟨2, ![2048, 2048]⟩
abbrev S2048x1 : Shape := ⟨2, ![2048, 1]⟩
abbrev S1x1 : Shape := ⟨2, ![1, 1]⟩
abbrev S2048 : Shape := ⟨1, ![2048]⟩
abbrev S2048x32x1 : Shape := ⟨3, ![2048, 32, 1]⟩
abbrev S2048x32x2 : Shape := ⟨3, ![2048, 32, 2]⟩
abbrev S1024x1 : Shape := ⟨2, ![1024, 1]⟩

abbrev nBuf : Space → Nat
  | .hbm => 113
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x32000, .f32⟩
  | .hbm, ⟨2, _⟩ => ⟨S2048x32, .f32⟩
  | .hbm, ⟨3, _⟩ => ⟨S2048x32, .i32⟩
  | .hbm, ⟨4, _⟩ => ⟨S2048x32x1024, .f32⟩
  | .hbm, ⟨5, _⟩ => ⟨S1x2048, .f32⟩
  | .hbm, ⟨6, _⟩ => ⟨S1, .f32⟩
  | .hbm, ⟨7, _⟩ => ⟨S1024x2048, .f32⟩
  | .hbm, ⟨8, _⟩ => ⟨S1024, .f32⟩
  | .hbm, ⟨9, _⟩ => ⟨S1x1024, .f32⟩
  | .hbm, ⟨10, _⟩ => ⟨S1, .f32⟩
  | .hbm, ⟨11, _⟩ => ⟨S2048x1024, .f32⟩
  | .hbm, ⟨12, _⟩ => ⟨S2048x32000, .f32⟩
  | .hbm, ⟨13, _⟩ => ⟨S_, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x2048, .f32⟩
  | .hbm, ⟨19, _⟩ => ⟨S2048x1, .f32⟩
  | .hbm, ⟨20, _⟩ => ⟨S2048x1, .f32⟩
  | .hbm, ⟨21, _⟩ => ⟨S1x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048x1, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x32, .f32⟩
  | .hbm, ⟨41, _⟩ => ⟨S2048x32, .f32⟩
  | .hbm, ⟨42, _⟩ => ⟨S2048, .i32⟩
  | .hbm, ⟨43, _⟩ => ⟨S2048x1, .i32⟩
  | .hbm, ⟨44, _⟩ => ⟨S_, .f32⟩
  | .hbm, ⟨45, _⟩ => ⟨S2048x32000, .f32⟩
  | .hbm, ⟨46, _⟩ => ⟨S_, .i32⟩
  | .hbm, ⟨47, _⟩ => ⟨S2048x1, .i32⟩
  | .hbm, ⟨48, _⟩ => ⟨S2048x1, .i1⟩
  | .hbm, ⟨49, _⟩ => ⟨S_, .i32⟩
  | .hbm, ⟨50, _⟩ => ⟨S2048x1, .i32⟩
  | .hbm, ⟨51, _⟩ => ⟨S2048x1, .i32⟩
  | .hbm, ⟨52, _⟩ => ⟨S2048x1, .i32⟩
  | .hbm, ⟨53, _⟩ => ⟨S_, .i32⟩
  | .hbm, ⟨54, _⟩ => ⟨S2048x32, .i32⟩
  | .hbm, ⟨55, _⟩ => ⟨S2048x32, .i1⟩
  | .hbm, ⟨56, _⟩ => ⟨S_, .i32⟩
  | .hbm, ⟨57, _⟩ => ⟨S2048x32, .i32⟩
  | .hbm, ⟨58, _⟩ => ⟨S2048x32, .i32⟩
  | .hbm, ⟨59, _⟩ => ⟨S2048x32, .i32⟩
  | .hbm, ⟨60, _⟩ => ⟨S2048x32, .i32⟩
  | .hbm, ⟨61, _⟩ => ⟨S2048x32x1, .i32⟩
  | .hbm, ⟨62, _⟩ => ⟨S2048x32x1, .i32⟩
  | .hbm, ⟨63, _⟩ => ⟨S2048x32x2, .i32⟩
  | .hbm, ⟨64, _⟩ => ⟨S2048x32000, .f32⟩
  | .hbm, ⟨65, _⟩ => ⟨S2048x1024, .f32⟩
  | .hbm, ⟨66, _⟩ => ⟨S2048x1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048x1024, .f32⟩
  | .hbm, ⟨72, _⟩ => ⟨S2048x1024, .f32⟩
  | .hbm, ⟨73, _⟩ => ⟨S1024x1, .f32⟩
  | .hbm, ⟨74, _⟩ => ⟨S2048x1, .f32⟩
  | .hbm, ⟨75, _⟩ => ⟨S1x1, .f32⟩
  | .hbm, ⟨76, _⟩ => ⟨S2048x1, .f32⟩
  | .hbm, ⟨77, _⟩ => ⟨S2048x1, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .f32⟩
  | .hbm, ⟨91, _⟩ => ⟨S2048x1, .f32⟩
  | .hbm, ⟨92, _⟩ => ⟨S2048x32000, .f32⟩
  | .hbm, ⟨93, _⟩ => ⟨S2048x32000, .f32⟩
  | .hbm, ⟨94, _⟩ => ⟨S2048x32000, .f32⟩
  | .hbm, ⟨95, _⟩ => ⟨S_, .f32⟩
  | .hbm, ⟨96, _⟩ => ⟨S2048, .f32⟩
  | .hbm, ⟨97, _⟩ => ⟨S2048x1, .f32⟩
  | .hbm, ⟨98, _⟩ => ⟨S2048x32000, .f32⟩
  | .hbm, ⟨99, _⟩ => ⟨S2048x32000, .f32⟩
  | .hbm, ⟨100, _⟩ => ⟨S_, .f32⟩
  | .hbm, ⟨101, _⟩ => ⟨S2048x1, .f32⟩
  | .hbm, ⟨102, _⟩ => ⟨S2048x1, .f32⟩
  | .hbm, ⟨103, _⟩ => ⟨S2048x32000, .f32⟩
  | .hbm, ⟨104, _⟩ => ⟨S2048x32000, .f32⟩
  | .hbm, ⟨105, _⟩ => ⟨S2048x32000, .f32⟩
  | .hbm, ⟨106, _⟩ => ⟨S2048x32000, .f32⟩
  | .hbm, ⟨107, _⟩ => ⟨S2048x32000, .f32⟩
  | .hbm, ⟨108, _⟩ => ⟨S_, .f32⟩
  | .hbm, ⟨109, _⟩ => ⟨S2048x32000, .f32⟩
  | .hbm, ⟨110, _⟩ => ⟨S2048x32000, .f32⟩
  | .hbm, ⟨111, _⟩ => ⟨S2048x32000, .f32⟩
  | .hbm, ⟨112, _⟩ => ⟨S8x256x32000, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  shapeCasts_S8x256x1024_S2048x1024 : S8x256x1024.ShapeCasts S2048x1024
  shapeCasts_S8x256x32000_S2048x32000 : S8x256x32000.ShapeCasts S2048x32000
  reducesTo_S2048x32x1024_S2048x1024_d1 : S2048x32x1024.ReducesTo [1] S2048x1024
  h_S_ : 0 < S_.numel
  bcast_S_S2048x1024 : S_.BroadcastsInDim S2048x1024 (![] : Fin 0 → Fin S2048x1024.rank)
  concatenates_S2048x1024_S2048x1024_S2048x2048_d1 : Shape.Concatenates [S2048x1024, S2048x1024] S2048x2048 1
  transposes_S1x2048_S2048x1_1_0 : S1x2048.Transposes [1, 0] S2048x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  bcast_S2048x1_S2048x32_0_1 : S2048x1.BroadcastsInDim S2048x32 (![0, 1] : Fin 2 → Fin S2048x32.rank)
  reducesTo_S2048x32_S2048_d1 : S2048x32.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x32000 : S_.BroadcastsInDim S2048x32000 (![] : Fin 0 → Fin S2048x32000.rank)
  bcast_S_S2048x1 : S_.BroadcastsInDim S2048x1 (![] : Fin 0 → Fin S2048x1.rank)
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  concatenates_S2048x32x1_S2048x32x1_S2048x32x2_d2 : Shape.Concatenates [S2048x32x1, S2048x32x1] S2048x32x2 2
  transposes_S1024x2048_S2048x1024_1_0 : S1024x2048.Transposes [1, 0] S2048x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  transposes_S1x1024_S1024x1_1_0 : S1x1024.Transposes [1, 0] S1024x1
  reducesTo_S2048x32000_S2048_d1 : S2048x32000.ReducesTo [1] S2048
  bcast_S2048x1_S2048x32000_0_1 : S2048x1.BroadcastsInDim S2048x32000 (![0, 1] : Fin 2 → Fin S2048x32000.rank)
  shapeCasts_S2048x32000_S8x256x32000 : S2048x32000.ShapeCasts S8x256x32000
  dot_S2048x2048_S2048x1_S2048x1_1_0_0_1_n_n_wf : DotDims.WF S2048x2048 S2048x1 S2048x1 [1] [0] [0] [1] [] []
  scatter_S2048x32000_S2048x32x2_S2048x32_n_01_01_2_wf : ScatterDims.WF S2048x32000 S2048x32x2 S2048x32 [] [0, 1] [0, 1] 2
  dot_S2048x2048_S2048x1024_S2048x1024_1_0_0_1_n_n_wf : DotDims.WF S2048x2048 S2048x1024 S2048x1024 [1] [0] [0] [1] [] []
  dot_S2048x1024_S1024x1_S2048x1_1_0_0_1_n_n_wf : DotDims.WF S2048x1024 S1024x1 S2048x1 [1] [0] [0] [1] [] []

variable [Facts₀]

def dot_S2048x2048_S2048x1_S2048x1_1_0_0_1_n_n : DotDims S2048x2048 S2048x1 S2048x1 where
  lhsContracting := [1]
  rhsContracting := [0]
  lhsNonContracting := [0]
  rhsNonContracting := [1]
  lhsBatch := []
  rhsBatch := []
  wf := dot_S2048x2048_S2048x1_S2048x1_1_0_0_1_n_n_wf
def scatter_S2048x32000_S2048x32x2_S2048x32_n_01_01_2 : ScatterDims S2048x32000 S2048x32x2 S2048x32 where
  updateWindowDims := []
  insertedWindowDims := [0, 1]
  scatterDimsToOperandDims := [0, 1]
  indexVectorDim := 2
  wf := scatter_S2048x32000_S2048x32x2_S2048x32_n_01_01_2_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S2048x1024_S1024x1_S2048x1_1_0_0_1_n_n : DotDims S2048x1024 S1024x1 S2048x1 where
  lhsContracting := [1]
  rhsContracting := [0]
  lhsNonContracting := [0]
  rhsNonContracting := [1]
  lhsBatch := []
  rhsBatch := []
  wf := dot_S2048x1024_S1024x1_S2048x1_1_0_0_1_n_n_wf

class Facts : Prop extends Facts₀ where

variable [Facts]
-- ==== Proof.Spec.lean ====
/-
  The arithmetic both programs compute, row by row, as functions of the arguments read as families over plain
  finite index types.  A row n (of 2048) carries a hidden vector h n (1024 entries), 32 retrieved vectors sh n k, 32
  distances ds n k, 32 token numbers tk n k and a row of 32000 logits lg n.  From these:
  * ctx n j, the mean over k of sh n k j (the sum times 1/32);
  * a bandwidth exp(<h n, wh> + <ctx n, wc> + bb), the weights knn n k = softmax over k of (0 - ds n k) / bandwidth;
  * a mixing number mix n = logistic(<relu(W1h h n + W1c ctx n + b1), w2> + b2);
  * the model distribution md n v = softmax over v of lg n v, and lse n = max + log(sum of exp), its log-normaliser;
  * the result at (n, v): log((1 - mix n) * md n v + mix n * ex n v + eps), where ex n v is the sum of knn n k over
    the positions k whose token is v.
  `rout` is that formula.  `kout` is the same number reached another way: away from the row's tokens it is
  log((1 - mix n) * md n v + eps); at a token position it is log((1 - mix n) * exp(lg n v - lse n) + mix n * weff n k + eps),
  where weff n k sums knn n j over the positions j holding the same token as position k.
-/
import Idealize.ShloMosaic.PureOps.Ideal
import Idealize.ShloMosaic.Lib.ValueIdx

noncomputable section

open scoped BigOperators

namespace Cert.Spec

open Idealize.ShloMosaic

/-- The maximum of a finite family, from the bottom element. -/
def rmax {K : ℕ} (f : Fin K → EReal) : EReal := (Finset.univ : Finset (Fin K)).fold max ⊥ f

/-- 1/32, as the word the kernel multiplies by. -/
def c32 : EReal := Ideal.ofBits .f32 0x3D000000#32
/-- 1e-10 as a single-precision word. -/
def eps : EReal := Ideal.ofBits .f32 0x2EDBE6FF#32
/-- 1.0 as a single-precision word. -/
def one : EReal := Ideal.ofBits .f32 0x3F800000#32

section Feat
variable (h : Fin 2048 → Fin 1024 → EReal) (sh : Fin 2048 → Fin 32 → Fin 1024 → EReal) (ds : Fin 2048 → Fin 32 → EReal)

/-- The mean of the 32 retrieved vectors of row n, entry j. -/
def ctx (n : Fin 2048) (j : Fin 1024) : EReal := (∑ k : Fin 32, sh n k j) * c32

/-- A linear form of the pair (h n, ctx n): two inner products and a bias. -/
def lin (wh wc : Fin 1024 → EReal) (b : EReal) (n : Fin 2048) : EReal :=
  (∑ j : Fin 1024, h n j * wh j) + (∑ j : Fin 1024, ctx sh n j * wc j) + b

variable (wh wc : Fin 1024 → EReal) (bb : EReal)

/-- The scaled negative distances of row n. -/
def sc (n : Fin 2048) (k : Fin 32) : EReal := Ideal.div (0 - ds n k) (Ideal.exp (lin h sh wh wc bb n))
/-- exp of the scaled distances, shifted by the row maximum. -/
def ee (n : Fin 2048) (k : Fin 32) : EReal := Ideal.exp (sc h sh ds wh wc bb n k - rmax (sc h sh ds wh wc bb n))
/-- The retrieval weights: a softmax over the 32 positions of row n. -/
def knn (n : Fin 2048) (k : Fin 32) : EReal := Ideal.div (ee h sh ds wh wc bb n k) (∑ k' : Fin 32, ee h sh ds wh wc bb n k')

variable (w1h w1c : Fin 1024 → Fin 1024 → EReal) (b1 : Fin 1024 → EReal) (w2 : Fin 1024 → EReal) (b2 : EReal)

/-- The hidden layer of the mixing estimator: entry i of relu(W1h h n + W1c ctx n + b1). -/
def mh (n : Fin 2048) (i : Fin 1024) : EReal := max (lin h sh (w1h i) (w1c i) (b1 i) n) 0
/-- The mixing number of row n. -/
def mix (n : Fin 2048) : EReal := Ideal.logistic ((∑ i : Fin 1024, mh h sh w1h w1c b1 n i * w2 i) + b2)
end Feat

section Comb
variable (lg : Fin 2048 → Fin 32000 → EReal) (mx : Fin 2048 → EReal)

/-- exp of the logits of row n, shifted by the row maximum. -/
def e2 (n : Fin 2048) (v : Fin 32000) : EReal := Ideal.exp (lg n v - rmax (lg n))
/-- The softmax denominator of row n. -/
def d2 (n : Fin 2048) : EReal := ∑ v : Fin 32000, e2 lg n v
/-- The model distribution. -/
def md (n : Fin 2048) (v : Fin 32000) : EReal := Ideal.div (e2 lg n v) (d2 lg n)
/-- The log-normaliser of row n. -/
def lse (n : Fin 2048) : EReal := rmax (lg n) + Ideal.log (d2 lg n)
/-- The result away from the row's tokens. -/
def base (n : Fin 2048) (v : Fin 32000) : EReal := Ideal.log ((one - mx n) * md lg n v + eps)
end Comb

section Out
variable (lg : Fin 2048 → Fin 32000 → EReal) (mx : Fin 2048 → EReal) (kw : Fin 2048 → Fin 32 → EReal)
  (tk : Fin 2048 → Fin 32 → BitVec 32)

/-- Every token number is a column of the logits. -/
def InR : Prop := ∀ n k, 0 ≤ (tk n k).toInt ∧ (tk n k).toInt < 32000

/-- The column a token number names (read signed, held inside the logits' columns). -/
def tcol (n : Fin 2048) (k : Fin 32) : Fin 32000 := ⟨min (tk n k).toInt.toNat 31999, by omega⟩

/-- 1 where two token numbers are the same word, else 0. -/
def eqf (a b : BitVec 32) : EReal := if a = b then 1 else 0

/-- The weight gathered on position k's token: knn over the positions holding the same token. -/
def weff (n : Fin 2048) (k : Fin 32) : EReal := ∑ j : Fin 32, kw n j * eqf (tk n j) (tk n k)

/-- The result at the column of position k's token, as the kernel computes it. -/
def corr (n : Fin 2048) (k : Fin 32) : EReal :=
  Ideal.log (((one - mx n) * Ideal.exp (lg n (tcol tk n k) - lse lg n) + mx n * weff kw tk n k) + eps)

open Classical in
/-- The kernel's result: the token positions' values laid over the base. -/
def kout (n : Fin 2048) (v : Fin 32000) : EReal :=
  if hv : ∃ k, tcol tk n k = v then corr lg mx kw tk n (Classical.choose hv) else base lg mx n v

/-- The example-based distribution: knn summed over the positions whose token is v. -/
def exd (n : Fin 2048) (v : Fin 32000) : EReal := ∑ k ∈ Finset.univ.filter (fun k : Fin 32 => tcol tk n k = v), kw n k

/-- The reference's result. -/
def rout (n : Fin 2048) (v : Fin 32000) : EReal :=
  Ideal.log (((one - mx n) * md lg n v + mx n * exd kw tk n v) + eps)
end Out

/-! ## The arguments read as families -/
section Views
open Idealize.ShloMosaic.ValueIdx

/-- Row n of the [8, 256, ·] arrays: n = 256 a + b. -/
def rowA (n : Fin 2048) : Fin 8 := ⟨n.val / 256, by have := n.isLt; omega⟩
def rowB (n : Fin 2048) : Fin 256 := ⟨n.val % 256, by omega⟩

def hOf (x : (⟨3, ![8, 256, 1024]⟩ : Shape).Idx → EReal) (n : Fin 2048) (j : Fin 1024) : EReal := x (ix3 (rowA n) (rowB n) j)
def lgOf (x : (⟨3, ![8, 256, 32000]⟩ : Shape).Idx → EReal) (n : Fin 2048) (v : Fin 32000) : EReal := x (ix3 (rowA n) (rowB n) v)
def dsOf (x : (⟨2, ![2048, 32]⟩ : Shape).Idx → EReal) (n : Fin 2048) (k : Fin 32) : EReal := x (ix2 n k)
def tkOf (x : (⟨2, ![2048, 32]⟩ : Shape).Idx → BitVec 32) (n : Fin 2048) (k : Fin 32) : BitVec 32 := x (ix2 n k)
def shOf (x : (⟨3, ![2048, 32, 1024]⟩ : Shape).Idx → EReal) (n : Fin 2048) (k : Fin 32) (j : Fin 1024) : EReal := x (ix3 n k j)
/-- The first and the second half of a row of 2048 weights. -/
def loHalf (j : Fin 1024) : Fin 2048 := ⟨j.val, by have := j.isLt; omega⟩
def hiHalf (j : Fin 1024) : Fin 2048 := ⟨1024 + j.val, by have := j.isLt; omega⟩
def whOf (x : (⟨2, ![1, 2048]⟩ : Shape).Idx → EReal) (j : Fin 1024) : EReal := x (ix2 (0 : Fin 1) (loHalf j))
def wcOf (x : (⟨2, ![1, 2048]⟩ : Shape).Idx → EReal) (j : Fin 1024) : EReal := x (ix2 (0 : Fin 1) (hiHalf j))
def s1Of (x : (⟨1, ![1]⟩ : Shape).Idx → EReal) : EReal := x (ix1 (0 : Fin 1))
def w1hOf (x : (⟨2, ![1024, 2048]⟩ : Shape).Idx → EReal) (i j : Fin 1024) : EReal := x (ix2 i (loHalf j))
def w1cOf (x : (⟨2, ![1024, 2048]⟩ : Shape).Idx → EReal) (i j : Fin 1024) : EReal := x (ix2 i (hiHalf j))
def b1Of (x : (⟨1, ![1024]⟩ : Shape).Idx → EReal) (i : Fin 1024) : EReal := x (ix1 i)
def w2Of (x : (⟨2, ![1, 1024]⟩ : Shape).Idx → EReal) (i : Fin 1024) : EReal := x (ix2 (0 : Fin 1) i)

variable (x0 : (⟨3, ![8, 256, 1024]⟩ : Shape).Idx → EReal) (x1 : (⟨3, ![8, 256, 32000]⟩ : Shape).Idx → EReal)
  (x2 : (⟨2, ![2048, 32]⟩ : Shape).Idx → EReal) (x3 : (⟨2, ![2048, 32]⟩ : Shape).Idx → BitVec 32)
  (x4 : (⟨3, ![2048, 32, 1024]⟩ : Shape).Idx → EReal) (x5 : (⟨2, ![1, 2048]⟩ : Shape).Idx → EReal)
  (x6 : (⟨1, ![1]⟩ : Shape).Idx → EReal) (x7 : (⟨2, ![1024, 2048]⟩ : Shape).Idx → EReal)
  (x8 : (⟨1, ![1024]⟩ : Shape).Idx → EReal) (x9 : (⟨2, ![1, 1024]⟩ : Shape).Idx → EReal) (x10 : (⟨1, ![1]⟩ : Shape).Idx → EReal)

/-- The retrieval weights, the mixing number and the two forms of the result, of the eleven argument arrays. -/
def knnA : Fin 2048 → Fin 32 → EReal := knn (hOf x0) (shOf x4) (dsOf x2) (whOf x5) (wcOf x5) (s1Of x6)
def mixA : Fin 2048 → EReal := mix (hOf x0) (shOf x4) (w1hOf x7) (w1cOf x7) (b1Of x8) (w2Of x9) (s1Of x10)
def koutA : Fin 2048 → Fin 32000 → EReal :=
  kout (lgOf x1) (mixA x0 x4 x7 x8 x9 x10) (knnA x0 x2 x4 x5 x6) (tkOf x3)
def routA : Fin 2048 → Fin 32000 → EReal :=
  rout (lgOf x1) (mixA x0 x4 x7 x8 x9 x10) (knnA x0 x2 x4 x5 x6) (tkOf x3)
end Views

/-- A [2048, 32000] family laid out as the [8, 256, 32000] result. -/
def outArr (f : Fin 2048 → Fin 32000 → EReal) : (⟨3, ![8, 256, 32000]⟩ : Shape).Idx → EReal :=
  fun i => f ⟨(i 0).val * 256 + (i 1).val, by
      have h0 : (i 0).val < 8 := (i 0).isLt
      have h1 : (i 1).val < 256 := (i 1).isLt
      omega⟩ (i 2)

end Cert.Spec

end
-- ==== Proof.Bridge.lean ====
/-
  The algebra that joins the two forms of the result.  Over the plain families of the specification:
  a softmax taken through the log-normaliser is the softmax; the weight gathered on a token's positions is the
  example distribution at that token's column; hence the value laid over a token's column is the mixture formula
  there, and away from the row's tokens the example distribution vanishes.
-/
import proofs.«428110_j55259049230428_3_alg».proof.Proof.Spec
import Idealize.ShloMosaic.PureOps.Ideal
import Idealize.ShloMosaic.PureOps.Ideal.Laws
import Mathlib.Analysis.SpecialFunctions.Log.Basic
import Mathlib.Data.EReal.Basic
import Mathlib.Data.EReal.Operations
import Mathlib.Data.EReal.Inv
import Mathlib.Data.Finset.Lattice.Fold

noncomputable section

open scoped BigOperators

namespace Cert.Bridge

open Cert.Spec Idealize.ShloMosaic

/-! ## Words as values -/

/-- The word of negative infinity is the bottom element. -/
theorem bot_word : Ideal.ofBits .f32 0xFF800000#32 = (⊥ : EReal) := by
  simp [Ideal.ofBits, Ideal.ieee]

/-- The word 0x42000000 is 32. -/
theorem word32 : Ideal.ofBits .f32 0x42000000#32 = ((32 : ℝ) : EReal) := by
  simp [Ideal.ofBits, Ideal.ieee, -EReal.coe_mul]; norm_num

/-- The word 0x3D000000 is 1/32. -/
theorem c32_eq : Cert.Spec.c32 = ((1 / 32 : ℝ) : EReal) := by
  unfold Cert.Spec.c32
  simp [Ideal.ofBits, Ideal.ieee, -EReal.coe_mul]; norm_num

/-- Dividing by 32 is multiplying by 1/32, at the infinities too. -/
theorem div32 (x : EReal) : Ideal.div x (Ideal.ofBits .f32 0x42000000#32) = x * Cert.Spec.c32 := by
  rw [word32, c32_eq]
  exact Ideal.div_coe (by norm_num) x

theorem zero_sub' (x : EReal) : -x = 0 - x := by
  rw [sub_eq_add_neg, zero_add]

theorem max_bot_left (x : EReal) : max (⊥ : EReal) x = x := by
  simp

/-! ## Token numbers and their columns -/

/-- The column of a token number in range is the number itself. -/
theorem tcol_val (tk : Fin 2048 → Fin 32 → BitVec 32) (hin : InR tk) (n : Fin 2048) (k : Fin 32) :
    ((tcol tk n k).val : ℤ) = (tk n k).toInt := by
  obtain ⟨h0, h1⟩ := hin n k
  simp only [tcol]
  omega

/-- Two token numbers in range with the same column are the same word. -/
theorem tk_eq_of_tcol (tk : Fin 2048 → Fin 32 → BitVec 32) (hin : InR tk) (n : Fin 2048) (k k0 : Fin 32)
    (h : tcol tk n k = tcol tk n k0) : tk n k = tk n k0 := by
  apply BitVec.eq_of_toInt_eq
  rw [← tcol_val tk hin n k, ← tcol_val tk hin n k0, h]

/-- The value laid at a token's column does not depend on which of the equal-token positions wrote it. -/
theorem corr_congr (lg : Fin 2048 → Fin 32000 → EReal) (mx : Fin 2048 → EReal) (kw : Fin 2048 → Fin 32 → EReal)
    (tk : Fin 2048 → Fin 32 → BitVec 32) (hin : InR tk) (n : Fin 2048) (k k0 : Fin 32)
    (h : tcol tk n k = tcol tk n k0) : corr lg mx kw tk n k = corr lg mx kw tk n k0 := by
  have hw : tk n k = tk n k0 := tk_eq_of_tcol tk hin n k k0 h
  unfold corr weff
  rw [h, hw]

/-! ## The softmax through the log-normaliser -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty finite family is one of its members. -/
theorem rmax_mem {K : ℕ} [NeZero K] (f : Fin K → EReal) : ∃ i, rmax f = f i := by
  obtain ⟨i, -, hi⟩ := Finset.exists_mem_eq_sup (Finset.univ : Finset (Fin K)) Finset.univ_nonempty f
  exact ⟨i, hi⟩

theorem exp_sub_lse (lg : Fin 2048 → Fin 32000 → EReal) (hfin : ∀ n v, ∃ r : ℝ, lg n v = (r : EReal))
    (n : Fin 2048) (v : Fin 32000) : Ideal.exp (lg n v - lse lg n) = md lg n v := by
  choose r hr using hfin
  obtain ⟨i0, hi0⟩ := rmax_mem (lg n)
  set M : ℝ := r n i0
  have hmax : rmax (lg n) = (M : EReal) := by rw [hi0, hr]
  have he : ∀ w, e2 lg n w = ((Real.exp (r n w - M) : ℝ) : EReal) := by
    intro w
    unfold e2
    rw [hmax, hr, ← EReal.coe_sub, Ideal.exp_coe]
  set S : ℝ := ∑ w : Fin 32000, Real.exp (r n w - M) with hS
  have hd : d2 lg n = (S : EReal) := by
    unfold d2
    rw [hS, coe_sum]
    exact Finset.sum_congr rfl (fun w _ => he w)
  have hSpos : 0 < S := Finset.sum_pos (fun w _ => Real.exp_pos _) Finset.univ_nonempty
  have hlse : lse lg n = ((M + Real.log S : ℝ) : EReal) := by
    unfold lse
    rw [hmax, hd, Ideal.log_coe, if_neg (not_le.mpr hSpos), EReal.coe_add]
  have hreal : Real.exp (r n v - (M + Real.log S)) = Real.exp (r n v - M) * (1 / S) := by
    rw [show r n v - (M + Real.log S) = (r n v - M) - Real.log S by ring, Real.exp_sub, Real.exp_log hSpos]
    ring
  unfold md
  rw [hlse, he, hd, hr, ← EReal.coe_sub, Ideal.exp_coe, Ideal.div_coe (ne_of_gt hSpos), ← EReal.coe_mul, hreal]

/-! ## The gathered weight is the example distribution -/

theorem weff_eq_exd (kw : Fin 2048 → Fin 32 → EReal) (tk : Fin 2048 → Fin 32 → BitVec 32) (hin : InR tk)
    (n : Fin 2048) (k0 : Fin 32) : weff kw tk n k0 = exd kw tk n (tcol tk n k0) := by
  unfold weff exd
  rw [Finset.sum_filter]
  refine Finset.sum_congr rfl (fun j _ => ?_)
  by_cases hj : tk n j = tk n k0
  · have hc : tcol tk n j = tcol tk n k0 := by
      apply Fin.ext
      simp only [tcol]
      rw [hj]
    rw [if_pos hc, eqf, if_pos hj, mul_one]
  · have hc : ¬ tcol tk n j = tcol tk n k0 := fun hc => hj (tk_eq_of_tcol tk hin n j k0 hc)
    rw [if_neg hc, eqf, if_neg hj, mul_zero]

/-! ## The identity -/

theorem kout_eq_rout (lg : Fin 2048 → Fin 32000 → EReal) (mx : Fin 2048 → EReal) (kw : Fin 2048 → Fin 32 → EReal)
    (tk : Fin 2048 → Fin 32 → BitVec 32) (hin : InR tk) (hfin : ∀ n v, ∃ r : ℝ, lg n v = (r : EReal))
    (n : Fin 2048) (v : Fin 32000) : kout lg mx kw tk n v = rout lg mx kw tk n v := by
  unfold kout rout
  split
  · rename_i hv
    have hk0 : tcol tk n (Classical.choose hv) = v := Classical.choose_spec hv
    unfold corr
    rw [exp_sub_lse lg hfin, weff_eq_exd kw tk hin, hk0]
  · rename_i hv
    have hex : exd kw tk n v = 0 := by
      unfold exd
      refine Finset.sum_eq_zero (fun k hk => ?_)
      exact absurd ⟨k, (Finset.mem_filter.mp hk).2⟩ hv
    unfold base
    rw [hex, mul_zero, add_zero]

theorem koutA_eq_routA
    (x0 : (⟨3, ![8, 256, 1024]⟩ : Shape).Idx → EReal) (x1 : (⟨3, ![8, 256, 32000]⟩ : Shape).Idx → EReal)
    (x2 : (⟨2, ![2048, 32]⟩ : Shape).Idx → EReal) (x3 : (⟨2, ![2048, 32]⟩ : Shape).Idx → BitVec 32)
    (x4 : (⟨3, ![2048, 32, 1024]⟩ : Shape).Idx → EReal) (x5 : (⟨2, ![1, 2048]⟩ : Shape).Idx → EReal)
    (x6 : (⟨1, ![1]⟩ : Shape).Idx → EReal) (x7 : (⟨2, ![1024, 2048]⟩ : Shape).Idx → EReal)
    (x8 : (⟨1, ![1024]⟩ : Shape).Idx → EReal) (x9 : (⟨2, ![1, 1024]⟩ : Shape).Idx → EReal)
    (x10 : (⟨1, ![1]⟩ : Shape).Idx → EReal)
    (hin : InR (tkOf x3)) (hfin : ∀ n v, ∃ r : ℝ, lgOf x1 n v = (r : EReal)) :
    koutA x0 x1 x2 x3 x4 x5 x6 x7 x8 x9 x10 = routA x0 x1 x2 x3 x4 x5 x6 x7 x8 x9 x10 := by
  funext n v
  exact kout_eq_rout _ _ _ _ hin hfin n v

end Cert.Bridge

end
-- ==== Proof.PreDecode.lean ====
/-
  The precondition read back.  The printed predicate is a conjunction of twelve "all entries satisfy …" reductions: ten say
  that every entry x of a real-valued argument has |x| < +∞, and the last two say that every token number t has
  0 ≤ t and t < 32000, compared as signed words.  From the second of the ten, every logit is a real number (an extended
  real whose absolute value is below +∞ is neither infinity); from the last two, every token number lies in [0, 32000).
-/
import proofs.«428110_j55259049230428_3_alg».proof.Pre_finite_inputs
import proofs.«428110_j55259049230428_3_alg».proof.Proof.Spec
import Idealize.ShloMosaic.Lib.ReduceAll
import Idealize.ShloMosaic.Lib.StableHlo.Predicate
import Idealize.ShloMosaic.PureOps.Ideal.Laws

noncomputable section

namespace Cert.PreDecode

open Idealize.ShloMosaic

/-- The shape of rank 0 has one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_word] at h
  unfold Ideal.cmp at h
  rw [StableHlo.Predicate.ofBool_eq_one_iff] at h
  simp only [decide_eq_true_eq] at h
  induction x using EReal.rec with
  | bot => simp at h
  | coe r => exact ⟨r, rfl⟩
  | top => simp at h

/-- A word that is at least 0 and below 32000, compared signed, has its signed value in [0, 32000). -/
theorem range_of_cmp (w : BitVec 32) (h0 : IntOp.cmpi .sge w 0#32 = 1#1) (h1 : IntOp.cmpi .slt w 32000#32 = 1#1) :
    0 ≤ w.toInt ∧ w.toInt < 32000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (32000#32 : BitVec 32).toInt = 32000 := by decide
  rw [e0] at h0
  rw [e1] at h1
  exact ⟨h0, h1⟩

theorem decode [Cert.Pre_finite_inputs.Facts]
    (a0 : FVec Ideal Cert.Pre_finite_inputs.S8x256x1024 .f32) (a1 : FVec Ideal Cert.Pre_finite_inputs.S8x256x32000 .f32) (a2 : FVec Ideal Cert.Pre_finite_inputs.S2048x32 .f32)
    (a3 : IVec Cert.Pre_finite_inputs.S2048x32 32) (a4 : FVec Ideal Cert.Pre_finite_inputs.S2048x32x1024 .f32) (a5 : FVec Ideal Cert.Pre_finite_inputs.S1x2048 .f32)
    (a6 : FVec Ideal Cert.Pre_finite_inputs.S1 .f32) (a7 : FVec Ideal Cert.Pre_finite_inputs.S1024x2048 .f32) (a8 : FVec Ideal Cert.Pre_finite_inputs.S1024 .f32)
    (a9 : FVec Ideal Cert.Pre_finite_inputs.S1x1024 .f32) (a10 : FVec Ideal Cert.Pre_finite_inputs.S1 .f32)
    (h : Cert.Pre_finite_inputs.fn (F := Ideal) a0 a1 a2 a3 a4 a5 a6 a7 a8 a9 a10 = fun _ => 1#1) :
    Cert.Spec.InR (Cert.Spec.tkOf a3) ∧ ∀ (n : Fin 2048) (v : Fin 32000), ∃ r : ℝ, Cert.Spec.lgOf a1 n v = (r : EReal) := by
  have e := congrFun h ValueIdx.ix0
  simp only [Cert.Pre_finite_inputs.fn, Cert.Pre_finite_inputs.fn_part1, Cert.Pre_finite_inputs.fn_part2,
    Cert.Pre_finite_inputs.fn_part3, andi, IntOp.andi_eq_one] at e
  obtain ⟨⟨⟨⟨⟨⟨⟨⟨⟨⟨⟨-, hlg⟩, -⟩, -⟩, -⟩, -⟩, -⟩, -⟩, -⟩, -⟩, hge⟩, hlt⟩ := e
  refine ⟨fun n k => ?_, fun n v => ?_⟩
  · have g0 := Host.reduce_andi_all _ _ _ _ _ hge (ValueIdx.ix2 n k)
    have g1 := Host.reduce_andi_all _ _ _ _ _ hlt (ValueIdx.ix2 n k)
    exact range_of_cmp (a3 (ValueIdx.ix2 n k)) g0 g1
  · have g := Host.reduce_andi_all _ _ _ _ _ hlg (ValueIdx.ix3 (Cert.Spec.rowA n) (Cert.Spec.rowB n) v)
    exact real_of_abs_lt (a1 (ValueIdx.ix3 (Cert.Spec.rowA n) (Cert.Spec.rowB n) v)) g

end Cert.PreDecode

end
-- ==== Proof.HostPre.lean ====
/-
  The arrays the first region reads, as the leading host operations lay them out from the arguments, read at an index:
  the hidden states and the logits flattened to 2048 rows (row n = 256 a + b of the batched array); the two halves of the
  row of 2048 bandwidth weights, each turned into a column; the two 1024-column halves of the first layer's weights, each
  transposed (entry (j, i) of the laid-out array is entry (i, j) of the half); the biases as 1-row or 1-entry arrays;
  the second layer's weights as a column.  A change of float format is the identity at the ideal values.  No operation
  writes an argument's own buffer.
-/
import proofs.«428110_j55259049230428_3_alg».proof.Proof.Gen.KernelIdeal.Frame
import proofs.«428110_j55259049230428_3_alg».proof.Proof.Spec
import Idealize.ShloMosaic.Lib.ValueIdx
import Idealize.ShloMosaic.Lib.Pipeline.Value
import Idealize.ShloMosaic.Lib.ValueLayout
import Idealize.ShloMosaic.Lib.StableHlo.Run

/-!
  The host operations that run before the first region, read at an index.

  Each of them is a change of layout of one argument array: a reshape keeps the row-major position, a unit-stride slice
  shifts a coordinate by its offset, a transpose of a matrix swaps the two coordinates, and a change of float format
  is the identity on extended reals.  So every array the first region finds is an argument array read at an index
  computed from the index asked for:
  * a row n of the [2048, ·] arrays is the pair (n / 256, n % 256) of the [8, 256, ·] arguments;
  * the two halves of a row of 2048 weights are its entries j and 1024 + j;
  * a transposed half of the [1024, 2048] weight matrix at (j, i) is the matrix at (i, j) resp. (i, 1024 + j).
  The arguments themselves are written by no operation and keep their launch contents.
-/

set_option maxRecDepth 16384

noncomputable section

namespace Cert.KernelIdeal.HostPre

open Cert.KernelIdeal Cert.KernelIdeal.Gen Idealize.ShloMosaic Idealize.ShloMosaic.TcCoe Idealize.ShloMosaic.ValueIdx Cert.Spec

variable (m : (ℓ : Loc nD τ sig) → Buf (Elt Ideal) ℓ) (ρ : Dev nD → PrngReg)

/-! ## The arrays as terms over the arguments -/

/-- The hidden vectors: the [8, 256, 1024] argument recast to [2048, 1024]. -/
theorem v0_term (c : Dev nD) :
    (V1 m ρ c main_v0 : S2048x1024.Idx → EReal)
      = shapeCast S2048x1024 (m ((c : Thread nD τ).loc main_arg0) : S8x256x1024.Idx → EReal) shapeCasts_S8x256x1024_S2048x1024 := by
  show StableHlo.after hostOps0 _ (Proc.devRef .tc main_v0) = _
  after_results
  rfl

/-- The logits: the [8, 256, 32000] argument recast to [2048, 32000]. -/
theorem v1_term (c : Dev nD) :
    (V1 m ρ c main_v1 : S2048x32000.Idx → EReal)
      = shapeCast S2048x32000 (m ((c : Thread nD τ).loc main_arg1) : S8x256x32000.Idx → EReal) shapeCasts_S8x256x32000_S2048x32000 := by
  show StableHlo.after hostOps0 _ (Proc.devRef .tc main_v1) = _
  after_results
  rfl

/-- The first half of the bandwidth's weight row, as a column. -/
theorem v4_term (c : Dev nD) :
    (V1 m ρ c main_v4 : S1024x1.Idx → EReal)
      = truncf (F := Ideal) .bf16 (transpose S1024x1 [1, 0]
          (extractStridedSlice S1x1024 ![0, 0] (m ((c : Thread nD τ).loc main_arg5) : S1x2048.Idx → EReal) slices_S1x2048_S1x1024_0_0)
          transposes_S1x1024_S1024x1_1_0) bitsLt_bf16_f32 := by
  show StableHlo.after hostOps0 _ (Proc.devRef .tc main_v4) = _
  after_results

/-- The second half of the bandwidth's weight row, as a column. -/
theorem v7_term (c : Dev nD) :
    (V1 m ρ c main_v7 : S1024x1.Idx → EReal)
      = truncf (F := Ideal) .bf16 (transpose S1024x1 [1, 0]
          (extractStridedSlice S1x1024 ![0, 1024] (m ((c : Thread nD τ).loc main_arg5) : S1x2048.Idx → EReal) slices_S1x2048_S1x1024_0_1024)
          transposes_S1x1024_S1024x1_1_0) bitsLt_bf16_f32 := by
  show StableHlo.after hostOps0 _ (Proc.devRef .tc main_v7) = _
  after_results

/-- The bandwidth's bias, as a 1 × 1 matrix. -/
theorem v8_term (c : Dev nD) :
    (V1 m ρ c main_v8 : S1x1.Idx → EReal)
      = shapeCast S1x1 (m ((c : Thread nD τ).loc main_arg6) : S1.Idx → EReal) shapeCasts_S1_S1x1 := by
  show StableHlo.after hostOps0 _ (Proc.devRef .tc main_v8) = _
  after_results
  rfl

/-- The left half of the hidden layer's weight matrix, transposed. -/
theorem v11_term (c : Dev nD) :
    (V1 m ρ c main_v11 : S1024x1024.Idx → EReal)
      = truncf (F := Ideal) .bf16 (transpose S1024x1024 [1, 0]
          (extractStridedSlice S1024x1024 ![0, 0] (m ((c : Thread nD τ).loc main_arg7) : S1024x2048.Idx → EReal) slices_S1024x2048_S1024x1024_0_0)
          transposes_S1024x1024_S1024x1024_1_0) bitsLt_bf16_f32 := by
  show StableHlo.after hostOps0 _ (Proc.devRef .tc main_v11) = _
  after_results

/-- The right half of the hidden layer's weight matrix, transposed. -/
theorem v14_term (c : Dev nD) :
    (V1 m ρ c main_v14 : S1024x1024.Idx → EReal)
      = truncf (F := Ideal) .bf16 (transpose S1024x1024 [1, 0]
          (extractStridedSlice S1024x1024 ![0, 1024] (m ((c : Thread nD τ).loc main_arg7) : S1024x2048.Idx → EReal) slices_S1024x2048_S1024x1024_0_1024)
          transposes_S1024x1024_S1024x1024_1_0) bitsLt_bf16_f32 := by
  show StableHlo.after hostOps0 _ (Proc.devRef .tc main_v14) = _
  after_results

/-- The hidden layer's bias, as a row. -/
theorem v15_term (c : Dev nD) :
    (V1 m ρ c main_v15 : S1x1024.Idx → EReal)
      = shapeCast S1x1024 (m ((c : Thread nD τ).loc main_arg8) : S1024.Idx → EReal) shapeCasts_S1024_S1x1024 := by
  show StableHlo.after hostOps0 _ (Proc.devRef .tc main_v15) = _
  after_results
  rfl

/-- The output layer's weight row, as a column. -/
theorem v17_term (c : Dev nD) :
    (V1 m ρ c main_v17 : S1024x1.Idx → EReal)
      = truncf (F := Ideal) .bf16 (transpose S1024x1 [1, 0] (m ((c : Thread nD τ).loc main_arg9) : S1x1024.Idx → EReal)
          transposes_S1x1024_S1024x1_1_0) bitsLt_bf16_f32 := by
  show StableHlo.after hostOps0 _ (Proc.devRef .tc main_v17) = _
  after_results

/-- The output layer's bias, as a 1 × 1 matrix. -/
theorem v18_term (c : Dev nD) :
    (V1 m ρ c main_v18 : S1x1.Idx → EReal)
      = shapeCast S1x1 (m ((c : Thread nD τ).loc main_arg10) : S1.Idx → EReal) shapeCasts_S1_S1x1 := by
  show StableHlo.after hostOps0 _ (Proc.devRef .tc main_v18) = _
  after_results
  rfl

/-! ## The layout operations at an index, over plain arrays -/

/-- Row n of a [2048, K] recast of an [8, 256, K] array is its row (n / 256, n % 256): both sit at row-major
    position n * K + j, since n = 256 (n / 256) + n % 256. -/
theorem rows_1024 (x : S8x256x1024.Idx → EReal) (n : Fin 2048) (j : Fin 1024) :
    shapeCast S2048x1024 x shapeCasts_S8x256x1024_S2048x1024 (ix2 n j) = x (ix3 (rowA n) (rowB n) j) :=
  shapeCast_apply x shapeCasts_S8x256x1024_S2048x1024 (ix2 n j) (ix3 (rowA n) (rowB n) j) (by
    rewrite [Shape.rowMajor_val_three, Shape.rowMajor_val_two]
    show ((n.val / 256) * 256 + n.val % 256) * 1024 + j.val = n.val * 1024 + j.val
    omega)

theorem rows_32000 (x : S8x256x32000.Idx → EReal) (n : Fin 2048) (v : Fin 32000) :
    shapeCast S2048x32000 x shapeCasts_S8x256x32000_S2048x32000 (ix2 n v) = x (ix3 (rowA n) (rowB n) v) :=
  shapeCast_apply x shapeCasts_S8x256x32000_S2048x32000 (ix2 n v) (ix3 (rowA n) (rowB n) v) (by
    rewrite [Shape.rowMajor_val_three, Shape.rowMajor_val_two]
    show ((n.val / 256) * 256 + n.val % 256) * 32000 + v.val = n.val * 32000 + v.val
    omega)

/-- A one-entry array recast to a 1 × 1 matrix keeps its entry. -/
theorem one_by_one (x : S1.Idx → EReal) :
    shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1)) (by
    rewrite [Shape.rowMajor_val_one, Shape.rowMajor_val_two]
    show (0 : ℕ) = 0 * 1 + 0
    omega)

/-- A vector recast to a one-row matrix: entry (0, i) is entry i. -/
theorem as_row (x : S1024.Idx → EReal) (i : Fin 1024) :
    shapeCast S1x1024 x shapeCasts_S1024_S1x1024 (ix2 (0 : Fin 1) i) = x (ix1 i) :=
  shapeCast_apply x shapeCasts_S1024_S1x1024 (ix2 (0 : Fin 1) i) (ix1 i) (by
    rewrite [Shape.rowMajor_val_one, Shape.rowMajor_val_two]
    show i.val = 0 * 1024 + i.val
    omega)

/-- A row turned into a column: entry (j, 0) of the transpose is entry (0, j). -/
theorem col_of_row (x : S1x1024.Idx → EReal) (j : Fin 1024) :
    transpose S1024x1 [1, 0] x transposes_S1x1024_S1024x1_1_0 (ix2 j (0 : Fin 1)) = x (ix2 (0 : Fin 1) j) :=
  transpose_apply [1, 0] x transposes_S1x1024_S1024x1_1_0 (ix2 j (0 : Fin 1)) (ix2 (0 : Fin 1) j) (fun b => match b with
    | ⟨0, _⟩ => rfl
    | ⟨1, _⟩ => rfl)

/-- A square matrix transposed: entry (j, i) is entry (i, j). -/
theorem sq_transpose (x : S1024x1024.Idx → EReal) (i j : Fin 1024) :
    transpose S1024x1024 [1, 0] x transposes_S1024x1024_S1024x1024_1_0 (ix2 j i) = x (ix2 i j) :=
  transpose_apply [1, 0] x transposes_S1024x1024_S1024x1024_1_0 (ix2 j i) (ix2 i j) (fun b => match b with
    | ⟨0, _⟩ => rfl
    | ⟨1, _⟩ => rfl)

/-- The first 1024 entries of a row of 2048. -/
theorem row_lo (x : S1x2048.Idx → EReal) (j : Fin 1024) :
    extractStridedSlice S1x1024 ![0, 0] x slices_S1x2048_S1x1024_0_0 (ix2 (0 : Fin 1) j) = x (ix2 (0 : Fin 1) (loHalf j)) :=
  extractStridedSlice_apply ![0, 0] x slices_S1x2048_S1x1024_0_0 (ix2 (0 : Fin 1) j) (ix2 (0 : Fin 1) (loHalf j)) (fun a => match a with
    | ⟨0, _⟩ => by show (0 : ℕ) = 0 + 0; omega
    | ⟨1, _⟩ => by show j.val = 0 + j.val; omega)

/-- The last 1024 entries of a row of 2048. -/
theorem row_hi (x : S1x2048.Idx → EReal) (j : Fin 1024) :
    extractStridedSlice S1x1024 ![0, 1024] x slices_S1x2048_S1x1024_0_1024 (ix2 (0 : Fin 1) j) = x (ix2 (0 : Fin 1) (hiHalf j)) :=
  extractStridedSlice_apply ![0, 1024] x slices_S1x2048_S1x1024_0_1024 (ix2 (0 : Fin 1) j) (ix2 (0 : Fin 1) (hiHalf j)) (fun a => match a with
    | ⟨0, _⟩ => by show (0 : ℕ) = 0 + 0; omega
    | ⟨1, _⟩ => by show 1024 + j.val = 1024 + j.val; omega)

/-- The left half of a [1024, 2048] matrix. -/
theorem mat_lo (x : S1024x2048.Idx → EReal) (i j : Fin 1024) :
    extractStridedSlice S1024x1024 ![0, 0] x slices_S1024x2048_S1024x1024_0_0 (ix2 i j) = x (ix2 i (loHalf j)) :=
  extractStridedSlice_apply ![0, 0] x slices_S1024x2048_S1024x1024_0_0 (ix2 i j) (ix2 i (loHalf j)) (fun a => match a with
    | ⟨0, _⟩ => by show i.val = 0 + i.val; omega
    | ⟨1, _⟩ => by show j.val = 0 + j.val; omega)

/-- The right half of a [1024, 2048] matrix. -/
theorem mat_hi (x : S1024x2048.Idx → EReal) (i j : Fin 1024) :
    extractStridedSlice S1024x1024 ![0, 1024] x slices_S1024x2048_S1024x1024_0_1024 (ix2 i j) = x (ix2 i (hiHalf j)) :=
  extractStridedSlice_apply ![0, 1024] x slices_S1024x2048_S1024x1024_0_1024 (ix2 i j) (ix2 i (hiHalf j)) (fun a => match a with
    | ⟨0, _⟩ => by show i.val = 0 + i.val; omega
    | ⟨1, _⟩ => by show 1024 + j.val = 1024 + j.val; omega)

/-! ## The arrays the first region finds, at an index -/

theorem v0_apply (c : Dev nD) (n : Fin 2048) (j : Fin 1024) :
    V1 m ρ c main_v0 (ix2 n j) = hOf (m ((c : Thread nD τ).loc main_arg0)) n j :=
  (congrFun (v0_term m ρ c) (ix2 n j)).trans (rows_1024 _ n j)

theorem v1_apply (c : Dev nD) (n : Fin 2048) (v : Fin 32000) :
    V1 m ρ c main_v1 (ix2 n v) = lgOf (m ((c : Thread nD τ).loc main_arg1)) n v :=
  (congrFun (v1_term m ρ c) (ix2 n v)).trans (rows_32000 _ n v)

theorem v4_apply (c : Dev nD) (j : Fin 1024) :
    V1 m ρ c main_v4 (ix2 j (0 : Fin 1)) = whOf (m ((c : Thread nD τ).loc main_arg5)) j :=
  (congrFun (v4_term m ρ c) (ix2 j (0 : Fin 1))).trans ((col_of_row _ j).trans (row_lo _ j))

theorem v7_apply (c : Dev nD) (j : Fin 1024) :
    V1 m ρ c main_v7 (ix2 j (0 : Fin 1)) = wcOf (m ((c : Thread nD τ).loc main_arg5)) j :=
  (congrFun (v7_term m ρ c) (ix2 j (0 : Fin 1))).trans ((col_of_row _ j).trans (row_hi _ j))

theorem v8_apply (c : Dev nD) :
    V1 m ρ c main_v8 (ix2 (0 : Fin 1) (0 : Fin 1)) = s1Of (m ((c : Thread nD τ).loc main_arg6)) :=
  (congrFun (v8_term m ρ c) (ix2 (0 : Fin 1) (0 : Fin 1))).trans (one_by_one _)

theorem v11_apply (c : Dev nD) (i j : Fin 1024) :
    V1 m ρ c main_v11 (ix2 j i) = w1hOf (m ((c : Thread nD τ).loc main_arg7)) i j :=
  (congrFun (v11_term m ρ c) (ix2 j i)).trans ((sq_transpose _ i j).trans (mat_lo _ i j))

theorem v14_apply (c : Dev nD) (i j : Fin 1024) :
    V1 m ρ c main_v14 (ix2 j i) = w1cOf (m ((c : Thread nD τ).loc main_arg7)) i j :=
  (congrFun (v14_term m ρ c) (ix2 j i)).trans ((sq_transpose _ i j).trans (mat_hi _ i j))

theorem v15_apply (c : Dev nD) (i : Fin 1024) :
    V1 m ρ c main_v15 (ix2 (0 : Fin 1) i) = b1Of (m ((c : Thread nD τ).loc main_arg8)) i :=
  (congrFun (v15_term m ρ c) (ix2 (0 : Fin 1) i)).trans (as_row _ i)

theorem v17_apply (c : Dev nD) (i : Fin 1024) :
    V1 m ρ c main_v17 (ix2 i (0 : Fin 1)) = w2Of (m ((c : Thread nD τ).loc main_arg9)) i :=
  (congrFun (v17_term m ρ c) (ix2 i (0 : Fin 1))).trans (col_of_row _ i)

theorem v18_apply (c : Dev nD) :
    V1 m ρ c main_v18 (ix2 (0 : Fin 1) (0 : Fin 1)) = s1Of (m ((c : Thread nD τ).loc main_arg10)) :=
  (congrFun (v18_term m ρ c) (ix2 (0 : Fin 1) (0 : Fin 1))).trans (one_by_one _)

/-! ## The arguments the first region reads directly: no operation writes an argument -/

theorem arg2_eq (c : Dev nD) : V1 m ρ c main_arg2 = m ((c : Thread nD τ).loc main_arg2) := by
  show StableHlo.after hostOps0 _ (Proc.devRef .tc main_arg2) = _
  after_results

theorem arg3_eq (c : Dev nD) : V1 m ρ c main_arg3 = m ((c : Thread nD τ).loc main_arg3) := by
  show StableHlo.after hostOps0 _ (Proc.devRef .tc main_arg3) = _
  after_results

theorem arg4_eq (c : Dev nD) : V1 m ρ c main_arg4 = m ((c : Thread nD τ).loc main_arg4) := by
  show StableHlo.after hostOps0 _ (Proc.devRef .tc main_arg4) = _
  after_results

end Cert.KernelIdeal.HostPre

end
-- ==== Proof.KFeatA.lean ====
/-
  Region 0's retrieval weights.  A block of 128 rows carries, per row, a hidden vector, 32 retrieved vectors and 32
  distances.  The block of means is the 32 retrieved slices added one after the other from zero, times 1/32; read at
  an entry it is the sum over the 32 positions times that word (`ctxBlk_apply`).  The weights of a row are a softmax
  over its 32 positions of the negated distances divided by a bandwidth, the exponential of a linear form of the
  row's hidden vector and mean; they depend on that row's data only (`knnRow`, `knn_eq_row`), and the body's result
  for a block, read at (p, k), is that function of row p of the blocks (`weights_apply`).  Point t of the 16 holds
  rows 128 t .. 128 t + 127 of every row-blocked array and the whole of every weight array, so what it writes back is
  block t of one function of the input arrays (`flushed_eq`); the 16 blocks cover the [2048, 32] array, row r in the
  block of point r / 128 (`cover11`), and the array ends holding that function everywhere (`knn_arr`).
-/
import proofs.«428110_j55259049230428_3_alg».proof.Proof.Gen.KernelIdeal.Frame
import proofs.«428110_j55259049230428_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.KFeatA

open Cert.KernelIdeal Cert.KernelIdeal.Gen Idealize.ShloMosaic Idealize.ShloMosaic.ValueIdx Idealize.ShloMosaic.TcCoe

/-- The block of means: the 32 slices of a [128, 32, 1024] block summed and scaled. -/
abbrev ctxBlk (x1 : Vec Ideal S128x32x1024 .f32) : FVec Ideal S128x1024 .bf16 :=
  k0_pay11 (k0_pay8 (k0_pay6 (k0_pay4 (View.ld x1 r0_1) (View.ld x1 r0_2) (View.ld x1 r0_3) (View.ld x1 r0_4) (View.ld x1 r0_5) (View.ld x1 r0_6) (View.ld x1 r0_7) (View.ld x1 r0_8)) (k0_pay5 (View.ld x1 r0_9)) (View.ld x1 r0_10) (View.ld x1 r0_11) (View.ld x1 r0_12) (View.ld x1 r0_13) (View.ld x1 r0_14) (View.ld x1 r0_15) (View.ld x1 r0_16) (View.ld x1 r0_17) (View.ld x1 r0_18)) (k0_pay7 (View.ld x1 r0_19)) (View.ld x1 r0_20) (View.ld x1 r0_21) (View.ld x1 r0_22) (View.ld x1 r0_23) (View.ld x1 r0_24) (View.ld x1 r0_25) (View.ld x1 r0_26) (View.ld x1 r0_27) (View.ld x1 r0_28)) (k0_pay9 (View.ld x1 r0_29)) (View.ld x1 r0_30) (View.ld x1 r0_31) (View.ld x1 r0_32)

/-- One slice of the block, its unit axis dropped, read at (p, q): the block at (p, o, q). -/
theorem slice_apply (x1 : Vec Ideal S128x32x1024 .f32) (o : ℕ)
    (inb : ∀ a, (![0, o, 0] : Fin 3 → ℕ) a + (![128, 1, 1024] : Fin 3 → ℕ) a ≤ S128x32x1024.size a) (p : Fin 128) (q : Fin 1024) :
    shapeCast (s := S128x1x1024) S128x1024 (View.ld x1 (Rect.unit (s := S128x32x1024) ![0, o, 0] ![128, 1, 1024] inb)) shapeCasts_S128x1x1024_S128x1024 (ix2 p q)
      = x1 (ix3 p ⟨o, by have := inb 1; simpa using this⟩ q) := by
  refine (shapeCast_apply (s := S128x1x1024) (t := S128x1024) _ _ (ix2 p q) (ix3 p (0 : Fin 1) q) ?_).trans ?_
  · show ((⟨3, ![128, 1, 1024]⟩ : Shape).rowMajor (ix3 p (0 : Fin 1) q)).val = ((⟨2, ![128, 1024]⟩ : Shape).rowMajor (ix2 p q)).val
    rw [Shape.rowMajor_val_three, Shape.rowMajor_val_two]
    show (p.val * 1 + 0) * 1024 + q.val = p.val * 1024 + q.val
    omega
  · refine congrArg x1 (funext fun a => Fin.ext ?_)
    match a with
    | ⟨0, _⟩ => show 0 + 1 * p.val = p.val; omega
    | ⟨1, _⟩ => show o + 1 * 0 = o; omega
    | ⟨2, _⟩ => show 0 + 1 * q.val = q.val; omega

theorem ctxBlk_apply (x1 : Vec Ideal S128x32x1024 .f32) (p : Fin 128) (q : Fin 1024) :
    ctxBlk x1 (ix2 p q) = (∑ k : Fin 32, x1 (ix3 p k q)) * Cert.Spec.c32 := by
  unfold ctxBlk k0_pay11 k0_pay9 k0_pay8 k0_pay7 k0_pay6 k0_pay5 k0_pay4
  simp only [truncf_apply, mulf_apply, addf_apply, broadcast_apply, Ideal.ofBits_def, Ideal.ofBits_zero_f32]
  rw [
    slice_apply x1 0 inb_S128x32x1024_S128x1x1024_0_0_0 p q, slice_apply x1 1 inb_S128x32x1024_S128x1x1024_0_1_0 p q,
    slice_apply x1 2 inb_S128x32x1024_S128x1x1024_0_2_0 p q, slice_apply x1 3 inb_S128x32x1024_S128x1x1024_0_3_0 p q,
    slice_apply x1 4 inb_S128x32x1024_S128x1x1024_0_4_0 p q, slice_apply x1 5 inb_S128x32x1024_S128x1x1024_0_5_0 p q,
    slice_apply x1 6 inb_S128x32x1024_S128x1x1024_0_6_0 p q, slice_apply x1 7 inb_S128x32x1024_S128x1x1024_0_7_0 p q,
    slice_apply x1 8 inb_S128x32x1024_S128x1x1024_0_8_0 p q, slice_apply x1 9 inb_S128x32x1024_S128x1x1024_0_9_0 p q,
    slice_apply x1 10 inb_S128x32x1024_S128x1x1024_0_10_0 p q, slice_apply x1 11 inb_S128x32x1024_S128x1x1024_0_11_0 p q,
    slice_apply x1 12 inb_S128x32x1024_S128x1x1024_0_12_0 p q, slice_apply x1 13 inb_S128x32x1024_S128x1x1024_0_13_0 p q,
    slice_apply x1 14 inb_S128x32x1024_S128x1x1024_0_14_0 p q, slice_apply x1 15 inb_S128x32x1024_S128x1x1024_0_15_0 p q,
    slice_apply x1 16 inb_S128x32x1024_S128x1x1024_0_16_0 p q, slice_apply x1 17 inb_S128x32x1024_S128x1x1024_0_17_0 p q,
    slice_apply x1 18 inb_S128x32x1024_S128x1x1024_0_18_0 p q, slice_apply x1 19 inb_S128x32x1024_S128x1x1024_0_19_0 p q,
    slice_apply x1 20 inb_S128x32x1024_S128x1x1024_0_20_0 p q, slice_apply x1 21 inb_S128x32x1024_S128x1x1024_0_21_0 p q,
    slice_apply x1 22 inb_S128x32x1024_S128x1x1024_0_22_0 p q, slice_apply x1 23 inb_S128x32x1024_S128x1x1024_0_23_0 p q,
    slice_apply x1 24 inb_S128x32x1024_S128x1x1024_0_24_0 p q, slice_apply x1 25 inb_S128x32x1024_S128x1x1024_0_25_0 p q,
    slice_apply x1 26 inb_S128x32x1024_S128x1x1024_0_26_0 p q, slice_apply x1 27 inb_S128x32x1024_S128x1x1024_0_27_0 p q,
    slice_apply x1 28 inb_S128x32x1024_S128x1x1024_0_28_0 p q, slice_apply x1 29 inb_S128x32x1024_S128x1x1024_0_29_0 p q,
    slice_apply x1 30 inb_S128x32x1024_S128x1x1024_0_30_0 p q, slice_apply x1 31 inb_S128x32x1024_S128x1x1024_0_31_0 p q]
  simp only [Fin.sum_univ_castSucc, Fin.sum_univ_zero]
  rfl

/-! ## The layout operations of the block, read at an entry -/

/-- A column of 128 made of a vector of 128: entry (p, 0) is entry p. -/
theorem col_apply {α : Type} (v : S128.Idx → α) (p : Fin 128) :
    shapeCast S128x1 v shapeCasts_S128_S128x1 (ix2 p (0 : Fin 1)) = v (ix1 p) := by
  refine shapeCast_apply (s := S128) (t := S128x1) _ _ (ix2 p (0 : Fin 1)) (ix1 p) ?_
  show ((⟨1, ![128]⟩ : Shape).rowMajor (ix1 p)).val = ((⟨2, ![128, 1]⟩ : Shape).rowMajor (ix2 p (0 : Fin 1))).val
  rw [Shape.rowMajor_val_one, Shape.rowMajor_val_two]
  show p.val = p.val * 1 + 0
  omega

/-- A column of 128 spread over 32 lanes: entry (p, k) is the column's entry (p, 0). -/
theorem bcol_apply {α : Type} (v : S128x1.Idx → α) (p : Fin 128) (k : Fin 32) :
    broadcastTo S128x32 v broadcasts_S128x1_S128x32 (ix2 p k) = v (ix2 p (0 : Fin 1)) := by
  refine broadcastTo_apply (s := S128x1) (t := S128x32) _ _ (ix2 p k) (ix2 p (0 : Fin 1)) (fun a => ?_)
  match a with
  | ⟨0, _⟩ => show p.val = if (128 : ℕ) = 1 then 0 else p.val; rw [if_neg (by decide)]
  | ⟨1, _⟩ => show 0 = if (1 : ℕ) = 1 then 0 else k.val; rw [if_pos rfl]

/-- A single number spread over a column of 128. -/
theorem bsc_apply {α : Type} (v : S1x1.Idx → α) (p : Fin 128) :
    broadcastTo S128x1 v broadcasts_S1x1_S128x1 (ix2 p (0 : Fin 1)) = v (ix2 (0 : Fin 1) (0 : Fin 1)) := by
  refine broadcastTo_apply (s := S1x1) (t := S128x1) _ _ (ix2 p (0 : Fin 1)) (ix2 (0 : Fin 1) (0 : Fin 1)) (fun a => ?_)
  match a with
  | ⟨0, _⟩ => show 0 = if (1 : ℕ) = 1 then 0 else p.val; rw [if_pos rfl]
  | ⟨1, _⟩ => show 0 = if (1 : ℕ) = 1 then 0 else 0; rw [if_pos rfl]

/-! ## The two inner products: a [128, 1024] block against a [1024, 1] column -/

theorem mm_lhs0 (i : S128x1.Idx) (q : dot_S128x1024_S1024x1_S128x1_1_0_0_1_n_n.contr.Idx) : (dot_S128x1024_S1024x1_S128x1_1_0_0_1_n_n.lhsIdx i q 0).val = (i 0).val := by
  unfold DotDims.lhsIdx
  rw [dif_neg (show ¬(0 : Fin S128x1024.rank) ∈ dot_S128x1024_S1024x1_S128x1_1_0_0_1_n_n.lhsBatch by decide), dif_pos (show (0 : Fin S128x1024.rank) ∈ dot_S128x1024_S1024x1_S128x1_1_0_0_1_n_n.lhsNonContracting by decide)]
  rfl
theorem mm_lhs1 (i : S128x1.Idx) (q : dot_S128x1024_S1024x1_S128x1_1_0_0_1_n_n.contr.Idx) : (dot_S128x1024_S1024x1_S128x1_1_0_0_1_n_n.lhsIdx i q 1).val = (q ⟨0, by decide⟩).val :=
  dot_S128x1024_S1024x1_S128x1_1_0_0_1_n_n.lhsIdx_val_of_single rfl i q
theorem mm_rhs0 (i : S128x1.Idx) (q : dot_S128x1024_S1024x1_S128x1_1_0_0_1_n_n.contr.Idx) : (dot_S128x1024_S1024x1_S128x1_1_0_0_1_n_n.rhsIdx i q 0).val = (q ⟨0, by decide⟩).val :=
  dot_S128x1024_S1024x1_S128x1_1_0_0_1_n_n.rhsIdx_val_of_single rfl i q
theorem mm_rhs1 (i : S128x1.Idx) (q : dot_S128x1024_S1024x1_S128x1_1_0_0_1_n_n.contr.Idx) : (dot_S128x1024_S1024x1_S128x1_1_0_0_1_n_n.rhsIdx i q 1).val = (i 1).val := by
  unfold DotDims.rhsIdx
  rw [dif_neg (show ¬(1 : Fin S1024x1.rank) ∈ dot_S128x1024_S1024x1_S128x1_1_0_0_1_n_n.rhsBatch by decide), dif_pos (show (1 : Fin S1024x1.rank) ∈ dot_S128x1024_S1024x1_S128x1_1_0_0_1_n_n.rhsNonContracting by decide)]
  rfl

/-- Row p of the block against the column, from zero: the inner product over the 1024 entries. -/
theorem mm_apply (A : FVec Ideal S128x1024 .bf16) (B : FVec Ideal S1024x1 .bf16) (p : Fin 128) :
    matmul dot_S128x1024_S1024x1_S128x1_1_0_0_1_n_n none A B (constant S128x1 .f32 0x00000000#32) (ix2 p (0 : Fin 1))
      = ∑ j : Fin 1024, A (ix2 p j) * B (ix2 j (0 : Fin 1)) := by
  simp only [matmul]
  rw [Ideal.matmul_constant_zero_apply, ← Equiv.sum_comp (contrEquiv1 dot_S128x1024_S1024x1_S128x1_1_0_0_1_n_n 1024 rfl rfl).symm]
  refine Finset.sum_congr rfl fun k _ => ?_
  have hk := contrEquiv1_symm_val dot_S128x1024_S1024x1_S128x1_1_0_0_1_n_n 1024 rfl rfl k
  have el : dot_S128x1024_S1024x1_S128x1_1_0_0_1_n_n.lhsIdx (ix2 p (0 : Fin 1)) ((contrEquiv1 dot_S128x1024_S1024x1_S128x1_1_0_0_1_n_n 1024 rfl rfl).symm k) = ix2 p k := funext fun a => Fin.ext (by
    match a with
    | ⟨0, _⟩ => exact mm_lhs0 _ _
    | ⟨1, _⟩ => exact (mm_lhs1 _ _).trans hk)
  have er : dot_S128x1024_S1024x1_S128x1_1_0_0_1_n_n.rhsIdx (ix2 p (0 : Fin 1)) ((contrEquiv1 dot_S128x1024_S1024x1_S128x1_1_0_0_1_n_n 1024 rfl rfl).symm k) = ix2 k (0 : Fin 1) := funext fun a => Fin.ext (by
    match a with
    | ⟨0, _⟩ => exact (mm_rhs0 _ _).trans hk
    | ⟨1, _⟩ => exact mm_rhs1 _ _)
  rw [el, er]

/-! ## The two lane reductions of a [128, 32] block -/

/-- Row p with lane k put back. -/
theorem lift_row (p : Fin 128) (k : Fin (S128x32.size 1)) :
    reduces_S128x32_S128.lift (ix1 p) k = ix2 p (⟨k.val, k.isLt⟩ : Fin 32) := by
  funext c
  apply Fin.ext
  rw [Shape.Reduces.lift_val]
  unfold Shape.Reduces.liftVal
  match c with
  | ⟨0, _⟩ => exact (dif_neg (by decide : ¬ ((0 : ℕ) = 1))).trans ((dif_pos (by decide : (0 : ℕ) < 1)).trans rfl)
  | ⟨1, _⟩ => exact (dif_pos (rfl : (1 : ℕ) = 1)).trans rfl

/-- The word the maximum starts from is the bottom element. -/
theorem ofBits_neg_inf : FloatOps.ofBits (F := Ideal) .f32 0xFF800000#32 = ⊥ := by
  simp [Ideal.ofBits, Ideal.ieee]

/-- The lane maximum of row p. -/
theorem rowmax_apply (src : FVec Ideal S128x32 .f32) (hφ : FKind.Formats .f32)
    (hacc : (0xFF800000#32 : BitVec FTy.f32.bits) = FKind.maximumf.neutral .f32 hφ) (p : Fin 128) :
    multiReduction .maximumf [1] S128 src 0xFF800000#32 reduces_S128x32_S128 hφ hacc (ix1 p)
      = Cert.Spec.rmax (fun k : Fin 32 => src (ix2 p k)) := by
  rw [Ideal.multiReduction_maximumf_single, ofBits_neg_inf]
  exact congrArg (fun f : Fin 32 → EReal => (Finset.univ : Finset (Fin 32)).fold max ⊥ f)
    (funext fun k => congrArg src (lift_row p k))

/-- The lane sum of row p. -/
theorem rowsum_apply (src : FVec Ideal S128x32 .f32) (hφ : FKind.Formats .f32)
    (hacc : (0x00000000#32 : BitVec FTy.f32.bits) = FKind.add.neutral .f32 hφ) (p : Fin 128) :
    multiReduction .add [1] S128 src 0x00000000#32 reduces_S128x32_S128 hφ hacc (ix1 p)
      = ∑ k : Fin 32, src (ix2 p k) := by
  rw [Ideal.multiReduction_add_single]
  exact Finset.sum_congr rfl fun k _ => congrArg src (lift_row p k)

/-! ## The retrieval weights of one row, as a function of that row's data -/

/-- The linear form of a row: two inner products and a bias. -/
def linRow (h cx wh wc : Fin 1024 → EReal) (bb : EReal) : EReal :=
  (∑ j : Fin 1024, h j * wh j) + (∑ j : Fin 1024, cx j * wc j) + bb
/-- The scaled negative distances of a row. -/
def scRow (h cx : Fin 1024 → EReal) (ds : Fin 32 → EReal) (wh wc : Fin 1024 → EReal) (bb : EReal) (k : Fin 32) : EReal :=
  Ideal.div (0 - ds k) (Ideal.exp (linRow h cx wh wc bb))
/-- Their exponentials, shifted by the row maximum. -/
def eeRow (h cx : Fin 1024 → EReal) (ds : Fin 32 → EReal) (wh wc : Fin 1024 → EReal) (bb : EReal) (k : Fin 32) : EReal :=
  Ideal.exp (scRow h cx ds wh wc bb k - Cert.Spec.rmax (scRow h cx ds wh wc bb))
/-- The softmax over the 32 positions. -/
def knnRow (h cx : Fin 1024 → EReal) (ds : Fin 32 → EReal) (wh wc : Fin 1024 → EReal) (bb : EReal) (k : Fin 32) : EReal :=
  Ideal.div (eeRow h cx ds wh wc bb k) (∑ k' : Fin 32, eeRow h cx ds wh wc bb k')

/-- The specification's weights at row n are the row function of row n's data. -/
theorem knn_eq_row (h : Fin 2048 → Fin 1024 → EReal) (sh : Fin 2048 → Fin 32 → Fin 1024 → EReal) (ds : Fin 2048 → Fin 32 → EReal)
    (wh wc : Fin 1024 → EReal) (bb : EReal) (n : Fin 2048) (k : Fin 32) :
    Cert.Spec.knn h sh ds wh wc bb n k = knnRow (h n) (Cert.Spec.ctx sh n) (ds n) wh wc bb k := rfl

theorem vexp_apply {s : Shape} {φ : FTy} (v : FVec Ideal s φ) (i : s.Idx) : exp v i = Ideal.exp (v i) := rfl

/-- The shifted exponentials of the block, read at (p, k): those of row p. -/
theorem pay12_apply (v1 v86 v88 : FVec Ideal S128x1024 .f32) (v90 v93 v96 : Vec Ideal S128x1x1024 .f32)
    (v103 v106 : Vec Ideal S1024x1 .bf16) (v110 : Vec Ideal S1x1 .f32) (v115 : Vec Ideal S128x32 .f32) (p : Fin 128) (k : Fin 32) :
    k0_pay12 v1 v86 v88 v90 v93 v96 v103 v106 v110 v115 (ix2 p k)
      = eeRow (fun j => v1 (ix2 p j)) (fun j => k0_pay11 v86 v88 v90 v93 v96 (ix2 p j)) (fun k => v115 (ix2 p k))
          (fun j => v103 (ix2 j (0 : Fin 1))) (fun j => v106 (ix2 j (0 : Fin 1))) (v110 (ix2 (0 : Fin 1) (0 : Fin 1))) k := by
  unfold k0_pay12 k0_pay10
  simp only [vexp_apply, subf_apply, divf_apply, addf_apply, broadcast_apply, bcol_apply, col_apply,
    bsc_apply, mm_apply, shapeCast_self, truncf_apply, Ideal.ofBits_def, Ideal.ofBits_zero_f32]
  erw [rowmax_apply]
  simp only [vexp_apply, subf_apply, divf_apply, addf_apply, broadcast_apply, bcol_apply,
    bsc_apply, mm_apply, truncf_apply]
  rfl

/-- The lane sums of the shifted exponentials. -/
theorem pay13_apply (v1 v86 v88 : FVec Ideal S128x1024 .f32) (v90 v93 v96 : Vec Ideal S128x1x1024 .f32)
    (v103 v106 : Vec Ideal S1024x1 .bf16) (v110 : Vec Ideal S1x1 .f32) (v115 : Vec Ideal S128x32 .f32) (p : Fin 128) :
    k0_pay13 v1 v86 v88 v90 v93 v96 v103 v106 v110 v115 (ix1 p)
      = ∑ k : Fin 32, k0_pay12 v1 v86 v88 v90 v93 v96 v103 v106 v110 v115 (ix2 p k) := by
  unfold k0_pay13
  erw [rowsum_apply]

/-- The quotient by the lane sum, spread back over the lanes. -/
theorem pay1_apply (v124 : FVec Ideal S128x32 .f32) (v125 : FVec Ideal S128 .f32) (p : Fin 128) (k : Fin 32) :
    k0_pay1 v124 v125 (ix2 p k) = Ideal.div (v124 (ix2 p k)) (v125 (ix1 p)) := by
  unfold k0_pay1
  simp only [divf_apply, bcol_apply, col_apply]

theorem hz2 : (![0, 0] : Fin 2 → Nat) = fun _ => 0 := funext fun a => match a with | ⟨0, _⟩ => rfl | ⟨1, _⟩ => rfl

/-- What the body leaves in the weights' window, read at (p, k): the weights of row p of the blocks. -/
theorem weights_apply (x0 : Vec Ideal S128x1024 .f32) (x1 : Vec Ideal S128x32x1024 .f32) (x2 : Vec Ideal S128x32 .f32)
    (x3 x4 : Vec Ideal S1024x1 .bf16) (x5 : Vec Ideal S1x1 .f32) (p : Fin 128) (k : Fin 32) :
    k0_pay1 (k0_pay12 (k0_pay3 (View.ld x0 r0_0)) (k0_pay8 (k0_pay6 (k0_pay4 (View.ld x1 r0_1) (View.ld x1 r0_2) (View.ld x1 r0_3) (View.ld x1 r0_4) (View.ld x1 r0_5) (View.ld x1 r0_6) (View.ld x1 r0_7) (View.ld x1 r0_8)) (k0_pay5 (View.ld x1 r0_9)) (View.ld x1 r0_10) (View.ld x1 r0_11) (View.ld x1 r0_12) (View.ld x1 r0_13) (View.ld x1 r0_14) (View.ld x1 r0_15) (View.ld x1 r0_16) (View.ld x1 r0_17) (View.ld x1 r0_18)) (k0_pay7 (View.ld x1 r0_19)) (View.ld x1 r0_20) (View.ld x1 r0_21) (View.ld x1 r0_22) (View.ld x1 r0_23) (View.ld x1 r0_24) (View.ld x1 r0_25) (View.ld x1 r0_26) (View.ld x1 r0_27) (View.ld x1 r0_28)) (k0_pay9 (View.ld x1 r0_29)) (View.ld x1 r0_30) (View.ld x1 r0_31) (View.ld x1 r0_32) (View.ld x3 r0_33) (View.ld x4 r0_33) (View.ld x5 r0_34) (View.ld x2 r0_35)) (k0_pay13 (k0_pay3 (View.ld x0 r0_0)) (k0_pay8 (k0_pay6 (k0_pay4 (View.ld x1 r0_1) (View.ld x1 r0_2) (View.ld x1 r0_3) (View.ld x1 r0_4) (View.ld x1 r0_5) (View.ld x1 r0_6) (View.ld x1 r0_7) (View.ld x1 r0_8)) (k0_pay5 (View.ld x1 r0_9)) (View.ld x1 r0_10) (View.ld x1 r0_11) (View.ld x1 r0_12) (View.ld x1 r0_13) (View.ld x1 r0_14) (View.ld x1 r0_15) (View.ld x1 r0_16) (View.ld x1 r0_17) (View.ld x1 r0_18)) (k0_pay7 (View.ld x1 r0_19)) (View.ld x1 r0_20) (View.ld x1 r0_21) (View.ld x1 r0_22) (View.ld x1 r0_23) (View.ld x1 r0_24) (View.ld x1 r0_25) (View.ld x1 r0_26) (View.ld x1 r0_27) (View.ld x1 r0_28)) (k0_pay9 (View.ld x1 r0_29)) (View.ld x1 r0_30) (View.ld x1 r0_31) (View.ld x1 r0_32) (View.ld x3 r0_33) (View.ld x4 r0_33) (View.ld x5 r0_34) (View.ld x2 r0_35)) (ix2 p k)
      = knnRow (fun j => x0 (ix2 p j)) (fun j => (∑ k : Fin 32, x1 (ix3 p k j)) * Cert.Spec.c32) (fun k => x2 (ix2 p k))
          (fun j => x3 (ix2 j (0 : Fin 1))) (fun j => x4 (ix2 j (0 : Fin 1))) (x5 (ix2 (0 : Fin 1) (0 : Fin 1))) k := by
  simp only [View.ld_unit_zero (S := S128x1024) hz2, View.ld_unit_zero (S := S128x32) hz2,
    View.ld_unit_zero (S := S1024x1) hz2, View.ld_unit_zero (S := S1x1) hz2]
  rw [pay1_apply, pay13_apply]
  simp only [pay12_apply]
  simp only [k0_pay3, shapeCast_self, (fun j => ctxBlk_apply x1 p j : ∀ j, ctxBlk x1 (ix2 p j) = _)]
  rfl

/-! ## From blocks to the array -/

section Arr
variable (V : (c : Dev nD) → (b : Ref sig .tc) → Buf (Elt Ideal) ((c : Thread nD τ).loc b))

/-- The index maps, decided over the 16 points: the row-blocked windows are at block (t, 0[, 0]), the weight windows
    at block (0, 0). -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_11.index t (0 : Fin 2) = t.val ∧ win0_11.index t (1 : Fin 2) = 0 :=
  (by decide +kernel : ∀ t : Fin grid0.N, _)

/-- Row p of the block at point t is row 128 t + p of the array. -/
def rowOf (t : Fin cfg0.N) (p : Fin 128) : Fin 2048 :=
  ⟨t.val * 128 + p.val, by have ht : t.val < 16 := t.isLt; have := p.isLt; omega⟩

theorem emb0 (t : Fin cfg0.N) (p : Fin 128) (j : Fin 1024) :
    ((cfg0.win 0).blk t).view.emb (ix2 p j) = ix2 (rowOf t p) j := by
  obtain ⟨e00, e01, -⟩ := idx_facts t
  funext a; apply Fin.ext
  match a with
  | ⟨0, _⟩ => show win0_0.index t (0 : Fin 2) * 128 + 1 * p.val = t.val * 128 + p.val; rw [e00]; omega
  | ⟨1, _⟩ => show win0_0.index t (1 : Fin 2) * 1024 + 1 * j.val = j.val; rw [e01]; omega

theorem blk0_apply (c : Dev nD) (t : Fin cfg0.N) (p : Fin 128) (j : Fin 1024) :
    iblk0 (F := Ideal) V c 0 t (ix2 p j) = V c main_v0 (ix2 (rowOf t p) j) := by
  show V c main_v0 (((cfg0.win 0).blk t).view.emb (ix2 p j)) = _
  rw [emb0]

theorem emb1 (t : Fin cfg0.N) (p : Fin 128) (k : Fin 32) (j : Fin 1024) :
    ((cfg0.win 1).blk t).view.emb (ix3 p k j) = ix3 (rowOf t p) k j := by
  obtain ⟨-, -, e10, e11, e12, -⟩ := idx_facts t
  funext a; apply Fin.ext
  match a with
  | ⟨0, _⟩ => show win0_1.index t (0 : Fin 3) * 128 + 1 * p.val = t.val * 128 + p.val; rw [e10]; omega
  | ⟨1, _⟩ => show win0_1.index t (1 : Fin 3) * 32 + 1 * k.val = k.val; rw [e11]; omega
  | ⟨2, _⟩ => show win0_1.index t (2 : Fin 3) * 1024 + 1 * j.val = j.val; rw [e12]; omega

theorem emb2 (t : Fin cfg0.N) (p : Fin 128) (k : Fin 32) :
    ((cfg0.win 2).blk t).view.emb (ix2 p k) = ix2 (rowOf t p) k := by
  obtain ⟨-, -, -, -, -, e20, e21, -⟩ := idx_facts t
  funext a; apply Fin.ext
  match a with
  | ⟨0, _⟩ => show win0_2.index t (0 : Fin 2) * 128 + 1 * p.val = t.val * 128 + p.val; rw [e20]; omega
  | ⟨1, _⟩ => show win0_2.index t (1 : Fin 2) * 32 + 1 * k.val = k.val; rw [e21]; omega

theorem emb3 (t : Fin cfg0.N) (j : Fin 1024) (z : Fin 1) :
    ((cfg0.win 3).blk t).view.emb (ix2 j z) = ix2 j z := by
  obtain ⟨-, -, -, -, -, -, -, e30, e31, -⟩ := idx_facts t
  funext a; apply Fin.ext
  match a with
  | ⟨0, _⟩ => show win0_3.index t (0 : Fin 2) * 1024 + 1 * j.val = j.val; rw [e30]; omega
  | ⟨1, _⟩ => show win0_3.index t (1 : Fin 2) * 1 + 1 * z.val = z.val; rw [e31]; omega

theorem emb4 (t : Fin cfg0.N) (j : Fin 1024) (z : Fin 1) :
    ((cfg0.win 4).blk t).view.emb (ix2 j z) = ix2 j z := by
  obtain ⟨-, -, -, -, -, -, -, -, -, e40, e41, -⟩ := idx_facts t
  funext a; apply Fin.ext
  match a with
  | ⟨0, _⟩ => show win0_4.index t (0 : Fin 2) * 1024 + 1 * j.val = j.val; rw [e40]; omega
  | ⟨1, _⟩ => show win0_4.index t (1 : Fin 2) * 1 + 1 * z.val = z.val; rw [e41]; omega

theorem emb5 (t : Fin cfg0.N) (y z : Fin 1) :
    ((cfg0.win 5).blk t).view.emb (ix2 y z) = ix2 y z := by
  obtain ⟨-, -, -, -, -, -, -, -, -, -, -, e50, e51, -⟩ := idx_facts t
  funext a; apply Fin.ext
  match a with
  | ⟨0, _⟩ => show win0_5.index t (0 : Fin 2) * 1 + 1 * y.val = y.val; rw [e50]; omega
  | ⟨1, _⟩ => show win0_5.index t (1 : Fin 2) * 1 + 1 * z.val = z.val; rw [e51]; omega

theorem emb11 (t : Fin cfg0.N) (p : Fin 128) (k : Fin 32) :
    ((cfg0.win 11).blk t).view.emb (ix2 p k) = ix2 (rowOf t p) k := by
  obtain ⟨-, -, -, -, -, -, -, -, -, -, -, -, -, eb0, eb1⟩ := idx_facts t
  funext a; apply Fin.ext
  match a with
  | ⟨0, _⟩ => show win0_11.index t (0 : Fin 2) * 128 + 1 * p.val = t.val * 128 + p.val; rw [eb0]; omega
  | ⟨1, _⟩ => show win0_11.index t (1 : Fin 2) * 32 + 1 * k.val = k.val; rw [eb1]; omega

theorem blk1_apply (c : Dev nD) (t : Fin cfg0.N) (p : Fin 128) (k : Fin 32) (j : Fin 1024) :
    iblk0 (F := Ideal) V c 1 t (ix3 p k j) = V c main_arg4 (ix3 (rowOf t p) k j) := by
  show V c main_arg4 (((cfg0.win 1).blk t).view.emb (ix3 p k j)) = _
  rw [emb1]
theorem blk2_apply (c : Dev nD) (t : Fin cfg0.N) (p : Fin 128) (k : Fin 32) :
    iblk0 (F := Ideal) V c 2 t (ix2 p k) = V c main_arg2 (ix2 (rowOf t p) k) := by
  show V c main_arg2 (((cfg0.win 2).blk t).view.emb (ix2 p k)) = _
  rw [emb2]
theorem blk3_apply (c : Dev nD) (t : Fin cfg0.N) (j : Fin 1024) (z : Fin 1) :
    iblk0 (F := Ideal) V c 3 t (ix2 j z) = V c main_v4 (ix2 j z) := by
  show V c main_v4 (((cfg0.win 3).blk t).view.emb (ix2 j z)) = _
  rw [emb3]
theorem blk4_apply (c : Dev nD) (t : Fin cfg0.N) (j : Fin 1024) (z : Fin 1) :
    iblk0 (F := Ideal) V c 4 t (ix2 j z) = V c main_v7 (ix2 j z) := by
  show V c main_v7 (((cfg0.win 4).blk t).view.emb (ix2 j z)) = _
  rw [emb4]
theorem blk5_apply (c : Dev nD) (t : Fin cfg0.N) (y z : Fin 1) :
    iblk0 (F := Ideal) V c 5 t (ix2 y z) = V c main_v8 (ix2 y z) := by
  show V c main_v8 (((cfg0.win 5).blk t).view.emb (ix2 y z)) = _
  rw [emb5]

/-- The weights' array as the run leaves it: the specification's weights of the region's input arrays. -/
def knnArr (c : Dev nD) : S2048x32.Idx → EReal := fun i =>
  Cert.Spec.knn (fun n j => V c main_v0 (ix2 n j)) (fun n k j => V c main_arg4 (ix3 n k j)) (fun n k => V c main_arg2 (ix2 n k))
    (fun j => V c main_v4 (ix2 j (0 : Fin 1))) (fun j => V c main_v7 (ix2 j (0 : Fin 1))) (V c main_v8 (ix2 (0 : Fin 1) (0 : Fin 1))) (i 0) (i 1)

/-- What point t's body leaves, read at an entry of its block: the array function at that entry's place. -/
theorem blk_point (c : Dev nD) (t : Fin cfg0.N) (j : S128x32.Idx) :
    k0_pay1 (k0_pay12 (k0_pay3 (View.ld (iblk0 (F := Ideal) V c 0 t) r0_0)) (k0_pay8 (k0_pay6 (k0_pay4 (View.ld (iblk0 (F := Ideal) V c 1 t) r0_1) (View.ld (iblk0 (F := Ideal) V c 1 t) r0_2) (View.ld (iblk0 (F := Ideal) V c 1 t) r0_3) (View.ld (iblk0 (F := Ideal) V c 1 t) r0_4) (View.ld (iblk0 (F := Ideal) V c 1 t) r0_5) (View.ld (iblk0 (F := Ideal) V c 1 t) r0_6) (View.ld (iblk0 (F := Ideal) V c 1 t) r0_7) (View.ld (iblk0 (F := Ideal) V c 1 t) r0_8)) (k0_pay5 (View.ld (iblk0 (F := Ideal) V c 1 t) r0_9)) (View.ld (iblk0 (F := Ideal) V c 1 t) r0_10) (View.ld (iblk0 (F := Ideal) V c 1 t) r0_11) (View.ld (iblk0 (F := Ideal) V c 1 t) r0_12) (View.ld (iblk0 (F := Ideal) V c 1 t) r0_13) (View.ld (iblk0 (F := Ideal) V c 1 t) r0_14) (View.ld (iblk0 (F := Ideal) V c 1 t) r0_15) (View.ld (iblk0 (F := Ideal) V c 1 t) r0_16) (View.ld (iblk0 (F := Ideal) V c 1 t) r0_17) (View.ld (iblk0 (F := Ideal) V c 1 t) r0_18)) (k0_pay7 (View.ld (iblk0 (F := Ideal) V c 1 t) r0_19)) (View.ld (iblk0 (F := Ideal) V c 1 t) r0_20) (View.ld (iblk0 (F := Ideal) V c 1 t) r0_21) (View.ld (iblk0 (F := Ideal) V c 1 t) r0_22) (View.ld (iblk0 (F := Ideal) V c 1 t) r0_23) (View.ld (iblk0 (F := Ideal) V c 1 t) r0_24) (View.ld (iblk0 (F := Ideal) V c 1 t) r0_25) (View.ld (iblk0 (F := Ideal) V c 1 t) r0_26) (View.ld (iblk0 (F := Ideal) V c 1 t) r0_27) (View.ld (iblk0 (F := Ideal) V c 1 t) r0_28)) (k0_pay9 (View.ld (iblk0 (F := Ideal) V c 1 t) r0_29)) (View.ld (iblk0 (F := Ideal) V c 1 t) r0_30) (View.ld (iblk0 (F := Ideal) V c 1 t) r0_31) (View.ld (iblk0 (F := Ideal) V c 1 t) r0_32) (View.ld (iblk0 (F := Ideal) V c 3 t) r0_33) (View.ld (iblk0 (F := Ideal) V c 4 t) r0_33) (View.ld (iblk0 (F := Ideal) V c 5 t) r0_34) (View.ld (iblk0 (F := Ideal) V c 2 t) r0_35)) (k0_pay13 (k0_pay3 (View.ld (iblk0 (F := Ideal) V c 0 t) r0_0)) (k0_pay8 (k0_pay6 (k0_pay4 (View.ld (iblk0 (F := Ideal) V c 1 t) r0_1) (View.ld (iblk0 (F := Ideal) V c 1 t) r0_2) (View.ld (iblk0 (F := Ideal) V c 1 t) r0_3) (View.ld (iblk0 (F := Ideal) V c 1 t) r0_4) (View.ld (iblk0 (F := Ideal) V c 1 t) r0_5) (View.ld (iblk0 (F := Ideal) V c 1 t) r0_6) (View.ld (iblk0 (F := Ideal) V c 1 t) r0_7) (View.ld (iblk0 (F := Ideal) V c 1 t) r0_8)) (k0_pay5 (View.ld (iblk0 (F := Ideal) V c 1 t) r0_9)) (View.ld (iblk0 (F := Ideal) V c 1 t) r0_10) (View.ld (iblk0 (F := Ideal) V c 1 t) r0_11) (View.ld (iblk0 (F := Ideal) V c 1 t) r0_12) (View.ld (iblk0 (F := Ideal) V c 1 t) r0_13) (View.ld (iblk0 (F := Ideal) V c 1 t) r0_14) (View.ld (iblk0 (F := Ideal) V c 1 t) r0_15) (View.ld (iblk0 (F := Ideal) V c 1 t) r0_16) (View.ld (iblk0 (F := Ideal) V c 1 t) r0_17) (View.ld (iblk0 (F := Ideal) V c 1 t) r0_18)) (k0_pay7 (View.ld (iblk0 (F := Ideal) V c 1 t) r0_19)) (View.ld (iblk0 (F := Ideal) V c 1 t) r0_20) (View.ld (iblk0 (F := Ideal) V c 1 t) r0_21) (View.ld (iblk0 (F := Ideal) V c 1 t) r0_22) (View.ld (iblk0 (F := Ideal) V c 1 t) r0_23) (View.ld (iblk0 (F := Ideal) V c 1 t) r0_24) (View.ld (iblk0 (F := Ideal) V c 1 t) r0_25) (View.ld (iblk0 (F := Ideal) V c 1 t) r0_26) (View.ld (iblk0 (F := Ideal) V c 1 t) r0_27) (View.ld (iblk0 (F := Ideal) V c 1 t) r0_28)) (k0_pay9 (View.ld (iblk0 (F := Ideal) V c 1 t) r0_29)) (View.ld (iblk0 (F := Ideal) V c 1 t) r0_30) (View.ld (iblk0 (F := Ideal) V c 1 t) r0_31) (View.ld (iblk0 (F := Ideal) V c 1 t) r0_32) (View.ld (iblk0 (F := Ideal) V c 3 t) r0_33) (View.ld (iblk0 (F := Ideal) V c 4 t) r0_33) (View.ld (iblk0 (F := Ideal) V c 5 t) r0_34) (View.ld (iblk0 (F := Ideal) V c 2 t) r0_35)) j
      = knnArr V c (((cfg0.win 11).blk t).view.emb j) := by
  obtain ⟨p, k, rfl⟩ : ∃ (p : Fin 128) (k : Fin 32), j = ix2 p k := ⟨j 0, j 1, eq_ix2 j⟩
  refine (weights_apply (iblk0 (F := Ideal) V c 0 t) (iblk0 (F := Ideal) V c 1 t) (iblk0 (F := Ideal) V c 2 t)
    (iblk0 (F := Ideal) V c 3 t) (iblk0 (F := Ideal) V c 4 t) (iblk0 (F := Ideal) V c 5 t) p k).trans ?_
  rw [emb11]
  show _ = Cert.Spec.knn _ _ _ _ _ _ (rowOf t p) k
  rw [knn_eq_row]
  simp only [blk0_apply, blk1_apply, blk2_apply, blk3_apply, blk4_apply, blk5_apply]
  rfl

/-- What point t writes back is block t of the array function. -/
theorem flushed_eq (c : Dev nD) (t : Fin cfg0.N) :
    (dat0 (F := Ideal) V c).flushed 11 t = ((cfg0.win 11).blk t).view.read (Elt Ideal) (knnArr V c) := by
  show (cfg0.win 11).cut (grid0.coords t) ((dat0 (F := Ideal) V c).after 11 t) = _
  rw [after0_11]
  unfold out0_11
  rw [View.canon_unit_zero hz2]
  funext j
  exact blk_point V c t j

/-- An entry of the array is in point t's block iff each coordinate is in the block's range on its axis. -/
theorem mem_blk11 (t : Fin cfg0.N) (i : S2048x32.Idx) :
    i ∈ ((cfg0.win 11).blk t).view.set ↔ ∀ a : Fin 2, win0_11.index t a * S128x32.size a ≤ (i a).val ∧ (i a).val < win0_11.index t a * S128x32.size a + S128x32.size a := by
  show i ∈ ((View.whole main_v19_0).slice (win0_11.rect t)).set ↔ _
  rw [View.set_slice_whole, Rect.mem_set_unit]
  exact Iff.rfl

/-- Every entry of the array is in the block of the point its row falls in. -/
theorem cover11 (i : S2048x32.Idx) :
    ∃ t : Fin cfg0.N, (cfg0.win 11).flush t = true ∧ i ∈ ((cfg0.win 11).blk t).view.set := by
  have hi0 : (i 0).val < 2048 := (i 0).isLt
  have hi1 : (i 1).val < 32 := (i 1).isLt
  have ht : (i 0).val / 128 < 16 := by omega
  refine ⟨⟨(i 0).val / 128, ht⟩, flush0_11 _, ?_⟩
  obtain ⟨-, -, -, -, -, -, -, -, -, -, -, -, -, eb0, eb1⟩ := idx_facts ⟨(i 0).val / 128, ht⟩
  rw [mem_blk11]
  intro a
  match a with
  | ⟨0, _⟩ =>
    show win0_11.index ⟨(i 0).val / 128, ht⟩ (0 : Fin 2) * 128 ≤ (i 0).val ∧ (i 0).val < win0_11.index ⟨(i 0).val / 128, ht⟩ (0 : Fin 2) * 128 + 128
    rw [eb0]; show (i 0).val / 128 * 128 ≤ (i 0).val ∧ (i 0).val < (i 0).val / 128 * 128 + 128; omega
  | ⟨1, _⟩ =>
    show win0_11.index ⟨(i 0).val / 128, ht⟩ (1 : Fin 2) * 32 ≤ (i 1).val ∧ (i 1).val < win0_11.index ⟨(i 0).val / 128, ht⟩ (1 : Fin 2) * 32 + 32
    rw [eb1]; omega

/-- THE WEIGHTS' ARRAY after region 0, at (n, k): the specification's weights of the region's input arrays. -/
theorem knn_arr (c : Dev nD) (n : Fin 2048) (k : Fin 32) :
    (dat0 (F := Ideal) V c).arrAt 11 cfg0.N (ix2 n k)
      = Cert.Spec.knn (fun n j => V c main_v0 (ix2 n j)) (fun n k j => V c main_arg4 (ix3 n k j)) (fun n k => V c main_arg2 (ix2 n k))
          (fun j => V c main_v4 (ix2 j (0 : Fin 1))) (fun j => V c main_v7 (ix2 j (0 : Fin 1))) (V c main_v8 (ix2 (0 : Fin 1) (0 : Fin 1))) n k := by
  rw [(dat0 (F := Ideal) V c).arrAt_eq_of_cover 11 (knnArr V c) (fun t _ => flushed_eq V c t) (cover11)]
  rfl
end Arr

end Cert.KernelIdeal.KFeatA

end
-- ==== Proof.KFeatB.lean ====
/-
  What the first region leaves in the array of mixing numbers (2048 rows, one column), for any contents of the
  region's input arrays: row n holds the logistic function of the second layer's inner product with the rectified
  first layer of the pair (hidden row n, mean of the 32 retrieved vectors of row n), plus the second bias.
  First the body's last payload is read at a row of a block; then the sixteen blocks of 128 rows are put side by side.
-/
import proofs.«428110_j55259049230428_3_alg».proof.Proof.Gen.KernelIdeal.Frame
import proofs.«428110_j55259049230428_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KFeatB

open Cert.KernelIdeal Cert.KernelIdeal.Gen Idealize.ShloMosaic Idealize.ShloMosaic.TcCoe Idealize.ShloMosaic.ValueIdx
open scoped BigOperators

variable (V : (c : Dev nD) → (b : Ref sig .tc) → Buf (Elt Ideal) ((c : Thread nD τ).loc b))

/-- The block of means as the body forms it from the block of retrieved vectors: the 32 slabs of the block added up
    one after another, the sum multiplied by the word of 1/32, rounded to the narrower format. -/
abbrev ctxBlk (x1 : Vec Ideal S128x32x1024 .f32) : FVec Ideal S128x1024 .bf16 :=
  k0_pay11 (k0_pay8 (k0_pay6 (k0_pay4 (View.ld x1 r0_1) (View.ld x1 r0_2) (View.ld x1 r0_3) (View.ld x1 r0_4) (View.ld x1 r0_5) (View.ld x1 r0_6) (View.ld x1 r0_7) (View.ld x1 r0_8))
      (k0_pay5 (View.ld x1 r0_9)) (View.ld x1 r0_10) (View.ld x1 r0_11) (View.ld x1 r0_12) (View.ld x1 r0_13) (View.ld x1 r0_14) (View.ld x1 r0_15) (View.ld x1 r0_16) (View.ld x1 r0_17) (View.ld x1 r0_18))
      (k0_pay7 (View.ld x1 r0_19)) (View.ld x1 r0_20) (View.ld x1 r0_21) (View.ld x1 r0_22) (View.ld x1 r0_23) (View.ld x1 r0_24) (View.ld x1 r0_25) (View.ld x1 r0_26) (View.ld x1 r0_27) (View.ld x1 r0_28))
      (k0_pay9 (View.ld x1 r0_29)) (View.ld x1 r0_30) (View.ld x1 r0_31) (View.ld x1 r0_32)

/-! ## The two products of the payload, read at an index

A product of a [128, 1024] block with a [1024, n] array, accumulated into zeros, read at (p, i), is the sum over the
shared axis j of the left factor at (p, j) times the right factor at (j, i). -/

/-- The product into 1024 columns. -/
abbrev dSq : DotDims S128x1024 S1024x1024 S128x1024 := dot_S128x1024_S1024x1024_S128x1024_1_0_0_1_n_n
/-- The product into one column. -/
abbrev dCol : DotDims S128x1024 S1024x1 S128x1 := dot_S128x1024_S1024x1_S128x1_1_0_0_1_n_n

theorem lhs_dSq_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_dSq_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_dSq_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_dSq_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

theorem lhs_dCol_0 (i : S128x1.Idx) (q : dot_S128x1024_S1024x1_S128x1_1_0_0_1_n_n.contr.Idx) :
    (dot_S128x1024_S1024x1_S128x1_1_0_0_1_n_n.lhsIdx i q 0).val = (i 0).val := by
  unfold DotDims.lhsIdx
  rw [dif_neg (show ¬(0 : Fin S128x1024.rank) ∈ dot_S128x1024_S1024x1_S128x1_1_0_0_1_n_n.lhsBatch by decide), dif_pos (show (0 : Fin S128x1024.rank) ∈ dot_S128x1024_S1024x1_S128x1_1_0_0_1_n_n.lhsNonContracting by decide)]
  rfl
theorem lhs_dCol_1 (i : S128x1.Idx) (q : dot_S128x1024_S1024x1_S128x1_1_0_0_1_n_n.contr.Idx) :
    (dot_S128x1024_S1024x1_S128x1_1_0_0_1_n_n.lhsIdx i q 1).val = (q ⟨0, by decide⟩).val :=
  dot_S128x1024_S1024x1_S128x1_1_0_0_1_n_n.lhsIdx_val_of_single rfl i q
theorem rhs_dCol_0 (i : S128x1.Idx) (q : dot_S128x1024_S1024x1_S128x1_1_0_0_1_n_n.contr.Idx) :
    (dot_S128x1024_S1024x1_S128x1_1_0_0_1_n_n.rhsIdx i q 0).val = (q ⟨0, by decide⟩).val :=
  dot_S128x1024_S1024x1_S128x1_1_0_0_1_n_n.rhsIdx_val_of_single rfl i q
theorem rhs_dCol_1 (i : S128x1.Idx) (q : dot_S128x1024_S1024x1_S128x1_1_0_0_1_n_n.contr.Idx) :
    (dot_S128x1024_S1024x1_S128x1_1_0_0_1_n_n.rhsIdx i q 1).val = (i 1).val := by
  unfold DotDims.rhsIdx
  rw [dif_neg (show ¬(1 : Fin S1024x1.rank) ∈ dot_S128x1024_S1024x1_S128x1_1_0_0_1_n_n.rhsBatch by decide), dif_pos (show (1 : Fin S1024x1.rank) ∈ dot_S128x1024_S1024x1_S128x1_1_0_0_1_n_n.rhsNonContracting by decide)]
  rfl

/-- The product into 1024 columns at (p, i): the sum over j of left (p, j) times right (j, i). -/
theorem matmul_dSq_apply (l : FVec Ideal S128x1024 .bf16) (r : FVec Ideal S1024x1024 .bf16) (p : Fin 128) (i : Fin 1024) :
    matmul dot_S128x1024_S1024x1024_S128x1024_1_0_0_1_n_n none l r (constant (F := Ideal) S128x1024 .f32 0x00000000#32) (ix2 p i)
      = ∑ j : Fin 1024, l (ix2 p j) * r (ix2 j i) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p i) ((contrEquiv1 dot_S128x1024_S1024x1024_S128x1024_1_0_0_1_n_n 1024 rfl rfl).symm k) = ix2 p k := funext fun a => Fin.ext (by
    match a with
    | ⟨0, _⟩ => exact lhs_dSq_0 _ _
    | ⟨1, _⟩ => exact (lhs_dSq_1 _ _).trans hk)
  have er : dot_S128x1024_S1024x1024_S128x1024_1_0_0_1_n_n.rhsIdx (ix2 p i) ((contrEquiv1 dot_S128x1024_S1024x1024_S128x1024_1_0_0_1_n_n 1024 rfl rfl).symm k) = ix2 k i := funext fun a => Fin.ext (by
    match a with
    | ⟨0, _⟩ => exact (rhs_dSq_0 _ _).trans hk
    | ⟨1, _⟩ => exact rhs_dSq_1 _ _)
  rw [el, er]

/-- The product into one column at (p, 0): the sum over i of left (p, i) times right (i, 0). -/
theorem matmul_dCol_apply (l : FVec Ideal S128x1024 .bf16) (r : FVec Ideal S1024x1 .bf16) (p : Fin 128) (z : Fin 1) :
    matmul dot_S128x1024_S1024x1_S128x1_1_0_0_1_n_n none l r (constant (F := Ideal) S128x1 .f32 0x00000000#32) (ix2 p z)
      = ∑ i : Fin 1024, l (ix2 p i) * r (ix2 i z) := by
  simp only [matmul]
  rw [Ideal.matmul_constant_zero_apply, ← Equiv.sum_comp (contrEquiv1 dot_S128x1024_S1024x1_S128x1_1_0_0_1_n_n 1024 rfl rfl).symm]
  refine Finset.sum_congr rfl fun k _ => ?_
  have hk := contrEquiv1_symm_val dot_S128x1024_S1024x1_S128x1_1_0_0_1_n_n 1024 rfl rfl k
  have el : dot_S128x1024_S1024x1_S128x1_1_0_0_1_n_n.lhsIdx (ix2 p z) ((contrEquiv1 dot_S128x1024_S1024x1_S128x1_1_0_0_1_n_n 1024 rfl rfl).symm k) = ix2 p k := funext fun a => Fin.ext (by
    match a with
    | ⟨0, _⟩ => exact lhs_dCol_0 _ _
    | ⟨1, _⟩ => exact (lhs_dCol_1 _ _).trans hk)
  have er : dot_S128x1024_S1024x1_S128x1_1_0_0_1_n_n.rhsIdx (ix2 p z) ((contrEquiv1 dot_S128x1024_S1024x1_S128x1_1_0_0_1_n_n 1024 rfl rfl).symm k) = ix2 k z := funext fun a => Fin.ext (by
    match a with
    | ⟨0, _⟩ => exact (rhs_dCol_0 _ _).trans hk
    | ⟨1, _⟩ => exact rhs_dCol_1 _ _)
  rw [el, er]

/-! ## The payload at a row -/

/-- The logistic function of a vector, read at an index. -/
theorem logistic_apply {s : Shape} {φ : FTy} (a : FVec Ideal s φ) (i : s.Idx) : logistic a i = Ideal.logistic (a i) := rfl

/-- The payload at a row, for ANY two left blocks: the logistic function of the second layer's inner product with the
    rectified first layer, plus its bias. -/
theorem pay2_apply (v101 v102 : FVec Ideal S128x1024 .bf16) (v130 v133 : Vec Ideal S1024x1024 .bf16) (v137 : Vec Ideal S1x1024 .f32)
    (v144 : Vec Ideal S1024x1 .bf16) (v147 : Vec Ideal S1x1 .f32) (p : Fin 128) :
    k0_pay2 v101 v102 v130 v133 v137 v144 v147 (ix2 p (0 : Fin 1))
      = Ideal.logistic ((∑ i : Fin 1024, max ((∑ j : Fin 1024, v101 (ix2 p j) * v130 (ix2 j i)) + (∑ j : Fin 1024, v102 (ix2 p j) * v133 (ix2 j i)) + v137 (ix2 (0 : Fin 1) i)) 0 * v144 (ix2 i (0 : Fin 1))) + v147 (ix2 (0 : Fin 1) (0 : Fin 1))) := by
  unfold k0_pay2
  simp only [shapeCast_self]
  rw [logistic_apply, addf_apply, matmul_dCol_apply, broadcastTo_1b_ab_apply]
  refine congrArg (fun x => Ideal.logistic (x + v147 (ix2 (0 : Fin 1) (0 : Fin 1)))) ?_
  refine Finset.sum_congr rfl fun i _ => ?_
  rw [truncf_apply, maximumf_apply, addf_apply, addf_apply, matmul_dSq_apply, matmul_dSq_apply, broadcastTo_1b_ab_apply,
    broadcast_apply, Ideal.ofBits_def, Ideal.ofBits_zero_f32]

/-! ## From the sixteen blocks to the array -/

theorem zeros2 : (![0, 0] : Fin 2 → Nat) = fun _ => 0 := funext fun a => by fin_cases a <;> rfl

/-- The printed index maps over the grid: a window blocked by rows has block index (t, 0[, 0]) at point t; a weight
    window's block is its whole array at every point. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_12.index t (0 : Fin 2) = t.val ∧ win0_12.index t (1 : Fin 2) = 0 :=
  (by decide +kernel : ∀ t : Fin grid0.N, _)

/-- Row p of the block of hidden rows at point t is row 128 t + p of the array. -/
theorem blk0_apply (c : Dev nD) (t : Fin cfg0.N) (p : Fin 128) (q : Fin 1024) (n : Fin 2048) (hn : n.val = t.val * 128 + p.val) :
    iblk0 (F := Ideal) V c 0 t (ix2 p q) = V c main_v0 (ix2 n q) := by
  show V c main_v0 (((cfg0.win 0).blk t).view.emb (ix2 p q)) = _
  refine congrArg _ (funext fun a => Fin.ext ?_)
  obtain ⟨e0, e1, -⟩ := idx_facts t
  match a with
  | ⟨0, _⟩ => show win0_0.index t (0 : Fin 2) * 128 + 1 * p.val = n.val; omega
  | ⟨1, _⟩ => show win0_0.index t (1 : Fin 2) * 1024 + 1 * q.val = q.val; omega

/-- Row p of the block of retrieved vectors at point t is row 128 t + p of the array. -/
theorem blk1_apply (c : Dev nD) (t : Fin cfg0.N) (p : Fin 128) (k : Fin 32) (q : Fin 1024) (n : Fin 2048) (hn : n.val = t.val * 128 + p.val) :
    iblk0 (F := Ideal) V c 1 t (ix3 p k q) = V c main_arg4 (ix3 n k q) := by
  show V c main_arg4 (((cfg0.win 1).blk t).view.emb (ix3 p k q)) = _
  refine congrArg _ (funext fun a => Fin.ext ?_)
  obtain ⟨-, -, e0, e1, e2, -⟩ := idx_facts t
  match a with
  | ⟨0, _⟩ => show win0_1.index t (0 : Fin 3) * 128 + 1 * p.val = n.val; omega
  | ⟨1, _⟩ => show win0_1.index t (1 : Fin 3) * 32 + 1 * k.val = k.val; omega
  | ⟨2, _⟩ => show win0_1.index t (2 : Fin 3) * 1024 + 1 * q.val = q.val; omega

/-- A weight window's block is its array. -/
theorem blk6_apply (c : Dev nD) (t : Fin cfg0.N) (a : Fin 1024) (b : Fin 1024) :
    iblk0 (F := Ideal) V c 6 t (ix2 a b) = V c main_v11 (ix2 a b) := by
  show V c main_v11 (((cfg0.win 6).blk t).view.emb (ix2 a b)) = _
  refine congrArg _ (funext fun x => Fin.ext ?_)
  obtain ⟨-, -, -, -, -, e0, e1, -⟩ := idx_facts t
  match x with
  | ⟨0, _⟩ => show win0_6.index t (0 : Fin 2) * 1024 + 1 * a.val = a.val; omega
  | ⟨1, _⟩ => show win0_6.index t (1 : Fin 2) * 1024 + 1 * b.val = b.val; omega
theorem blk7_apply (c : Dev nD) (t : Fin cfg0.N) (a : Fin 1024) (b : Fin 1024) :
    iblk0 (F := Ideal) V c 7 t (ix2 a b) = V c main_v14 (ix2 a b) := by
  show V c main_v14 (((cfg0.win 7).blk t).view.emb (ix2 a b)) = _
  refine congrArg _ (funext fun x => Fin.ext ?_)
  obtain ⟨-, -, -, -, -, -, -, e0, e1, -⟩ := idx_facts t
  match x with
  | ⟨0, _⟩ => show win0_7.index t (0 : Fin 2) * 1024 + 1 * a.val = a.val; omega
  | ⟨1, _⟩ => show win0_7.index t (1 : Fin 2) * 1024 + 1 * b.val = b.val; omega
theorem blk8_apply (c : Dev nD) (t : Fin cfg0.N) (a : Fin 1) (b : Fin 1024) :
    iblk0 (F := Ideal) V c 8 t (ix2 a b) = V c main_v15 (ix2 a b) := by
  show V c main_v15 (((cfg0.win 8).blk t).view.emb (ix2 a b)) = _
  refine congrArg _ (funext fun x => Fin.ext ?_)
  obtain ⟨-, -, -, -, -, -, -, -, -, e0, e1, -⟩ := idx_facts t
  match x with
  | ⟨0, _⟩ => show win0_8.index t (0 : Fin 2) * 1 + 1 * a.val = a.val; omega
  | ⟨1, _⟩ => show win0_8.index t (1 : Fin 2) * 1024 + 1 * b.val = b.val; omega
theorem blk9_apply (c : Dev nD) (t : Fin cfg0.N) (a : Fin 1024) (b : Fin 1) :
    iblk0 (F := Ideal) V c 9 t (ix2 a b) = V c main_v17 (ix2 a b) := by
  show V c main_v17 (((cfg0.win 9).blk t).view.emb (ix2 a b)) = _
  refine congrArg _ (funext fun x => Fin.ext ?_)
  obtain ⟨-, -, -, -, -, -, -, -, -, -, -, e0, e1, -⟩ := idx_facts t
  match x with
  | ⟨0, _⟩ => show win0_9.index t (0 : Fin 2) * 1024 + 1 * a.val = a.val; omega
  | ⟨1, _⟩ => show win0_9.index t (1 : Fin 2) * 1 + 1 * b.val = b.val; omega
theorem blk10_apply (c : Dev nD) (t : Fin cfg0.N) (a : Fin 1) (b : Fin 1) :
    iblk0 (F := Ideal) V c 10 t (ix2 a b) = V c main_v18 (ix2 a b) := by
  show V c main_v18 (((cfg0.win 10).blk t).view.emb (ix2 a b)) = _
  refine congrArg _ (funext fun x => Fin.ext ?_)
  obtain ⟨-, -, -, -, -, -, -, -, -, -, -, -, -, e0, e1, -⟩ := idx_facts t
  match x with
  | ⟨0, _⟩ => show win0_10.index t (0 : Fin 2) * 1 + 1 * a.val = a.val; omega
  | ⟨1, _⟩ => show win0_10.index t (1 : Fin 2) * 1 + 1 * b.val = b.val; omega

/-- Row p of the output block at point t is row 128 t + p of the array of mixing numbers. -/
theorem emb12_apply (t : Fin cfg0.N) (p : Fin 128) (z : Fin 1) (n : Fin 2048) (hn : n.val = t.val * 128 + p.val) :
    ((cfg0.win 12).blk t).view.emb (ix2 p z) = ix2 n z := by
  refine funext fun a => Fin.ext ?_
  obtain ⟨-, -, -, -, -, -, -, -, -, -, -, -, -, -, -, e0, e1⟩ := idx_facts t
  match a with
  | ⟨0, _⟩ => show win0_12.index t (0 : Fin 2) * 128 + 1 * p.val = n.val; omega
  | ⟨1, _⟩ => show win0_12.index t (1 : Fin 2) * 1 + 1 * z.val = z.val; omega

/-- The array of mixing numbers as ONE function of the region's input arrays: at row n, the mixing number of the hidden
    row n and the retrieved vectors of row n under the weights read off their arrays (the two square ones by columns). -/
def mixArr (c : Dev nD) : S2048x1.Idx → EReal := fun i =>
  Cert.Spec.mix (fun n j => V c main_v0 (ix2 n j)) (fun n k j => V c main_arg4 (ix3 n k j)) (fun i j => V c main_v11 (ix2 j i)) (fun i j => V c main_v14 (ix2 j i))
    (fun i => V c main_v15 (ix2 (0 : Fin 1) i)) (fun i => V c main_v17 (ix2 i (0 : Fin 1))) (V c main_v18 (ix2 (0 : Fin 1) (0 : Fin 1))) ⟨(i 0).val, idx2_lt0 i⟩

/-- What the body leaves at a row of its output block is the function above at that row's place in the array. -/
theorem point_eq (hctx : ∀ (x1 : Vec Ideal S128x32x1024 .f32) (p : Fin 128) (q : Fin 1024), ctxBlk x1 (ix2 p q) = (∑ k : Fin 32, x1 (ix3 p k q)) * Cert.Spec.c32)
    (c : Dev nD) (t : Fin cfg0.N) (j : S128x1.Idx) :
    k0_pay2 (k0_pay10 (k0_pay3 (iblk0 (F := Ideal) V c 0 t))) (ctxBlk (iblk0 (F := Ideal) V c 1 t)) (iblk0 (F := Ideal) V c 6 t) (iblk0 (F := Ideal) V c 7 t)
        (iblk0 (F := Ideal) V c 8 t) (iblk0 (F := Ideal) V c 9 t) (iblk0 (F := Ideal) V c 10 t) j
      = mixArr V c (((cfg0.win 12).blk t).view.emb j) := by
  obtain ⟨p, z, rfl⟩ : ∃ (p : Fin 128) (z : Fin 1), j = ix2 p z := ⟨j 0, j 1, eq_ix2 j⟩
  obtain rfl : z = 0 := Subsingleton.elim _ _
  have hN : grid0.N = 16 := N_0
  have ht : t.val < 16 := hN ▸ t.isLt
  have hp : p.val < 128 := p.isLt
  obtain ⟨n, hn⟩ : ∃ n : Fin 2048, n.val = t.val * 128 + p.val := ⟨⟨t.val * 128 + p.val, by omega⟩, rfl⟩
  rw [emb12_apply t p 0 n hn, pay2_apply]
  have h0 : ∀ q, k0_pay10 (k0_pay3 (iblk0 (F := Ideal) V c 0 t)) (ix2 p q) = V c main_v0 (ix2 n q) := fun q => by
    unfold k0_pay10 k0_pay3
    rw [truncf_apply, shapeCast_self]
    exact blk0_apply V c t p q n hn
  have h1 : ∀ q, ctxBlk (iblk0 (F := Ideal) V c 1 t) (ix2 p q) = Cert.Spec.ctx (fun n k j => V c main_arg4 (ix3 n k j)) n q := fun q => by
    refine (hctx (iblk0 (F := Ideal) V c 1 t) p q).trans ?_
    unfold Cert.Spec.ctx
    refine congrArg (· * Cert.Spec.c32) (Finset.sum_congr rfl fun k _ => ?_)
    exact blk1_apply V c t p k q n hn
  simp only [h0, h1, blk6_apply, blk7_apply, blk8_apply, blk9_apply, blk10_apply]
  rfl

/-- What point t writes back is block t of the function above. -/
theorem flushed12_eq (hctx : ∀ (x1 : Vec Ideal S128x32x1024 .f32) (p : Fin 128) (q : Fin 1024), ctxBlk x1 (ix2 p q) = (∑ k : Fin 32, x1 (ix3 p k q)) * Cert.Spec.c32)
    (c : Dev nD) (t : Fin cfg0.N) :
    (dat0 (F := Ideal) V c).flushed 12 t = ((cfg0.win 12).blk t).view.read (Elt Ideal) (mixArr V c) := by
  show (cfg0.win 12).cut (grid0.coords t) ((dat0 (F := Ideal) V c).after 12 t) = _
  rw [after0_12]
  unfold out0_12
  rw [View.canon_unit_zero zeros2]
  simp only [View.ld_unit_zero (S := S128x1024) zeros2, View.ld_unit_zero (S := S1024x1024) zeros2, View.ld_unit_zero (S := S1x1024) zeros2,
    View.ld_unit_zero (S := S1024x1) zeros2, View.ld_unit_zero (S := S1x1) zeros2]
  funext j
  exact point_eq V hctx c t j

/-- An index of the array is in point t's block iff each coordinate is in the block's range on its axis. -/
theorem mem_blk12 (t : Fin cfg0.N) (i : S2048x1.Idx) :
    i ∈ ((cfg0.win 12).blk t).view.set ↔ ∀ a : Fin 2, win0_12.index t a * S128x1.size a ≤ (i a).val ∧ (i a).val < win0_12.index t a * S128x1.size a + S128x1.size a := by
  show i ∈ ((View.whole main_v19_1).slice (win0_12.rect t)).set ↔ _
  rw [View.set_slice_whole, Rect.mem_set_unit]
  exact Iff.rfl

/-- Every row of the array is in some point's block: row r in the block of point r / 128. -/
theorem cover12 (i : S2048x1.Idx) : ∃ t : Fin cfg0.N, (cfg0.win 12).flush t = true ∧ i ∈ ((cfg0.win 12).blk t).view.set := by
  have hi0 : (i 0).val < 2048 := (i 0).isLt
  have hi1 : (i 1).val < 1 := (i 1).isLt
  have hN : grid0.N = 16 := N_0
  obtain ⟨t, ht⟩ : ∃ t : Fin cfg0.N, t.val = (i 0).val / 128 := ⟨⟨(i 0).val / 128, by show (i 0).val / 128 < grid0.N; rw [hN]; omega⟩, rfl⟩
  refine ⟨t, flush0_12 t, ?_⟩
  rw [mem_blk12]
  obtain ⟨-, -, -, -, -, -, -, -, -, -, -, -, -, -, -, e0, e1⟩ := idx_facts t
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 1 ≤ (i 1).val ∧ (i 1).val < win0_12.index t (1 : Fin 2) * 1 + 1; omega

/-- THE ARRAY of mixing numbers after the region, row by row. -/
theorem mix_arr (hctx : ∀ (x1 : Vec Ideal S128x32x1024 .f32) (p : Fin 128) (q : Fin 1024), ctxBlk x1 (ix2 p q) = (∑ k : Fin 32, x1 (ix3 p k q)) * Cert.Spec.c32)
    (c : Dev nD) (n : Fin 2048) :
    (dat0 (F := Ideal) V c).arrAt 12 cfg0.N (ix2 n (0 : Fin 1))
      = Cert.Spec.mix (fun n j => V c main_v0 (ix2 n j)) (fun n k j => V c main_arg4 (ix3 n k j)) (fun i j => V c main_v11 (ix2 j i)) (fun i j => V c main_v14 (ix2 j i))
          (fun i => V c main_v15 (ix2 (0 : Fin 1) i)) (fun i => V c main_v17 (ix2 i (0 : Fin 1))) (V c main_v18 (ix2 (0 : Fin 1) (0 : Fin 1))) n := by
  have h := (dat0 (F := Ideal) V c).arrAt_eq_of_cover 12 (mixArr V c) (fun t _ => flushed12_eq V hctx c t) cover12
  exact (congrFun h (ix2 n (0 : Fin 1))).trans rfl

end Cert.KernelIdeal.KFeatB

end
-- ==== Proof.KComb.lean ====
/-
  What the second region of the program (the combine kernel: a grid of 64 points, 32 rows a point) leaves in its two
  output arrays, for any contents of the arrays it reads. With lg the [2048, 32000] logits and mx the [2048, 1] mixing
  numbers as the region finds them:
  * the first output at (n, v) is log((1 - mx n) * softmax(lg n) v + eps), `Cert.Spec.base`;
  * the second output at (n, 0) is the log-normaliser of row n, max + log(sum of exp(lg n - max)), `Cert.Spec.lse`.
  The body works row by row on a block of 32 rows: a lane maximum, the shifted exponentials, their lane sum, the
  quotient, the mix and the logarithm. First the two lane reductions and the column layout operations are read at an
  index; then each payload of the body at an index of the block; then point t's block is rows 32 t … 32 t + 31 of each
  array, so what point t writes back is block t of ONE function of the input arrays, and the 64 blocks cover the rows.
-/
import proofs.«428110_j55259049230428_3_alg».proof.Proof.Gen.KernelIdeal.Frame
import proofs.«428110_j55259049230428_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KComb

open Cert.KernelIdeal Cert.KernelIdeal.Gen Idealize.ShloMosaic Idealize.ShloMosaic.TcCoe Idealize.ShloMosaic.ValueIdx

/-! ## Two layout operations at an index: a column added to a vector, a column repeated along the lanes -/

section Layout
variable {α : Type}

/-- A vector of `a` entries cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions of a block of 32 rows of 32000 -/

/-- The word of minus infinity denotes the bottom element. -/
theorem ofBits_negInf : Ideal.ofBits .f32 0xFF800000#32 = ⊥ := by simp [Ideal.ofBits, Ideal.ieee]

/-- Row `p` of a block. -/
def row (x : FVec Ideal S32x32000 .f32) (p : Fin 32) : Fin 32000 → EReal := fun v => x (ix2 p v)

/-- The source index over row `p` with lane `v` inserted is `(p, v)`. -/
theorem lift_row (h : S32x32000.Reduces [1] S32) (p : Fin 32) (v : Fin 32000) : h.lift (ix1 p) v = ix2 p v := by
  funext c; apply Fin.ext
  match c with
  | ⟨0, _⟩ => rfl
  | ⟨1, _⟩ => rfl

/-- The lane maximum of a block, at row `p`: the maximum of the row from the bottom element. -/
theorem laneMax_apply (x : FVec Ideal S32x32000 .f32) (h : S32x32000.Reduces [1] S32) (hφ : FKind.Formats .f32)
    (hacc : (0xFF800000#32 : BitVec 32) = FKind.maximumf.neutral .f32 hφ) (p : Fin 32) :
    multiReduction .maximumf [1] S32 x 0xFF800000#32 h hφ hacc (ix1 p) = Cert.Spec.rmax (row x p) := by
  refine (Ideal.multiReduction_maximumf_single x _ h hφ hacc (ix1 p)).trans ?_
  show (Finset.univ : Finset (Fin 32000)).fold max (Ideal.ofBits .f32 0xFF800000#32) (x ∘ h.lift (ix1 p)) = _
  rw [ofBits_negInf]
  unfold Cert.Spec.rmax row
  congr 1
  funext v
  exact congrArg x (lift_row h p v)

/-- The lane sum of a block, at row `p`: the sum of the row. -/
theorem laneSum_apply (x : FVec Ideal S32x32000 .f32) (h : S32x32000.Reduces [1] S32) (hφ : FKind.Formats .f32)
    (hacc : (0x00000000#32 : BitVec 32) = FKind.add.neutral .f32 hφ) (p : Fin 32) :
    multiReduction .add [1] S32 x 0x00000000#32 h hφ hacc (ix1 p) = ∑ v : Fin 32000, x (ix2 p v) := by
  refine (Ideal.multiReduction_add_single x _ h hφ hacc (ix1 p)).trans ?_
  show ∑ v : Fin 32000, x (h.lift (ix1 p) v) = _
  exact Finset.sum_congr rfl fun v _ => congrArg x (lift_row h p v)

/-! ## The body's arithmetic at an index of a block -/

/-- The result of a row `r` of logits mixed by `m`, at lane `v`: the model distribution of the row scaled by `1 - m`, plus the small constant, under the logarithm. -/
def rowBase (r : Fin 32000 → EReal) (m : EReal) (v : Fin 32000) : EReal :=
  Ideal.log ((Cert.Spec.one - m) * Ideal.div (Ideal.exp (r v - Cert.Spec.rmax r)) (∑ v' : Fin 32000, Ideal.exp (r v' - Cert.Spec.rmax r)) + Cert.Spec.eps)

/-- The log-normaliser of a row `r` of logits. -/
def rowLse (r : Fin 32000 → EReal) : EReal :=
  Cert.Spec.rmax r + Ideal.log (∑ v' : Fin 32000, Ideal.exp (r v' - Cert.Spec.rmax r))

/-- A logarithm of a vector at an index is the logarithm of the element … -/
theorem log_apply {s : Shape} {φ : FTy} (a : FVec Ideal s φ) (i : s.Idx) : Idealize.ShloMosaic.log a i = Ideal.log (a i) := rfl
/-- … and an exponential the exponential of the element. -/
theorem exp_apply {s : Shape} {φ : FTy} (a : FVec Ideal s φ) (i : s.Idx) : Idealize.ShloMosaic.exp a i = Ideal.exp (a i) := rfl

section Payloads
variable (x0 : Vec Ideal S32x32000 .f32) (x1 : Vec Ideal S32x1 .f32)

/-- The block as loaded. -/
theorem pay1_eq : k1_pay1 (F := Ideal) x0 = x0 := by
  unfold k1_pay1
  exact shapeCast_self x0 _

/-- The column of row maxima, at `(p, u)`. -/
theorem pay2_apply (p : Fin 32) (u : Fin 1) : k1_pay2 (F := Ideal) x0 (ix2 p u) = Cert.Spec.rmax (row x0 p) := by
  unfold k1_pay2
  refine (shapeCast_a_a1_apply _ _ p u).trans ?_
  rw [pay1_eq]
  exact laneMax_apply x0 _ _ _ p

/-- The shifted exponentials, at `(p, v)`. -/
theorem pay3_apply (p : Fin 32) (v : Fin 32000) :
    k1_pay3 (F := Ideal) x0 (ix2 p v) = Ideal.exp (row x0 p v - Cert.Spec.rmax (row x0 p)) := by
  unfold k1_pay3
  rw [exp_apply, subf_apply, pay1_eq, broadcastTo_a1_ab_apply, pay2_apply]
  rfl

/-- The column of row sums of the shifted exponentials, at `(p, u)`. -/
theorem pay4_apply (p : Fin 32) (u : Fin 1) :
    k1_pay4 (F := Ideal) x0 (ix2 p u) = ∑ v' : Fin 32000, Ideal.exp (row x0 p v' - Cert.Spec.rmax (row x0 p)) := by
  unfold k1_pay4
  refine (shapeCast_a_a1_apply _ _ p u).trans ?_
  refine (laneSum_apply _ _ _ _ p).trans ?_
  exact Finset.sum_congr rfl fun v _ => pay3_apply x0 p v

/-- The first output's payload, at `(p, v)`. -/
theorem pay5_apply (p : Fin 32) (v : Fin 32000) :
    k1_pay5 (F := Ideal) x0 x1 (ix2 p v) = rowBase (row x0 p) (x1 (ix2 p (0 : Fin 1))) v := by
  unfold k1_pay5
  rw [log_apply, addf_apply, mulf_apply, divf_apply, broadcast_apply, broadcastTo_a1_ab_apply, broadcastTo_a1_ab_apply,
    subf_apply, broadcast_apply, shapeCast_self, pay3_apply, pay4_apply]
  rfl

/-- The second output's payload, at `(p, u)`. -/
theorem pay6_apply (p : Fin 32) (u : Fin 1) : k1_pay6 (F := Ideal) x0 (ix2 p u) = rowLse (row x0 p) := by
  unfold k1_pay6
  rw [addf_apply, log_apply, pay2_apply, pay4_apply]
  rfl

end Payloads

/-! ## From the blocks to the arrays

The grid has 64 points; point `t` holds rows `32 t … 32 t + 31` of each of the four arrays, all of their lanes. -/

section Arrays
variable (V : (c : Dev nD) → (b : Ref sig .tc) → Buf (Elt Ideal) ((c : Thread nD τ).loc b))

theorem hz : (![0, 0] : Fin 2 → Nat) = fun _ => 0 := funext fun a => by fin_cases a <;> rfl

/-- Every window's block index at point `t` is `(t, 0)`: blocks of 32 rows, all the lanes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 64 := lt_of_lt_of_eq t.isLt N_1

/-- Row `p` of point `t`'s block is row `32 t + p` of the array. -/
def rowAt (t : Fin cfg1.N) (p : Fin 32) : Fin 2048 := ⟨t.val * 32 + p.val, by have := point_lt t; have := p.isLt; omega⟩

/-- Where an index of point `t`'s block sits in its array, window by window. -/
theorem emb0 (t : Fin cfg1.N) (p : Fin 32) (v : Fin 32000) :
    ((cfg1.win 0).blk t).view.emb (ix2 p v) = ix2 (rowAt t p) v := by
  obtain ⟨e0, e1, -⟩ := idx_facts t
  funext a; apply Fin.ext
  match a with
  | ⟨0, _⟩ => show win1_0.index t (0 : Fin 2) * 32 + 1 * p.val = t.val * 32 + p.val; rw [e0]; omega
  | ⟨1, _⟩ => show win1_0.index t (1 : Fin 2) * 32000 + 1 * v.val = v.val; rw [e1]; omega

theorem emb1 (t : Fin cfg1.N) (p : Fin 32) (u : Fin 1) :
    ((cfg1.win 1).blk t).view.emb (ix2 p u) = ix2 (rowAt t p) u := by
  obtain ⟨-, -, e0, e1, -⟩ := idx_facts t
  funext a; apply Fin.ext
  match a with
  | ⟨0, _⟩ => show win1_1.index t (0 : Fin 2) * 32 + 1 * p.val = t.val * 32 + p.val; rw [e0]; omega
  | ⟨1, _⟩ => show win1_1.index t (1 : Fin 2) * 1 + 1 * u.val = u.val; rw [e1]; omega

theorem emb2 (t : Fin cfg1.N) (p : Fin 32) (v : Fin 32000) :
    ((cfg1.win 2).blk t).view.emb (ix2 p v) = ix2 (rowAt t p) v := by
  obtain ⟨-, -, -, -, e0, e1, -⟩ := idx_facts t
  funext a; apply Fin.ext
  match a with
  | ⟨0, _⟩ => show win1_2.index t (0 : Fin 2) * 32 + 1 * p.val = t.val * 32 + p.val; rw [e0]; omega
  | ⟨1, _⟩ => show win1_2.index t (1 : Fin 2) * 32000 + 1 * v.val = v.val; rw [e1]; omega

theorem emb3 (t : Fin cfg1.N) (p : Fin 32) (u : Fin 1) :
    ((cfg1.win 3).blk t).view.emb (ix2 p u) = ix2 (rowAt t p) u := by
  obtain ⟨-, -, -, -, -, -, e0, e1⟩ := idx_facts t
  funext a; apply Fin.ext
  match a with
  | ⟨0, _⟩ => show win1_3.index t (0 : Fin 2) * 32 + 1 * p.val = t.val * 32 + p.val; rw [e0]; omega
  | ⟨1, _⟩ => show win1_3.index t (1 : Fin 2) * 1 + 1 * u.val = u.val; rw [e1]; omega

/-- The logits and the mixing numbers the region finds, as families over rows and lanes. -/
def lgOf (c : Dev nD) : Fin 2048 → Fin 32000 → EReal := fun n v => V c main_v1 (ix2 n v)
def mxOf (c : Dev nD) : Fin 2048 → EReal := fun n => V c main_v19_1 (ix2 n (0 : Fin 1))

/-- The input blocks at point `t`, read where they sit in their arrays. -/
theorem iblk0_apply (c : Dev nD) (t : Fin cfg1.N) (p : Fin 32) (v : Fin 32000) :
    iblk1 (F := Ideal) V c 0 t (ix2 p v) = lgOf V c (rowAt t p) v := by
  show V c main_v1 (((cfg1.win 0).blk t).view.emb (ix2 p v)) = _
  rw [emb0]
  rfl

theorem iblk1_apply (c : Dev nD) (t : Fin cfg1.N) (p : Fin 32) :
    iblk1 (F := Ideal) V c 1 t (ix2 p (0 : Fin 1)) = mxOf V c (rowAt t p) := by
  show V c main_v19_1 (((cfg1.win 1).blk t).view.emb (ix2 p (0 : Fin 1))) = _
  rw [emb1]
  rfl

end Arrays

section Final
variable (V : (c : Dev nD) → (b : Ref sig .tc) → Buf (Elt Ideal) ((c : Thread nD τ).loc b))

/-- What each output array ends holding: one function of the arrays the region finds, index by index. -/
def G2 (c : Dev nD) : S2048x32000.Idx → EReal := fun i => Cert.Spec.base (lgOf V c) (mxOf V c) (i 0) (i 1)
def G3 (c : Dev nD) : S2048x1.Idx → EReal := fun i => Cert.Spec.lse (lgOf V c) (i 0)

/-- The two results of a row are the row functions of its logits and its mixing number. -/
theorem base_eq_rowBase (lg : Fin 2048 → Fin 32000 → EReal) (mx : Fin 2048 → EReal) (n : Fin 2048) (v : Fin 32000) :
    Cert.Spec.base lg mx n v = rowBase (lg n) (mx n) v := rfl
theorem lse_eq_rowLse (lg : Fin 2048 → Fin 32000 → EReal) (n : Fin 2048) : Cert.Spec.lse lg n = rowLse (lg n) := rfl

/-- The body's stores over whole staging buffers leave the payloads of the loaded blocks. -/
theorem out2_eq (x0 : Vec Ideal S32x32000 .f32) (x1 : Vec Ideal S32x1 .f32) : out1_2 (F := Ideal) x0 x1 = k1_pay5 (F := Ideal) x0 x1 := by
  unfold out1_2
  rw [View.canon_unit_zero hz, View.ld_unit_zero (S := S32x32000) hz, View.ld_unit_zero (S := S32x1) hz]
theorem out3_eq (x0 : Vec Ideal S32x32000 .f32) (x1 : Vec Ideal S32x1 .f32) : out1_3 (F := Ideal) x0 x1 = k1_pay6 (F := Ideal) x0 := by
  unfold out1_3
  rw [View.canon_unit_zero hz, View.ld_unit_zero (S := S32x32000) hz]

/-- Row `p` of the logits' block at point `t` is row `32 t + p` of the logits. -/
theorem row_iblk0 (c : Dev nD) (t : Fin cfg1.N) (p : Fin 32) : row (iblk1 (F := Ideal) V c 0 t) p = lgOf V c (rowAt t p) :=
  funext fun v => iblk0_apply V c t p v

/-- WHAT POINT `t` WRITES BACK to the first output is block `t` of `G2`. -/
theorem flushed2_eq (c : Dev nD) (t : Fin cfg1.N) :
    (dat1 (F := Ideal) V c).flushed 2 t = ((cfg1.win 2).blk t).view.read (Elt Ideal) (G2 V c) := by
  show (cfg1.win 2).cut (grid1.coords t) ((dat1 (F := Ideal) V c).after 2 t) = _
  rw [after1_2, out2_eq]
  funext j
  obtain ⟨p, q, rfl⟩ : ∃ (p : Fin 32) (q : Fin 32000), j = ix2 p q := ⟨j 0, j 1, eq_ix2 j⟩
  show k1_pay5 (F := Ideal) (iblk1 V c 0 t) (iblk1 V c 1 t) (ix2 p q) = G2 V c (((cfg1.win 2).blk t).view.emb (ix2 p q))
  rw [pay5_apply, emb2, row_iblk0, iblk1_apply]
  rfl

/-- WHAT POINT `t` WRITES BACK to the second output is block `t` of `G3`. -/
theorem flushed3_eq (c : Dev nD) (t : Fin cfg1.N) :
    (dat1 (F := Ideal) V c).flushed 3 t = ((cfg1.win 3).blk t).view.read (Elt Ideal) (G3 V c) := by
  show (cfg1.win 3).cut (grid1.coords t) ((dat1 (F := Ideal) V c).after 3 t) = _
  rw [after1_3, out3_eq]
  funext j
  obtain ⟨p, u, rfl⟩ : ∃ (p : Fin 32) (u : Fin 1), j = ix2 p u := ⟨j 0, j 1, eq_ix2 j⟩
  show k1_pay6 (F := Ideal) (iblk1 V c 0 t) (ix2 p u) = G3 V c (((cfg1.win 3).blk t).view.emb (ix2 p u))
  rw [pay6_apply, emb3, row_iblk0]
  rfl

/-- An index of an output array is in point `t`'s block iff each coordinate is in the block's range on its axis. -/
theorem mem_blk2 (t : Fin cfg1.N) (i : S2048x32000.Idx) :
    i ∈ ((cfg1.win 2).blk t).view.set ↔ ∀ a : Fin 2, win1_2.index t a * S32x32000.size a ≤ (i a).val ∧ (i a).val < win1_2.index t a * S32x32000.size a + S32x32000.size a := by
  show i ∈ ((View.whole main_v20_0).slice (win1_2.rect t)).set ↔ _
  rw [View.set_slice_whole, Rect.mem_set_unit]
  exact Iff.rfl
theorem mem_blk3 (t : Fin cfg1.N) (i : S2048x1.Idx) :
    i ∈ ((cfg1.win 3).blk t).view.set ↔ ∀ a : Fin 2, win1_3.index t a * S32x1.size a ≤ (i a).val ∧ (i a).val < win1_3.index t a * S32x1.size a + S32x1.size a := by
  show i ∈ ((View.whole main_v20_1).slice (win1_3.rect t)).set ↔ _
  rw [View.set_slice_whole, Rect.mem_set_unit]
  exact Iff.rfl

/-- Row `r` is covered by point `r / 32`. -/
theorem cover2 (i : S2048x32000.Idx) : ∃ t : Fin cfg1.N, (cfg1.win 2).flush t = true ∧ i ∈ ((cfg1.win 2).blk t).view.set := by
  have hi0 : (i 0).val < 2048 := idx2_lt0 i
  have hi1 : (i 1).val < 32000 := idx2_lt1 i
  have hN : cfg1.N = 64 := N_1
  have ht : (i 0).val / 32 < cfg1.N := by rw [hN]; omega
  obtain ⟨-, -, -, -, e0, e1, -⟩ := idx_facts ⟨(i 0).val / 32, ht⟩
  refine ⟨⟨(i 0).val / 32, ht⟩, flush1_2 _, ?_⟩
  rw [mem_blk2]
  intro a
  match a with
  | ⟨0, _⟩ =>
    show win1_2.index ⟨(i 0).val / 32, ht⟩ (0 : Fin 2) * 32 ≤ (i 0).val ∧ (i 0).val < win1_2.index ⟨(i 0).val / 32, ht⟩ (0 : Fin 2) * 32 + 32
    rw [e0]; show (i 0).val / 32 * 32 ≤ (i 0).val ∧ (i 0).val < (i 0).val / 32 * 32 + 32; omega
  | ⟨1, _⟩ =>
    show win1_2.index ⟨(i 0).val / 32, ht⟩ (1 : Fin 2) * 32000 ≤ (i 1).val ∧ (i 1).val < win1_2.index ⟨(i 0).val / 32, ht⟩ (1 : Fin 2) * 32000 + 32000
    rw [e1]; omega

theorem cover3 (i : S2048x1.Idx) : ∃ t : Fin cfg1.N, (cfg1.win 3).flush t = true ∧ i ∈ ((cfg1.win 3).blk t).view.set := by
  have hi0 : (i 0).val < 2048 := idx2_lt0 i
  have hi1 : (i 1).val < 1 := idx2_lt1 i
  have hN : cfg1.N = 64 := N_1
  have ht : (i 0).val / 32 < cfg1.N := by rw [hN]; omega
  obtain ⟨-, -, -, -, -, -, e0, e1⟩ := idx_facts ⟨(i 0).val / 32, ht⟩
  refine ⟨⟨(i 0).val / 32, ht⟩, flush1_3 _, ?_⟩
  rw [mem_blk3]
  intro a
  match a with
  | ⟨0, _⟩ =>
    show win1_3.index ⟨(i 0).val / 32, ht⟩ (0 : Fin 2) * 32 ≤ (i 0).val ∧ (i 0).val < win1_3.index ⟨(i 0).val / 32, ht⟩ (0 : Fin 2) * 32 + 32
    rw [e0]; show (i 0).val / 32 * 32 ≤ (i 0).val ∧ (i 0).val < (i 0).val / 32 * 32 + 32; omega
  | ⟨1, _⟩ =>
    show win1_3.index ⟨(i 0).val / 32, ht⟩ (1 : Fin 2) * 1 ≤ (i 1).val ∧ (i 1).val < win1_3.index ⟨(i 0).val / 32, ht⟩ (1 : Fin 2) * 1 + 1
    rw [e1]; omega

/-- THE OUTPUT ARRAYS after the region. -/
theorem arr2_eq (c : Dev nD) : (dat1 (F := Ideal) V c).arrAt 2 cfg1.N = G2 V c :=
  (dat1 (F := Ideal) V c).arrAt_eq_of_cover 2 (G2 V c) (fun t _ => flushed2_eq V c t) cover2
theorem arr3_eq (c : Dev nD) : (dat1 (F := Ideal) V c).arrAt 3 cfg1.N = G3 V c :=
  (dat1 (F := Ideal) V c).arrAt_eq_of_cover 3 (G3 V c) (fun t _ => flushed3_eq V c t) cover3

theorem base_arr (c : Dev nD) (n : Fin 2048) (v : Fin 32000) :
    (dat1 (F := Ideal) V c).arrAt 2 cfg1.N (ix2 n v) = Cert.Spec.base (fun n v => V c main_v1 (ix2 n v)) (fun n => V c main_v19_1 (ix2 n (0 : Fin 1))) n v :=
  congrFun (arr2_eq V c) (ix2 n v)

theorem lse_arr (c : Dev nD) (n : Fin 2048) :
    (dat1 (F := Ideal) V c).arrAt 3 cfg1.N (ix2 n (0 : Fin 1)) = Cert.Spec.lse (fun n v => V c main_v1 (ix2 n v)) n :=
  congrFun (arr3_eq V c) (ix2 n (0 : Fin 1))

end Final

end Cert.KernelIdeal.KComb

end
-- ==== Proof.LibPoint.lean ====
/-
  General lemmas for POINT indexing of a rank-2 array of 2048 rows and 32000 columns by a [2048, 32] table of
  column numbers, one row of 32 positions per row of the array:

  * a writing scatter (the body returns the update), through ANY dimension numbers, read at one operand index: the
    operand's entry where no update lands, and the common value of the updates landing there when they all agree;
  * where a point update lands: the update at position (n, k) goes to the operand index whose row and column are the
    two numbers the scatter indices hold at (n, k), read signed and not clamped;
  * at the ideal values the accumulating point scatter, when position (n, k) names row n and an in-range column
    col n k: read at (n, v) it is the operand's entry plus the sum of the updates' entries (n, k) over the
    positions k of row n with col n k = v;
  * the writing point scatter under the same hypotheses: the operand's entry at a column no position of the row
    names, the updates' common value at a column some position names;
  * the batched point gather: read at (n, k) it is the operand at row n and the column the start indices hold at
    (n, k), read signed and clamped into [0, 31999].
-/
import Idealize.ShloMosaic.Lib.ValueIdx
import Idealize.ShloMosaic.Lib.Pipeline.Value
import Idealize.ShloMosaic.PureOps.Ideal.Laws

noncomputable section

open scoped BigOperators

namespace Cert.LibPoint

open Idealize.ShloMosaic Idealize.ShloMosaic.ValueIdx

abbrev SOp : Shape := ⟨2, ![2048, 32000]⟩
abbrev SI2 : Shape := ⟨3, ![2048, 32, 2]⟩
abbrev SI1 : Shape := ⟨3, ![2048, 32, 1]⟩
abbrev SU : Shape := ⟨2, ![2048, 32]⟩

/-- One step of the fold, read at an operand index: the update's value where the update lands there, else what was there. -/
private theorem step_apply {α : Type} {s si u : Shape} {w : ℕ} (d : ScatterDims s si u) (idx : IVec si w) (upd : u.Idx → α)
    (r : s.Idx → α) (j : u.Idx) (i : s.Idx) :
    (match d.resultIdx? j idx with
      | some i0 => fun i' => if i' = i0 then (fun (_ : α) (b : α) => b) (r i0) (upd j) else r i'
      | none => r) i = if d.resultIdx? j idx = some i then upd j else r i := by
  cases h : d.resultIdx? j idx with
  | none => simp
  | some i0 =>
    by_cases hi : i = i0
    · subst hi; simp
    · have : ¬ (some i0 = some i) := fun h' => hi (Option.some.inj h').symm
      simp [hi, this]

private theorem fold_of_none {α : Type} {s si u : Shape} {w : ℕ} (d : ScatterDims s si u) (idx : IVec si w) (upd : u.Idx → α)
    (i : s.Idx) (l : List (Fin u.numel)) (r : s.Idx → α)
    (h : ∀ n ∈ l, d.resultIdx? (u.rowMajor.symm n) idx ≠ some i) :
    l.foldl (fun r n =>
      match d.resultIdx? (u.rowMajor.symm n) idx with
      | some i0 => fun i' => if i' = i0 then (fun (_ : α) (b : α) => b) (r i0) (upd (u.rowMajor.symm n)) else r i'
      | none => r) r i = r i := by
  induction l generalizing r with
  | nil => rfl
  | cons n l ih =>
    rw [List.foldl_cons, ih _ (fun m hm => h m (List.mem_cons_of_mem _ hm)), step_apply,
      if_neg (h n List.mem_cons_self)]

private theorem fold_of_const {α : Type} {s si u : Shape} {w : ℕ} (d : ScatterDims s si u) (idx : IVec si w) (upd : u.Idx → α)
    (i : s.Idx) (v : α) (l : List (Fin u.numel)) (r : s.Idx → α)
    (hc : ∀ n ∈ l, d.resultIdx? (u.rowMajor.symm n) idx = some i → upd (u.rowMajor.symm n) = v)
    (h0 : r i = v ∨ ∃ n ∈ l, d.resultIdx? (u.rowMajor.symm n) idx = some i) :
    l.foldl (fun r n =>
      match d.resultIdx? (u.rowMajor.symm n) idx with
      | some i0 => fun i' => if i' = i0 then (fun (_ : α) (b : α) => b) (r i0) (upd (u.rowMajor.symm n)) else r i'
      | none => r) r i = v := by
  induction l generalizing r with
  | nil =>
    rcases h0 with h0 | ⟨n, hn, _⟩
    · exact h0
    · exact absurd hn List.not_mem_nil
  | cons n l ih =>
    rw [List.foldl_cons]
    refine ih _ (fun m hm => hc m (List.mem_cons_of_mem _ hm)) ?_
    rw [step_apply]
    by_cases hn : d.resultIdx? (u.rowMajor.symm n) idx = some i
    · left; rw [if_pos hn]; exact hc n List.mem_cons_self hn
    · rw [if_neg hn]
      rcases h0 with h0 | ⟨m, hm, hml⟩
      · left; exact h0
      · rcases List.mem_cons.mp hm with rfl | hm'
        · exact absurd hml hn
        · right; exact ⟨m, hm', hml⟩

/-- A writing scatter read at an operand index no update lands on: the operand's entry. -/
theorem scatter_set_of_none {α : Type} {s si u : Shape} {w : ℕ} (d : ScatterDims s si u) (x : s.Idx → α) (idx : IVec si w)
    (upd : u.Idx → α) (i : s.Idx) (h : ∀ j, d.resultIdx? j idx ≠ some i) :
    Host.scatter d (fun _ b => b) x idx upd i = x i := by
  unfold Host.scatter
  exact fold_of_none d idx upd i _ x (fun n _ => h _)

/-- A writing scatter read at an operand index some update lands on, when every update landing there carries one value:
    that value. -/
theorem scatter_set_of_const {α : Type} {s si u : Shape} {w : ℕ} (d : ScatterDims s si u) (x : s.Idx → α) (idx : IVec si w)
    (upd : u.Idx → α) (i : s.Idx) (j0 : u.Idx) (h0 : d.resultIdx? j0 idx = some i)
    (hc : ∀ j, d.resultIdx? j idx = some i → upd j = upd j0) :
    Host.scatter d (fun _ b => b) x idx upd i = upd j0 := by
  unfold Host.scatter
  refine fold_of_const d idx upd i (upd j0) _ x (fun n _ hn => hc _ hn) (Or.inr ⟨u.rowMajor j0, List.mem_finRange _, ?_⟩)
  rw [Equiv.symm_apply_apply]; exact h0

/-- Where a point update lands: the update at position `(n, k)` goes to the operand index whose row and column are the two
    numbers the scatter indices hold at `(n, k)`, read signed, when both are inside the operand. -/
theorem point_resultIdx (d : ScatterDims SOp SI2 SU) (h1 : d.updateWindowDims = []) (h2 : d.insertedWindowDims = [0, 1])
    (h3 : d.scatterDimsToOperandDims = [0, 1]) (h4 : d.indexVectorDim = 2) (idx : IVec SI2 32) (n : Fin 2048) (k : Fin 32)
    (r : Fin 2048) (c : Fin 32000) (hr : (idx (ix3 n k (0 : Fin 2))).toInt = (r.val : ℤ))
    (hc : (idx (ix3 n k (1 : Fin 2))).toInt = (c.val : ℤ)) :
    d.resultIdx? (ix2 n k) idx = some (ix2 r c) := by
  obtain ⟨uw, iw, sd, iv, wf⟩ := d
  dsimp only at h1 h2 h3 h4
  subst h1 h2 h3 h4
  generalize hd : (⟨[], [0, 1], [0, 1], 2, wf⟩ : ScatterDims SOp SI2 SU) = d
  have e3 : d.scatterDimsToOperandDims = [0, 1] := by rw [← hd]
  have e2 : d.sKept = [] := by rw [← hd]; rfl
  have hs0 : d.start (ix2 n k) idx (0 : Fin 2) = (r.val : ℤ) := by
    unfold ScatterDims.start
    rw [dif_pos (show (0 : Fin 2) ∈ d.scatterDimsToOperandDims by rw [e3]; simp)]
    have hsi : d.siIdx (ix2 n k) ⟨List.idxOf (0 : Fin 2) d.scatterDimsToOperandDims,
        List.idxOf_lt_length_iff.2 (by rw [e3]; simp)⟩ = ix3 n k (0 : Fin 2) := by
      subst hd
      funext b; refine Fin.ext ?_
      match b with
      | ⟨0, _⟩ => rfl
      | ⟨1, _⟩ => rfl
      | ⟨2, _⟩ => rfl
    rw [hsi, hr]
  have hs1 : d.start (ix2 n k) idx (1 : Fin 2) = (c.val : ℤ) := by
    unfold ScatterDims.start
    rw [dif_pos (show (1 : Fin 2) ∈ d.scatterDimsToOperandDims by rw [e3]; simp)]
    have hsi : d.siIdx (ix2 n k) ⟨List.idxOf (1 : Fin 2) d.scatterDimsToOperandDims,
        List.idxOf_lt_length_iff.2 (by rw [e3]; simp)⟩ = ix3 n k (1 : Fin 2) := by
      subst hd
      funext b; refine Fin.ext ?_
      match b with
      | ⟨0, _⟩ => rfl
      | ⟨1, _⟩ => rfl
      | ⟨2, _⟩ => rfl
    rw [hsi, hc]
  have hw : ∀ a, d.window (ix2 n k) a = 0 := by
    intro a
    unfold ScatterDims.window
    rw [dif_neg (by rw [e2]; exact List.not_mem_nil)]
  unfold ScatterDims.resultIdx?
  have hb : ∀ a : Fin 2, 0 ≤ d.start (ix2 n k) idx a + (d.window (ix2 n k) a : ℤ)
      ∧ d.start (ix2 n k) idx a + (d.window (ix2 n k) a : ℤ) < (SOp.size a : ℤ) := by
    intro a
    rw [hw a]
    match a with
    | ⟨0, _⟩ =>
      show 0 ≤ d.start (ix2 n k) idx (0 : Fin 2) + ((0 : ℕ) : ℤ) ∧ d.start (ix2 n k) idx (0 : Fin 2) + ((0 : ℕ) : ℤ) < ((2048 : ℕ) : ℤ)
      rw [hs0]
      have := r.isLt
      omega
    | ⟨1, _⟩ =>
      show 0 ≤ d.start (ix2 n k) idx (1 : Fin 2) + ((0 : ℕ) : ℤ) ∧ d.start (ix2 n k) idx (1 : Fin 2) + ((0 : ℕ) : ℤ) < ((32000 : ℕ) : ℤ)
      rw [hs1]
      have := c.isLt
      omega
  rw [dif_pos hb]
  congr 1
  funext a
  refine Fin.ext ?_
  match a with
  | ⟨0, _⟩ =>
    show (d.start (ix2 n k) idx (0 : Fin 2) + (d.window (ix2 n k) (0 : Fin 2) : ℤ)).toNat = r.val
    rw [hs0, hw]
    omega
  | ⟨1, _⟩ =>
    show (d.start (ix2 n k) idx (1 : Fin 2) + (d.window (ix2 n k) (1 : Fin 2) : ℤ)).toNat = c.val
    rw [hs1, hw]
    omega

/-- THE ACCUMULATING POINT SCATTER READ AT `(n, v)`, at the ideal values, when position `(n, k)` names row `n` and the
    in-range column `col n k`: the operand's entry plus the sum of the updates' entries `(n, k)` over the positions `k`
    of row `n` whose column is `v`. -/
theorem point_scatterAdd_apply (d : ScatterDims SOp SI2 SU) (h1 : d.updateWindowDims = []) (h2 : d.insertedWindowDims = [0, 1])
    (h3 : d.scatterDimsToOperandDims = [0, 1]) (h4 : d.indexVectorDim = 2) (x : FVec Ideal SOp .f32) (idx : IVec SI2 32)
    (upd : FVec Ideal SU .f32) (col : Fin 2048 → Fin 32 → Fin 32000)
    (hr : ∀ n k, (idx (ix3 n k (0 : Fin 2))).toInt = (n.val : ℤ))
    (hc : ∀ n k, (idx (ix3 n k (1 : Fin 2))).toInt = ((col n k).val : ℤ))
    (n : Fin 2048) (v : Fin 32000) :
    Host.scatterAdd (F := Ideal) d x idx upd (ix2 n v)
      = x (ix2 n v) + ∑ k ∈ Finset.univ.filter (fun k : Fin 32 => col n k = v), upd (ix2 n k) := by
  show Ideal.hostScatterAdd d x idx upd (ix2 n v) = _
  unfold Ideal.hostScatterAdd
  congr 1
  rw [Finset.sum_filter, sum_idx2, Finset.sum_filter]
  have hres : ∀ n' k, d.resultIdx? (ix2 n' k) idx = some (ix2 n' (col n' k)) := fun n' k =>
    point_resultIdx d h1 h2 h3 h4 idx n' k n' (col n' k) (hr n' k) (hc n' k)
  rw [Finset.sum_eq_single n]
  · refine Finset.sum_congr rfl fun k _ => ?_
    rw [hres]
    by_cases hk : col n k = v
    · rw [if_pos hk, if_pos (by rw [hk])]
    · rw [if_neg hk, if_neg (fun h => hk (congrArg (fun f : SOp.Idx => f 1) (Option.some.inj h)))]
  · intro n' _ hn'
    refine Finset.sum_eq_zero fun k _ => ?_
    rw [hres, if_neg]
    intro h
    exact hn' (congrArg (fun f : SOp.Idx => f 0) (Option.some.inj h))
  · intro h
    exact absurd (Finset.mem_univ n) h

/-- THE WRITING POINT SCATTER READ AT `(n, v)`, under the same hypotheses, at a column no position of row `n` names:
    the operand's entry. -/
theorem point_scatterSet_miss {α : Type} (d : ScatterDims SOp SI2 SU) (h1 : d.updateWindowDims = [])
    (h2 : d.insertedWindowDims = [0, 1]) (h3 : d.scatterDimsToOperandDims = [0, 1]) (h4 : d.indexVectorDim = 2)
    (x : SOp.Idx → α) (idx : IVec SI2 32) (upd : SU.Idx → α) (col : Fin 2048 → Fin 32 → Fin 32000)
    (hr : ∀ n k, (idx (ix3 n k (0 : Fin 2))).toInt = (n.val : ℤ))
    (hc : ∀ n k, (idx (ix3 n k (1 : Fin 2))).toInt = ((col n k).val : ℤ))
    (n : Fin 2048) (v : Fin 32000) (hv : ∀ k, col n k ≠ v) :
    Host.scatter d (fun _ b => b) x idx upd (ix2 n v) = x (ix2 n v) := by
  refine scatter_set_of_none d x idx upd _ fun j => ?_
  obtain ⟨a, b, rfl⟩ : ∃ (a : Fin 2048) (b : Fin 32), j = ix2 a b := ⟨j 0, j 1, eq_ix2 j⟩
  rw [point_resultIdx d h1 h2 h3 h4 idx a b a (col a b) (hr a b) (hc a b)]
  intro h
  have h' := Option.some.inj h
  have e0 : a = n := congrArg (fun f : SOp.Idx => f 0) h'
  subst e0
  exact hv b (congrArg (fun f : SOp.Idx => f 1) h')

/-- THE WRITING POINT SCATTER READ AT `(n, v)`, under the same hypotheses, at a column some position `k0` of row `n`
    names, when every position of the row naming it carries one value: that value. -/
theorem point_scatterSet_hit {α : Type} (d : ScatterDims SOp SI2 SU) (h1 : d.updateWindowDims = [])
    (h2 : d.insertedWindowDims = [0, 1]) (h3 : d.scatterDimsToOperandDims = [0, 1]) (h4 : d.indexVectorDim = 2)
    (x : SOp.Idx → α) (idx : IVec SI2 32) (upd : SU.Idx → α) (col : Fin 2048 → Fin 32 → Fin 32000)
    (hr : ∀ n k, (idx (ix3 n k (0 : Fin 2))).toInt = (n.val : ℤ))
    (hc : ∀ n k, (idx (ix3 n k (1 : Fin 2))).toInt = ((col n k).val : ℤ))
    (n : Fin 2048) (v : Fin 32000) (k0 : Fin 32) (h0 : col n k0 = v)
    (hcst : ∀ k, col n k = v → upd (ix2 n k) = upd (ix2 n k0)) :
    Host.scatter d (fun _ b => b) x idx upd (ix2 n v) = upd (ix2 n k0) := by
  refine scatter_set_of_const d x idx upd (ix2 n v) (ix2 n k0) ?_ ?_
  · rw [point_resultIdx d h1 h2 h3 h4 idx n k0 n (col n k0) (hr n k0) (hc n k0), h0]
  · intro j hj
    obtain ⟨a, b, rfl⟩ : ∃ (a : Fin 2048) (b : Fin 32), j = ix2 a b := ⟨j 0, j 1, eq_ix2 j⟩
    rw [point_resultIdx d h1 h2 h3 h4 idx a b a (col a b) (hr a b) (hc a b)] at hj
    have h' := Option.some.inj hj
    have e0 : a = n := congrArg (fun f : SOp.Idx => f 0) h'
    subst e0
    exact hcst b (congrArg (fun f : SOp.Idx => f 1) h')

/-- THE BATCHED POINT GATHER READ AT `(n, k)`: the operand at row `n` (the batching coordinate) and the column the start
    indices hold at `(n, k)`, read signed and clamped into `[0, 31999]`. -/
theorem point_gather_apply {α : Type} (d : GatherDims SOp SI1 SU) (g1 : d.offsetDims = []) (g2 : d.collapsedSliceDims = [1])
    (g3 : d.operandBatchingDims = [0]) (g4 : d.startIndicesBatchingDims = [0]) (g5 : d.startIndexMap = [1])
    (g6 : d.indexVectorDim = 2) (g7 : d.sliceSizes = ![1, 1])
    (x : SOp.Idx → α) (idx : IVec SI1 32) (n : Fin 2048) (k : Fin 32) :
    Host.gather d x idx (ix2 n k)
      = x (ix2 n (⟨min (idx (ix3 n k (0 : Fin 1))).toInt.toNat 31999, by omega⟩ : Fin 32000)) := by
  obtain ⟨od, cd, ob, sb, sm, iv, ss, wf⟩ := d
  dsimp only at g1 g2 g3 g4 g5 g6 g7
  subst g1 g2 g3 g4 g5 g6 g7
  generalize hd : (⟨[], [1], [0], [0], [1], 2, ![1, 1], wf⟩ : GatherDims SOp SI1 SU) = d
  have e3 : d.operandBatchingDims = [0] := by rw [← hd]
  have e5 : d.startIndexMap = [1] := by rw [← hd]
  have ek : d.sKept = [] := by rw [← hd]; rfl
  unfold Host.gather
  congr 1
  funext a
  refine Fin.ext ?_
  match a with
  | ⟨0, _⟩ =>
    show d.start (ix2 n k) idx (0 : Fin 2) + d.batchCoord (ix2 n k) (0 : Fin 2) + d.offCoord (ix2 n k) (0 : Fin 2) = n.val
    have hs : d.start (ix2 n k) idx (0 : Fin 2) = 0 := by
      unfold GatherDims.start
      rw [dif_neg (by rw [e5]; simp)]
    have ho : d.offCoord (ix2 n k) (0 : Fin 2) = 0 :=
      GatherDims.offCoord_eq_zero _ _ _ (by rw [ek]; exact List.not_mem_nil)
    have hb : d.batchCoord (ix2 n k) (0 : Fin 2) = n.val := by
      unfold GatherDims.batchCoord
      rw [dif_pos (by rw [e3]; simp)]
      subst hd
      rfl
    rw [hs, ho, hb, Nat.zero_add, Nat.add_zero]
  | ⟨1, _⟩ =>
    show d.start (ix2 n k) idx (1 : Fin 2) + d.batchCoord (ix2 n k) (1 : Fin 2) + d.offCoord (ix2 n k) (1 : Fin 2)
      = min (idx (ix3 n k (0 : Fin 1))).toInt.toNat 31999
    have ho : d.offCoord (ix2 n k) (1 : Fin 2) = 0 :=
      GatherDims.offCoord_eq_zero _ _ _ (by rw [ek]; exact List.not_mem_nil)
    have hb : d.batchCoord (ix2 n k) (1 : Fin 2) = 0 :=
      GatherDims.batchCoord_eq_zero _ _ _ (by rw [e3]; simp)
    rw [ho, hb]
    simp only [Nat.add_zero]
    unfold GatherDims.start
    rw [dif_pos (show (1 : Fin 2) ∈ d.startIndexMap by rw [e5]; simp)]
    have hsi : d.siIdx (ix2 n k) ⟨List.idxOf (1 : Fin 2) d.startIndexMap,
        List.idxOf_lt_length_iff.2 (by rw [e5]; simp)⟩ = ix3 n k (0 : Fin 1) := by
      subst hd
      funext b; refine Fin.ext ?_
      match b with
      | ⟨0, _⟩ => rfl
      | ⟨1, _⟩ => rfl
      | ⟨2, _⟩ => rfl
    rw [hsi]
    subst hd
    rfl

end Cert.LibPoint

end
-- ==== Proof.KTail.lean ====
/-
  The host operations that follow the two kernels, as one pure function of six arrays, and that function read at an
  index.  The operations: the row numbers 0 … 2047 as a column; the token numbers with negative ones wrapped by 32000,
  tested for the range [0, 31999], and the logits gathered at (row, token column), a not-a-number laid where the test
  fails; exp of the gathered logit less the row's log-normaliser; the table over (row, position, position) that holds 1
  where two positions of a row hold the same token number and 0 elsewhere; the weights times that table summed over the
  first position; the logarithm of (1 - mix) * p + mix * w + 1e-10; the (row, column) index pairs; the writing point
  scatter of those values into the base array; the recast to [8, 256, 32000].

  Read at an index under the hypothesis that every token number is a column of the logits: at a column some position
  of the row names, the value computed for that position (all positions naming the column compute the same value);
  elsewhere the base array's entry.
-/
import proofs.«428110_j55259049230428_3_alg».proof.Proof.Gen.KernelIdeal.Frame
import proofs.«428110_j55259049230428_3_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.IdealHost
import Idealize.ShloMosaic.Lib.Affine
import Idealize.ShloMosaic.PureOps.Reduce
import Mathlib.Data.Finset.Fold
import Mathlib.Data.Finset.BooleanAlgebra
import Mathlib.Algebra.BigOperators.Group.Finset.Basic
import Mathlib.Data.EReal.Basic
import proofs.«428110_j55259049230428_3_alg».proof.Proof.LibPoint
import proofs.«428110_j55259049230428_3_alg».proof.Proof.Bridge

noncomputable section

open scoped BigOperators

namespace Cert.KernelIdeal.KTail

open Cert.KernelIdeal Cert.KernelIdeal.Gen Idealize.ShloMosaic Idealize.ShloMosaic.ValueIdx

/-! ## The operations as pure functions -/

/-- The row numbers as a column: the entry at (n, 0) is n. -/
def rowCol : IVec S2048x1 32 := broadcastInDim S2048x1 ![0] bcast_S2048_S2048x1_0 (iotaInDim S2048 32 0)

/-- A column of row numbers, a negative one wrapped by 2048. -/
def wrapRow (rows : IVec S2048x1 32) : IVec S2048x1 32 :=
  select (cmpi .slt rows (broadcastInDim S2048x1 ![] bcast_S_S2048x1 (constantI S_ 32 0#32)))
    (addi rows (broadcastInDim S2048x1 ![] bcast_S_S2048x1 (constantI S_ 32 2048#32))) rows

/-- The token numbers, a negative one wrapped by 32000. -/
def wrapTok (tok : IVec S2048x32 32) : IVec S2048x32 32 :=
  select (cmpi .slt tok (broadcastInDim S2048x32 ![] bcast_S_S2048x32 (constantI S_ 32 0#32)))
    (addi tok (broadcastInDim S2048x32 ![] bcast_S_S2048x32 (constantI S_ 32 32000#32))) tok

/-- The wrapped token numbers as the gather's start indices, one per (row, position). -/
def startIdx (tok : IVec S2048x32 32) : IVec S2048x32x1 32 :=
  fun i => shapeCast S2048x32x1 (wrapTok tok) shapeCasts_S2048x32_S2048x32x1 i

/-- The range test: 1 where the start index lies in [0, 31999]. -/
def inRange (tok : IVec S2048x32 32) : IVec S2048x32 1 :=
  Host.reduce IntOp.andi
    (andi (cmpi .sge (startIdx tok) (broadcastInDim S2048x32x1 ![] bcast_S_S2048x32x1 (constantI S_ 32 0#32)))
      (cmpi .sle (startIdx tok) (broadcastInDim S2048x32x1 ![0, 1, 2] bcast_S1x1x1_S2048x32x1_0_1_2
        (broadcastInDim S1x1x1 ![2] bcast_S1_S1x1x1_2 (constantI S1 32 31999#32)))))
    (constantI S_ 1 1#1) reducesTo_S2048x32x1_S2048x32_d2 h_S_

/-- The logits gathered at (row, token column); a not-a-number where the range test fails. -/
def gathered (lg2 : FVec Ideal S2048x32000 .f32) (tok : IVec S2048x32 32) : FVec Ideal S2048x32 .f32 :=
  select (inRange tok) (Host.gather gather_S2048x32000_S2048x32x1_S2048x32_n_1_0_0_1_2_11 lg2 (startIdx tok))
    (broadcastInDim S2048x32 ![] bcast_S_S2048x32 (constant (F := Ideal) S_ .f32 0x7FC00000#32))

/-- The table of equal token numbers: at (n, j, k), 1 where positions j and k of row n hold the same number. -/
def eqTab (tok : IVec S2048x32 32) : FVec Ideal S2048x32x32 .f32 :=
  uitofp (F := Ideal) .f32
    (cmpi .eq
      (broadcastInDim S2048x32x32 ![0, 1, 2] bcast_S2048x32x1_S2048x32x32_0_1_2
        (broadcastInDim S2048x32x1 ![0, 1] bcast_S2048x32_S2048x32x1_0_1 tok))
      (broadcastInDim S2048x32x32 ![0, 1, 2] bcast_S2048x1x32_S2048x32x32_0_1_2
        (broadcastInDim S2048x1x32 ![0, 2] bcast_S2048x32_S2048x1x32_0_2 tok)))

/-- The weights gathered on a position's token: weights times the table, summed over the first position. -/
def wsum (knn : FVec Ideal S2048x32 .f32) (tok : IVec S2048x32 32) : FVec Ideal S2048x32 .f32 :=
  Host.reduceAdd (F := Ideal)
    (mulf (F := Ideal)
      (broadcastInDim S2048x32x32 ![0, 1, 2] bcast_S2048x32x1_S2048x32x32_0_1_2
        (broadcastInDim S2048x32x1 ![0, 1] bcast_S2048x32_S2048x32x1_0_1 knn))
      (eqTab tok))
    (constant (F := Ideal) S_ .f32 0x00000000#32) reducesTo_S2048x32x32_S2048x32_d1 h_S_

/-- The value computed for each (row, position): log((1 - mix) * exp(g - lse) + mix * w + 1e-10). -/
def corrected (lse : FVec Ideal S2048x1 .f32) (knn : FVec Ideal S2048x32 .f32) (mix : FVec Ideal S2048x1 .f32)
    (g : FVec Ideal S2048x32 .f32) (tok : IVec S2048x32 32) : FVec Ideal S2048x32 .f32 :=
  Host.log (F := Ideal)
    (addf (F := Ideal)
      (addf (F := Ideal)
        (mulf (F := Ideal)
          (broadcastInDim S2048x32 ![0, 1] bcast_S2048x1_S2048x32_0_1
            (subf (F := Ideal) (broadcastInDim S2048x1 ![] bcast_S_S2048x1 (constant (F := Ideal) S_ .f32 0x3F800000#32)) mix))
          (Host.exp (F := Ideal) (subf (F := Ideal) g (broadcastInDim S2048x32 ![0, 1] bcast_S2048x1_S2048x32_0_1 lse))))
        (mulf (F := Ideal) (broadcastInDim S2048x32 ![0, 1] bcast_S2048x1_S2048x32_0_1 mix) (wsum knn tok)))
      (broadcastInDim S2048x32 ![] bcast_S_S2048x32 (constant (F := Ideal) S_ .f32 0x2EDBE6FF#32)))

/-- The (row, column) index pairs of the scatter, one pair per (row, position). -/
def pairs (rows : IVec S2048x1 32) (tok : IVec S2048x32 32) : IVec S2048x32x2 32 :=
  concatenate S2048x32x2 2
    [⟨S2048x32x1, broadcastInDim S2048x32x1 ![0, 1] bcast_S2048x32_S2048x32x1_0_1
        (broadcastInDim S2048x32 ![0, 1] bcast_S2048x1_S2048x32_0_1 (wrapRow rows))⟩,
     ⟨S2048x32x1, broadcastInDim S2048x32x1 ![0, 1] bcast_S2048x32_S2048x32x1_0_1 (wrapTok tok)⟩]
    concatenates_S2048x32x1_S2048x32x1_S2048x32x2_d2

/-- The third stretch: the computed values written into the base array at the index pairs, recast to [8, 256, 32000]. -/
def tailOf (base : FVec Ideal S2048x32000 .f32) (lse : FVec Ideal S2048x1 .f32) (knn : FVec Ideal S2048x32 .f32)
    (mix : FVec Ideal S2048x1 .f32) (g : FVec Ideal S2048x32 .f32) (rows : IVec S2048x1 32) (tok : IVec S2048x32 32) :
    FVec Ideal S8x256x32000 .f32 :=
  fun i => shapeCast S8x256x32000
    (Host.scatter scatter_S2048x32000_S2048x32x2_S2048x32_n_01_01_2 (fun _ b => b) base (pairs rows tok)
      (corrected lse knn mix g tok))
    shapeCasts_S2048x32000_S8x256x32000 i

/-- The tail as a function of: the base array, the log-normalisers, the weights, the mixing numbers, the logits as
    [2048, 32000], the token numbers. -/
def tail (base : FVec Ideal S2048x32000 .f32) (lse : FVec Ideal S2048x1 .f32) (knn : FVec Ideal S2048x32 .f32)
    (mix : FVec Ideal S2048x1 .f32) (lg2 : FVec Ideal S2048x32000 .f32) (tok : IVec S2048x32 32) :
    FVec Ideal S8x256x32000 .f32 :=
  tailOf base lse knn mix (gathered lg2 tok) rowCol tok

/-! ## The three stretches over any buffer contents -/

/-- After the first stretch the row-number buffer holds the row numbers. -/
theorem after2_v22 (V : Valuation τ sig (Elt Ideal)) :
    StableHlo.after (hostOps2 (F := Ideal)) V (Proc.devRef .tc main_v22) = rowCol := by
  after_results; rfl

/-- After the second stretch its result buffer holds the gathered logits of what the logits' and the tokens' buffers held. -/
theorem after2_1_v23 (V : Valuation τ sig (Elt Ideal)) :
    StableHlo.after (hostOps2_1 (F := Ideal)) V (Proc.devRef .tc main_v23)
      = gathered (V (Proc.devRef .tc main_v1)) (V (Proc.devRef .tc main_arg3)) := by
  after_results_simp
  simp only [StableHlo.TRef.ofBuf, StableHlo.TRef.toBuf, cast_eq]
  rfl

/-- After the third stretch the result buffer holds the scatter of what the seven buffers it reads held. -/
theorem after2_2_v62 (V : Valuation τ sig (Elt Ideal)) :
    StableHlo.after (hostOps2_2 (F := Ideal)) V (Proc.devRef .tc main_v62)
      = tailOf (V (Proc.devRef .tc main_v20_0)) (V (Proc.devRef .tc main_v20_1)) (V (Proc.devRef .tc main_v19_0))
          (V (Proc.devRef .tc main_v19_1)) (V (Proc.devRef .tc main_v23)) (V (Proc.devRef .tc main_v22))
          (V (Proc.devRef .tc main_arg3)) := by
  after_results_simp
  rfl

/-! ## What the first two stretches leave alone -/

section Keep
variable (V : Valuation τ sig (Elt Ideal))

theorem keep2_v20_0 : StableHlo.after (hostOps2 (F := Ideal)) V (Proc.devRef .tc main_v20_0) = V (Proc.devRef .tc main_v20_0) := by after_results_simp
theorem keep2_v20_1 : StableHlo.after (hostOps2 (F := Ideal)) V (Proc.devRef .tc main_v20_1) = V (Proc.devRef .tc main_v20_1) := by after_results_simp
theorem keep2_v19_0 : StableHlo.after (hostOps2 (F := Ideal)) V (Proc.devRef .tc main_v19_0) = V (Proc.devRef .tc main_v19_0) := by after_results_simp
theorem keep2_v19_1 : StableHlo.after (hostOps2 (F := Ideal)) V (Proc.devRef .tc main_v19_1) = V (Proc.devRef .tc main_v19_1) := by after_results_simp
theorem keep2_v1 : StableHlo.after (hostOps2 (F := Ideal)) V (Proc.devRef .tc main_v1) = V (Proc.devRef .tc main_v1) := by after_results_simp
theorem keep2_arg3 : StableHlo.after (hostOps2 (F := Ideal)) V (Proc.devRef .tc main_arg3) = V (Proc.devRef .tc main_arg3) := by after_results_simp

theorem keep2_1_v20_0 : StableHlo.after (hostOps2_1 (F := Ideal)) V (Proc.devRef .tc main_v20_0) = V (Proc.devRef .tc main_v20_0) := by after_results_simp
theorem keep2_1_v20_1 : StableHlo.after (hostOps2_1 (F := Ideal)) V (Proc.devRef .tc main_v20_1) = V (Proc.devRef .tc main_v20_1) := by after_results_simp
theorem keep2_1_v19_0 : StableHlo.after (hostOps2_1 (F := Ideal)) V (Proc.devRef .tc main_v19_0) = V (Proc.devRef .tc main_v19_0) := by after_results_simp
theorem keep2_1_v19_1 : StableHlo.after (hostOps2_1 (F := Ideal)) V (Proc.devRef .tc main_v19_1) = V (Proc.devRef .tc main_v19_1) := by after_results_simp
theorem keep2_1_arg3 : StableHlo.after (hostOps2_1 (F := Ideal)) V (Proc.devRef .tc main_arg3) = V (Proc.devRef .tc main_arg3) := by after_results_simp
theorem keep2_1_v22 : StableHlo.after (hostOps2_1 (F := Ideal)) V (Proc.devRef .tc main_v22) = V (Proc.devRef .tc main_v22) := by after_results_simp

end Keep

/-! ## The run's result buffer -/

theorem W6_result (m : (ℓ : Loc nD τ sig) → Buf (Elt Ideal) ℓ) (ρ : Dev nD → PrngReg) (c : Dev nD) :
    W6 (F := Ideal) m ρ c (Proc.devRef .tc main_v62)
      = tail (W3 m ρ c (Proc.devRef .tc main_v20_0)) (W3 m ρ c (Proc.devRef .tc main_v20_1))
          (W3 m ρ c (Proc.devRef .tc main_v19_0)) (W3 m ρ c (Proc.devRef .tc main_v19_1))
          (W3 m ρ c (Proc.devRef .tc main_v1)) (W3 m ρ c (Proc.devRef .tc main_arg3)) := by
  refine (after2_2_v62 (W5 m ρ c)).trans ?_
  have e0 : W5 (F := Ideal) m ρ c (Proc.devRef .tc main_v20_0) = W3 m ρ c (Proc.devRef .tc main_v20_0) :=
    (keep2_1_v20_0 (W4 m ρ c)).trans (keep2_v20_0 (W3 m ρ c))
  have e1 : W5 (F := Ideal) m ρ c (Proc.devRef .tc main_v20_1) = W3 m ρ c (Proc.devRef .tc main_v20_1) :=
    (keep2_1_v20_1 (W4 m ρ c)).trans (keep2_v20_1 (W3 m ρ c))
  have e2 : W5 (F := Ideal) m ρ c (Proc.devRef .tc main_v19_0) = W3 m ρ c (Proc.devRef .tc main_v19_0) :=
    (keep2_1_v19_0 (W4 m ρ c)).trans (keep2_v19_0 (W3 m ρ c))
  have e3 : W5 (F := Ideal) m ρ c (Proc.devRef .tc main_v19_1) = W3 m ρ c (Proc.devRef .tc main_v19_1) :=
    (keep2_1_v19_1 (W4 m ρ c)).trans (keep2_v19_1 (W3 m ρ c))
  have e4 : W5 (F := Ideal) m ρ c (Proc.devRef .tc main_arg3) = W3 m ρ c (Proc.devRef .tc main_arg3) :=
    (keep2_1_arg3 (W4 m ρ c)).trans (keep2_arg3 (W3 m ρ c))
  have e5 : W5 (F := Ideal) m ρ c (Proc.devRef .tc main_v22) = rowCol :=
    (keep2_1_v22 (W4 m ρ c)).trans (after2_v22 (W3 m ρ c))
  have e6 : W5 (F := Ideal) m ρ c (Proc.devRef .tc main_v23)
      = gathered (W3 m ρ c (Proc.devRef .tc main_v1)) (W3 m ρ c (Proc.devRef .tc main_arg3)) := by
    refine (after2_1_v23 (W4 m ρ c)).trans ?_
    rw [show W4 (F := Ideal) m ρ c (Proc.devRef .tc main_v1) = W3 m ρ c (Proc.devRef .tc main_v1) from keep2_v1 (W3 m ρ c),
      show W4 (F := Ideal) m ρ c (Proc.devRef .tc main_arg3) = W3 m ρ c (Proc.devRef .tc main_arg3) from keep2_arg3 (W3 m ρ c)]
  rw [e0, e1, e2, e3, e4, e5, e6]
  rfl

/-! ## The layout operations read at an index -/

section Layout
variable {α : Type}

/-- A [2048, 1] column laid along the 32 positions reads the column's entry of the row. -/
theorem bcastCol_apply (x : S2048x1.Idx → α) (n : Fin 2048) (k : Fin 32) :
    broadcastInDim S2048x32 ![0, 1] bcast_S2048x1_S2048x32_0_1 x (ix2 n k) = x (ix2 n (0 : Fin 1)) :=
  broadcastInDim_apply _ bcast_S2048x1_S2048x32_0_1 x (ix2 n k) (ix2 n (0 : Fin 1)) (fun a => match a with
    | ⟨0, _⟩ => rfl
    | ⟨1, _⟩ => rfl)

/-- A [2048, 32] table given a trailing unit axis reads the table's entry. -/
theorem bcastUnit_apply (x : S2048x32.Idx → α) (n : Fin 2048) (k : Fin 32) (z : Fin 1) :
    broadcastInDim S2048x32x1 ![0, 1] bcast_S2048x32_S2048x32x1_0_1 x (ix3 n k z) = x (ix2 n k) :=
  broadcastInDim_apply _ bcast_S2048x32_S2048x32x1_0_1 x (ix3 n k z) (ix2 n k) (fun a => match a with
    | ⟨0, _⟩ => rfl
    | ⟨1, _⟩ => rfl)

/-- A [2048, 32, 1] array laid along a last axis of 32 reads its entry at (row, first position). -/
theorem bcastLast_apply (x : S2048x32x1.Idx → α) (n : Fin 2048) (j k : Fin 32) :
    broadcastInDim S2048x32x32 ![0, 1, 2] bcast_S2048x32x1_S2048x32x32_0_1_2 x (ix3 n j k) = x (ix3 n j (0 : Fin 1)) :=
  broadcastInDim_apply _ bcast_S2048x32x1_S2048x32x32_0_1_2 x (ix3 n j k) (ix3 n j (0 : Fin 1)) (fun a => match a with
    | ⟨0, _⟩ => rfl
    | ⟨1, _⟩ => rfl
    | ⟨2, _⟩ => rfl)

/-- A [2048, 32] table given a middle unit axis reads the table's entry. -/
theorem bcastMidUnit_apply (x : S2048x32.Idx → α) (n : Fin 2048) (z : Fin 1) (k : Fin 32) :
    broadcastInDim S2048x1x32 ![0, 2] bcast_S2048x32_S2048x1x32_0_2 x (ix3 n z k) = x (ix2 n k) :=
  broadcastInDim_apply _ bcast_S2048x32_S2048x1x32_0_2 x (ix3 n z k) (ix2 n k) (fun a => match a with
    | ⟨0, _⟩ => rfl
    | ⟨1, _⟩ => rfl)

/-- A [2048, 1, 32] array laid along a middle axis of 32 reads its entry at (row, second position). -/
theorem bcastMid_apply (x : S2048x1x32.Idx → α) (n : Fin 2048) (j k : Fin 32) :
    broadcastInDim S2048x32x32 ![0, 1, 2] bcast_S2048x1x32_S2048x32x32_0_1_2 x (ix3 n j k) = x (ix3 n (0 : Fin 1) k) :=
  broadcastInDim_apply _ bcast_S2048x1x32_S2048x32x32_0_1_2 x (ix3 n j k) (ix3 n (0 : Fin 1) k) (fun a => match a with
    | ⟨0, _⟩ => rfl
    | ⟨1, _⟩ => rfl
    | ⟨2, _⟩ => rfl)

/-- A one-entry vector laid over [2048, 32, 1] through [1, 1, 1] reads its entry. -/
theorem bcastOne_apply (x : S1.Idx → α) (i : S2048x32x1.Idx) :
    broadcastInDim S2048x32x1 ![0, 1, 2] bcast_S1x1x1_S2048x32x1_0_1_2 (broadcastInDim S1x1x1 ![2] bcast_S1_S1x1x1_2 x) i
      = x (ix1 (0 : Fin 1)) := by
  refine (broadcastInDim_apply _ bcast_S1x1x1_S2048x32x1_0_1_2 _ i (ix3 (0 : Fin 1) (0 : Fin 1) (0 : Fin 1)) (fun a => match a with
    | ⟨0, _⟩ => rfl
    | ⟨1, _⟩ => rfl
    | ⟨2, _⟩ => rfl)).trans ?_
  exact broadcastInDim_apply _ bcast_S1_S1x1x1_2 x (ix3 (0 : Fin 1) (0 : Fin 1) (0 : Fin 1)) (ix1 (0 : Fin 1)) (fun a => match a with
    | ⟨0, _⟩ => rfl)

end Layout

/-! ## The integer operations read at an index -/

/-- A word that is not negative is kept by the wrap of negative words. -/
theorem wrap_select (a c : BitVec 32) (h : 0 ≤ a.toInt) : Scalar.select (IntOp.cmpi .slt a 0#32) c a = a := by
  have hc : IntOp.cmpi .slt a 0#32 = 0#1 := eq_zero_of_ne_one (fun h1 => by
    rw [IntOp.cmpi_slt] at h1
    have hz : (0#32 : BitVec 32).toInt = 0 := by decide
    omega)
  rw [hc, select_zero]

/-- The row-number column at (n, 0) is the word n. -/
theorem rowCol_apply (n : Fin 2048) : rowCol (ix2 n (0 : Fin 1)) = BitVec.ofNat 32 n.val := by
  unfold rowCol
  refine (broadcastInDim_apply _ bcast_S2048_S2048x1_0 _ (ix2 n (0 : Fin 1)) (ix1 n) (fun a => match a with
    | ⟨0, _⟩ => rfl)).trans ?_
  rfl

/-- The wrap keeps every row number. -/
theorem wrapRow_apply (n : Fin 2048) : wrapRow rowCol (ix2 n (0 : Fin 1)) = BitVec.ofNat 32 n.val := by
  have hb : broadcastInDim S2048x1 ![] bcast_S_S2048x1 (constantI S_ 32 0#32) (ix2 n (0 : Fin 1)) = 0#32 :=
    broadcastInDim_scalar_apply _ _ _
  have hn : (BitVec.ofNat 32 n.val).toInt = (n.val : ℤ) :=
    StableHlo.Predicate.toInt_ofNat_small n.val (by have := n.isLt; omega)
  show Scalar.select (IntOp.cmpi .slt (rowCol (ix2 n (0 : Fin 1)))
      (broadcastInDim S2048x1 ![] bcast_S_S2048x1 (constantI S_ 32 0#32) (ix2 n (0 : Fin 1)))) _ (rowCol (ix2 n (0 : Fin 1))) = _
  rw [hb, rowCol_apply]
  exact wrap_select _ _ (by rw [hn]; omega)

/-- The wrap keeps a token number that is not negative. -/
theorem wrapTok_apply (tok : IVec S2048x32 32) (n : Fin 2048) (k : Fin 32) (h : 0 ≤ (tok (ix2 n k)).toInt) :
    wrapTok tok (ix2 n k) = tok (ix2 n k) := by
  have hb : broadcastInDim S2048x32 ![] bcast_S_S2048x32 (constantI S_ 32 0#32) (ix2 n k) = 0#32 :=
    broadcastInDim_scalar_apply _ _ _
  show Scalar.select (IntOp.cmpi .slt (tok (ix2 n k))
      (broadcastInDim S2048x32 ![] bcast_S_S2048x32 (constantI S_ 32 0#32) (ix2 n k))) _ (tok (ix2 n k)) = _
  rw [hb]
  exact wrap_select _ _ h

/-- The start index of (row, position) is the wrapped token number there. -/
theorem startIdx_apply (tok : IVec S2048x32 32) (n : Fin 2048) (k : Fin 32) (z : Fin 1) :
    startIdx tok (ix3 n k z) = wrapTok tok (ix2 n k) :=
  shapeCast_apply _ shapeCasts_S2048x32_S2048x32x1 (ix3 n k z) (ix2 n k) (by
    rw [Shape.rowMajor_val_two, Shape.rowMajor_val_three]
    have hz : z.val < 1 := z.isLt
    show n.val * 32 + k.val = (n.val * 32 + k.val) * 1 + z.val
    omega)

/-- A fold over the one coordinate of an axis of extent 1. -/
theorem fold_fin_one {β : Type} (f : β → β → β) [Std.Commutative f] [Std.Associative f] (b : β) {m : ℕ} (hm : m = 1)
    (g : Fin m → β) : Finset.fold f b g Finset.univ = f (g ⟨0, by omega⟩) b := by
  subst hm
  rw [Finset.univ_unique, Finset.fold_singleton]
  rfl

/-- The conjunction over the last axis, of extent 1, from the word 1: the one entry's conjunction with 1. -/
theorem reduceAnd_last (x : IVec S2048x32x1 1) (n : Fin 2048) (k : Fin 32) :
    Host.reduce IntOp.andi x (constantI S_ 1 1#1) reducesTo_S2048x32x1_S2048x32_d2 h_S_ (ix2 n k)
      = IntOp.andi (x (ix3 n k (0 : Fin 1))) 1#1 := by
  have hR : S2048x32x1.Reduces [2] S2048x32 := by decide
  rw [Host.reduce_eq_fold_single IntOp.andi x _ reducesTo_S2048x32x1_S2048x32_d2 hR h_S_ (ix2 n k)]
  refine (fold_fin_one IntOp.andi _ (m := S2048x32x1.size 2) rfl _).trans ?_
  exact congrArg (fun i => IntOp.andi (x i) 1#1)
    (funext fun a => Fin.ext (by match a with | ⟨0, _⟩ => rfl | ⟨1, _⟩ => rfl | ⟨2, _⟩ => rfl))

/-- The range test passes at a token number that is a column of the logits. -/
theorem inRange_apply (tok : IVec S2048x32 32) (n : Fin 2048) (k : Fin 32) (h0 : 0 ≤ (tok (ix2 n k)).toInt)
    (h1 : (tok (ix2 n k)).toInt < 32000) : inRange tok (ix2 n k) = 1#1 := by
  unfold inRange
  rw [reduceAnd_last]
  have hs : startIdx tok (ix3 n k (0 : Fin 1)) = tok (ix2 n k) := by rw [startIdx_apply, wrapTok_apply tok n k h0]
  have hlo : broadcastInDim S2048x32x1 ![] bcast_S_S2048x32x1 (constantI S_ 32 0#32) (ix3 n k (0 : Fin 1)) = 0#32 :=
    broadcastInDim_scalar_apply _ _ _
  have hhi : broadcastInDim S2048x32x1 ![0, 1, 2] bcast_S1x1x1_S2048x32x1_0_1_2
      (broadcastInDim S1x1x1 ![2] bcast_S1_S1x1x1_2 (constantI S1 32 31999#32)) (ix3 n k (0 : Fin 1)) = 31999#32 :=
    bcastOne_apply _ _
  have hz : (0#32 : BitVec 32).toInt = 0 := by decide
  have ht : (31999#32 : BitVec 32).toInt = 31999 := by decide
  refine IntOp.andi_eq_one.mpr ⟨IntOp.andi_eq_one.mpr ⟨?_, ?_⟩, rfl⟩
  · show IntOp.cmpi .sge (startIdx tok (ix3 n k (0 : Fin 1))) _ = 1#1
    rw [hs, hlo, IntOp.cmpi_sge, hz]; exact h0
  · show IntOp.cmpi .sle (startIdx tok (ix3 n k (0 : Fin 1))) _ = 1#1
    rw [hs, hhi, IntOp.cmpi_sle, ht]; omega

/-! ## The float operations read at an index -/

/-- The gathered logit of (row, position) is the logit at the token's column. -/
theorem gathered_apply (lg2 : FVec Ideal S2048x32000 .f32) (tok : IVec S2048x32 32) (n : Fin 2048) (k : Fin 32)
    (h0 : 0 ≤ (tok (ix2 n k)).toInt) (h1 : (tok (ix2 n k)).toInt < 32000) :
    gathered lg2 tok (ix2 n k) = lg2 (ix2 n (Cert.Spec.tcol (Cert.Spec.tkOf tok) n k)) := by
  unfold gathered
  rw [select_apply, inRange_apply tok n k h0 h1, select_one,
    Cert.LibPoint.point_gather_apply _ rfl rfl rfl rfl rfl rfl rfl lg2 (startIdx tok) n k]
  have hs : startIdx tok (ix3 n k (0 : Fin 1)) = tok (ix2 n k) := by rw [startIdx_apply, wrapTok_apply tok n k h0]
  refine congrArg (fun v => lg2 (ix2 n v)) (Fin.ext ?_)
  show min (startIdx tok (ix3 n k (0 : Fin 1))).toInt.toNat 31999 = min (tok (ix2 n k)).toInt.toNat 31999
  rw [hs]

/-- The table of equal token numbers at (n, j, k). -/
theorem eqTab_apply (tok : IVec S2048x32 32) (n : Fin 2048) (j k : Fin 32) :
    eqTab tok (ix3 n j k) = Cert.Spec.eqf (tok (ix2 n j)) (tok (ix2 n k)) := by
  show FloatOps.uitofp (F := Ideal) .f32 (IntOp.cmpi .eq
    (broadcastInDim S2048x32x32 ![0, 1, 2] bcast_S2048x32x1_S2048x32x32_0_1_2
      (broadcastInDim S2048x32x1 ![0, 1] bcast_S2048x32_S2048x32x1_0_1 tok) (ix3 n j k))
    (broadcastInDim S2048x32x32 ![0, 1, 2] bcast_S2048x1x32_S2048x32x32_0_1_2
      (broadcastInDim S2048x1x32 ![0, 2] bcast_S2048x32_S2048x1x32_0_2 tok) (ix3 n j k))) = _
  rw [bcastLast_apply, bcastUnit_apply, bcastMid_apply, bcastMidUnit_apply]
  unfold Cert.Spec.eqf
  by_cases h : tok (ix2 n j) = tok (ix2 n k)
  · rw [if_pos h, StableHlo.Predicate.cmpi_eq_iff.mpr h]
    show (((1#1 : BitVec 1).toNat : ℝ) : EReal) = 1
    simp
  · rw [if_neg h, eq_zero_of_ne_one (mt StableHlo.Predicate.cmpi_eq_iff.mp h)]
    show (((0#1 : BitVec 1).toNat : ℝ) : EReal) = 0
    simp

/-- The host's sum over the middle axis from zero, at (n, k): the sum over j of the entries (n, j, k). -/
theorem hostSum_mid (x : FVec Ideal S2048x32x32 .f32) (n : Fin 2048) (k : Fin 32) :
    Ideal.hostReduceAdd reducesTo_S2048x32x32_S2048x32_d1 x 0 (ix2 n k) = ∑ j : Fin 32, x (ix3 n j k) := by
  have hR : S2048x32x32.Reduces [1] S2048x32 := by decide
  rw [Ideal.hostReduceAdd_single reducesTo_S2048x32x32_S2048x32_d1 hR, zero_add]
  exact Finset.sum_congr rfl fun j _ => congrArg x
    (funext fun a => Fin.ext (by match a with | ⟨0, _⟩ => rfl | ⟨1, _⟩ => rfl | ⟨2, _⟩ => rfl))

/-- The weights gathered on position k's token. -/
theorem wsum_apply (knn : FVec Ideal S2048x32 .f32) (tok : IVec S2048x32 32) (n : Fin 2048) (k : Fin 32) :
    wsum knn tok (ix2 n k) = ∑ j : Fin 32, knn (ix2 n j) * Cert.Spec.eqf (tok (ix2 n j)) (tok (ix2 n k)) := by
  unfold wsum
  rw [hostReduceAdd_apply, constant_apply, Ideal.ofBits_zero_f32, hostSum_mid]
  refine Finset.sum_congr rfl fun j _ => ?_
  show broadcastInDim S2048x32x32 ![0, 1, 2] bcast_S2048x32x1_S2048x32x32_0_1_2
      (broadcastInDim S2048x32x1 ![0, 1] bcast_S2048x32_S2048x32x1_0_1 knn) (ix3 n j k) * eqTab tok (ix3 n j k) = _
  rw [bcastLast_apply, bcastUnit_apply, eqTab_apply]

/-- The value computed for (row, position), over the arrays' entries. -/
theorem corrected_apply (lse : FVec Ideal S2048x1 .f32) (knn : FVec Ideal S2048x32 .f32) (mix : FVec Ideal S2048x1 .f32)
    (g : FVec Ideal S2048x32 .f32) (tok : IVec S2048x32 32) (n : Fin 2048) (k : Fin 32) :
    corrected lse knn mix g tok (ix2 n k)
      = Ideal.log (((Ideal.ofBits .f32 0x3F800000#32 - mix (ix2 n (0 : Fin 1))) * Ideal.exp (g (ix2 n k) - lse (ix2 n (0 : Fin 1)))
          + mix (ix2 n (0 : Fin 1)) * wsum knn tok (ix2 n k)) + Ideal.ofBits .f32 0x2EDBE6FF#32) := by
  show Ideal.log ((broadcastInDim S2048x32 ![0, 1] bcast_S2048x1_S2048x32_0_1
        (subf (F := Ideal) (broadcastInDim S2048x1 ![] bcast_S_S2048x1 (constant (F := Ideal) S_ .f32 0x3F800000#32)) mix) (ix2 n k)
      * Ideal.exp (g (ix2 n k) - broadcastInDim S2048x32 ![0, 1] bcast_S2048x1_S2048x32_0_1 lse (ix2 n k))
      + broadcastInDim S2048x32 ![0, 1] bcast_S2048x1_S2048x32_0_1 mix (ix2 n k) * wsum knn tok (ix2 n k))
      + broadcastInDim S2048x32 ![] bcast_S_S2048x32 (constant (F := Ideal) S_ .f32 0x2EDBE6FF#32) (ix2 n k)) = _
  rw [bcastCol_apply, bcastCol_apply, bcastCol_apply, broadcastInDim_scalar_apply]
  show Ideal.log (((broadcastInDim S2048x1 ![] bcast_S_S2048x1 (constant (F := Ideal) S_ .f32 0x3F800000#32) (ix2 n (0 : Fin 1))
      - mix (ix2 n (0 : Fin 1))) * _ + _) + _) = _
  rw [broadcastInDim_scalar_apply]
  rfl

/-! ## The index pairs, and the scatter read at an index -/

/-- The row component of the pair at (n, k) is n. -/
theorem pairs_row (tok : IVec S2048x32 32) (n : Fin 2048) (k : Fin 32) :
    (pairs rowCol tok (ix3 n k (0 : Fin 2))).toInt = (n.val : ℤ) := by
  unfold pairs
  rw [concatenate_pair_apply_left (t := S2048x32x2) (s₁ := S2048x32x1) (s₂ := S2048x32x1) (2 : Fin 3) _ _
    concatenates_S2048x32x1_S2048x32x1_S2048x32x2_d2 (ix3 n k (0 : Fin 2)) rfl
    (ix3 n k (0 : Fin 1)) (fun b => match b with | ⟨0, _⟩ => rfl | ⟨1, _⟩ => rfl | ⟨2, _⟩ => rfl),
    bcastUnit_apply, bcastCol_apply, wrapRow_apply]
  exact StableHlo.Predicate.toInt_ofNat_small n.val (by have := n.isLt; omega)

/-- The column component of the pair at (n, k) is the column position k's token names. -/
theorem pairs_col (tok : IVec S2048x32 32) (hin : Cert.Spec.InR (Cert.Spec.tkOf tok)) (n : Fin 2048) (k : Fin 32) :
    (pairs rowCol tok (ix3 n k (1 : Fin 2))).toInt = ((Cert.Spec.tcol (Cert.Spec.tkOf tok) n k).val : ℤ) := by
  unfold pairs
  rw [concatenate_pair_apply_right (t := S2048x32x2) (s₁ := S2048x32x1) (s₂ := S2048x32x1) (2 : Fin 3) _ _
    concatenates_S2048x32x1_S2048x32x1_S2048x32x2_d2 (ix3 n k (1 : Fin 2)) rfl rfl
    (ix3 n k (0 : Fin 1)) (fun b hb => match b, hb with
      | ⟨0, _⟩, _ => rfl
      | ⟨1, _⟩, _ => rfl
      | ⟨2, _⟩, hb => absurd rfl hb) rfl,
    bcastUnit_apply, wrapTok_apply tok n k (hin n k).1]
  exact (Cert.Bridge.tcol_val (Cert.Spec.tkOf tok) hin n k).symm

section Read
variable (base : FVec Ideal S2048x32000 .f32) (lse : FVec Ideal S2048x1 .f32) (knn : FVec Ideal S2048x32 .f32)
  (mix : FVec Ideal S2048x1 .f32) (lg2 : FVec Ideal S2048x32000 .f32) (tok : IVec S2048x32 32)
  (lg : Fin 2048 → Fin 32000 → EReal) (mx : Fin 2048 → EReal) (kw : Fin 2048 → Fin 32 → EReal)

/-- The value computed for (row, position) is the specification's value at that position's token. -/
theorem corrected_eq_corr (hl : ∀ n, lse (ix2 n (0 : Fin 1)) = Cert.Spec.lse lg n) (hk : ∀ n k, knn (ix2 n k) = kw n k)
    (hm : ∀ n, mix (ix2 n (0 : Fin 1)) = mx n) (hg : ∀ n v, lg2 (ix2 n v) = lg n v)
    (hin : Cert.Spec.InR (Cert.Spec.tkOf tok)) (n : Fin 2048) (k : Fin 32) :
    corrected lse knn mix (gathered lg2 tok) tok (ix2 n k) = Cert.Spec.corr lg mx kw (Cert.Spec.tkOf tok) n k := by
  rw [corrected_apply, gathered_apply lg2 tok n k (hin n k).1 (hin n k).2, wsum_apply, hm, hl, hg]
  unfold Cert.Spec.corr Cert.Spec.weff
  refine congrArg (fun w => Ideal.log (((Cert.Spec.one - mx n) * Ideal.exp (lg n (Cert.Spec.tcol (Cert.Spec.tkOf tok) n k) - Cert.Spec.lse lg n)
    + mx n * w) + Cert.Spec.eps)) ?_
  exact Finset.sum_congr rfl fun j _ => by rw [hk]; rfl

/-- The scatter read at (n, v): the specification's laid-over value. -/
theorem scattered_apply (hb : ∀ n v, base (ix2 n v) = Cert.Spec.base lg mx n v)
    (hl : ∀ n, lse (ix2 n (0 : Fin 1)) = Cert.Spec.lse lg n) (hk : ∀ n k, knn (ix2 n k) = kw n k)
    (hm : ∀ n, mix (ix2 n (0 : Fin 1)) = mx n) (hg : ∀ n v, lg2 (ix2 n v) = lg n v)
    (hin : Cert.Spec.InR (Cert.Spec.tkOf tok)) (n : Fin 2048) (v : Fin 32000) :
    Host.scatter scatter_S2048x32000_S2048x32x2_S2048x32_n_01_01_2 (fun _ b => b) base (pairs rowCol tok)
        (corrected lse knn mix (gathered lg2 tok) tok) (ix2 n v)
      = Cert.Spec.kout lg mx kw (Cert.Spec.tkOf tok) n v := by
  unfold Cert.Spec.kout
  by_cases hv : ∃ k, Cert.Spec.tcol (Cert.Spec.tkOf tok) n k = v
  · rw [dif_pos hv,
      Cert.LibPoint.point_scatterSet_hit _ rfl rfl rfl rfl base (pairs rowCol tok) (corrected lse knn mix (gathered lg2 tok) tok)
        (Cert.Spec.tcol (Cert.Spec.tkOf tok)) (pairs_row tok) (pairs_col tok hin) n v (Classical.choose hv) (Classical.choose_spec hv)
        (fun k hkv => by
          rw [corrected_eq_corr lse knn mix lg2 tok lg mx kw hl hk hm hg hin, corrected_eq_corr lse knn mix lg2 tok lg mx kw hl hk hm hg hin]
          exact Cert.Bridge.corr_congr lg mx kw (Cert.Spec.tkOf tok) hin n k (Classical.choose hv)
            (hkv.trans (Classical.choose_spec hv).symm))]
    exact corrected_eq_corr lse knn mix lg2 tok lg mx kw hl hk hm hg hin n (Classical.choose hv)
  · rw [dif_neg hv,
      Cert.LibPoint.point_scatterSet_miss _ rfl rfl rfl rfl base (pairs rowCol tok) (corrected lse knn mix (gathered lg2 tok) tok)
        (Cert.Spec.tcol (Cert.Spec.tkOf tok)) (pairs_row tok) (pairs_col tok hin) n v (fun k hkv => hv ⟨k, hkv⟩)]
    exact hb n v

end Read

/-! ## The tail read whole -/

theorem tail_apply (base : FVec Ideal S2048x32000 .f32) (lse : FVec Ideal S2048x1 .f32) (knn : FVec Ideal S2048x32 .f32)
    (mix : FVec Ideal S2048x1 .f32) (lg2 : FVec Ideal S2048x32000 .f32) (tok : IVec S2048x32 32)
    (lg : Fin 2048 → Fin 32000 → EReal) (mx : Fin 2048 → EReal) (kw : Fin 2048 → Fin 32 → EReal)
    (hb : ∀ n v, base (ix2 n v) = Cert.Spec.base lg mx n v) (hl : ∀ n, lse (ix2 n (0 : Fin 1)) = Cert.Spec.lse lg n)
    (hk : ∀ n k, knn (ix2 n k) = kw n k) (hm : ∀ n, mix (ix2 n (0 : Fin 1)) = mx n) (hg : ∀ n v, lg2 (ix2 n v) = lg n v)
    (hin : Cert.Spec.InR (Cert.Spec.tkOf tok)) :
    tail base lse knn mix lg2 tok = Cert.Spec.outArr (Cert.Spec.kout lg mx kw (Cert.Spec.tkOf tok)) := by
  funext i
  have h0 : (i 0).val < 8 := (i 0).isLt
  have h1 : (i 1).val < 256 := (i 1).isLt
  have h2 : (i 2).val < 32000 := (i 2).isLt
  have hn : (i 0).val * 256 + (i 1).val < 2048 := by omega
  refine (shapeCast_apply _ shapeCasts_S2048x32000_S8x256x32000 i (ix2 (⟨(i 0).val * 256 + (i 1).val, hn⟩ : Fin 2048) (i 2)) (by
    rw [Shape.rowMajor_val_two, Shape.rowMajor_val_three]
    show ((i 0).val * 256 + (i 1).val) * 32000 + (i 2).val = ((i 0).val * 256 + (i 1).val) * 32000 + (i 2).val
    rfl)).trans ?_
  exact scattered_apply base lse knn mix lg2 tok lg mx kw hb hl hk hm hg hin _ _

end Cert.KernelIdeal.KTail

end
-- ==== Proof.KVal.lean ====
/-
  The kernel program's result as a function of its arguments.  The buffers at the boundaries of @main are read backwards:
  the result is the host tail of the two regions' outputs; region 1's outputs are functions of the logits and of region 0's
  mixing numbers; region 0's outputs are functions of the arrays the leading host operations lay out from the arguments.
  Each link is a lemma of its own module; here they are composed, row by row.
-/
import proofs.«428110_j55259049230428_3_alg».proof.Proof.Gen.KernelIdeal.Frame
import proofs.«428110_j55259049230428_3_alg».proof.Proof.Spec
import proofs.«428110_j55259049230428_3_alg».proof.Proof.HostPre
import proofs.«428110_j55259049230428_3_alg».proof.Proof.KFeatA
import proofs.«428110_j55259049230428_3_alg».proof.Proof.KFeatB
import proofs.«428110_j55259049230428_3_alg».proof.Proof.KComb
import proofs.«428110_j55259049230428_3_alg».proof.Proof.KTail

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem Cert.Spec

variable (m : (ℓ : Loc nD τ sig) → Buf (Elt Ideal) ℓ) (ρ : Dev nD → PrngReg)

/-- The logits as region 1 finds them: the reshape the leading host operations wrote, untouched by region 0. -/
theorem v2_lg (c : Dev nD) : (fun (n : Fin 2048) (v : Fin 32000) => V2 m ρ c main_v1 (ix2 n v)) = lgOf (m ((c : Thread nD τ).loc main_arg1)) := by
  funext n v
  have h : V2 m ρ c main_v1 = V1 m ρ c main_v1 := W2_of_ne m ρ c main_v1 (by decide)
  rw [h]
  exact HostPre.v1_apply m ρ c n v

/-- The retrieval weights region 0 leaves. -/
theorem knn_w2 (c : Dev nD) (n : Fin 2048) (k : Fin 32) :
    W2 m ρ c (Proc.devRef .tc main_v19_0) (ix2 n k)
      = knnA (m ((c : Thread nD τ).loc main_arg0)) (m ((c : Thread nD τ).loc main_arg2)) (m ((c : Thread nD τ).loc main_arg4))
          (m ((c : Thread nD τ).loc main_arg5)) (m ((c : Thread nD τ).loc main_arg6)) n k := by
  have h : W2 m ρ c (Proc.devRef .tc main_v19_0) = (dat0 (V1 m ρ) c).arrAt 11 cfg0.N := W2_arr m ρ c 11
  rw [h, KFeatA.knn_arr (V1 m ρ) c n k]
  unfold knnA
  have e0 : (fun (n : Fin 2048) (j : Fin 1024) => V1 m ρ c main_v0 (ix2 n j)) = hOf (m ((c : Thread nD τ).loc main_arg0)) :=
    funext fun n => funext fun j => HostPre.v0_apply m ρ c n j
  have e4 : (fun (n : Fin 2048) (k : Fin 32) (j : Fin 1024) => V1 m ρ c main_arg4 (ix3 n k j)) = shOf (m ((c : Thread nD τ).loc main_arg4)) := by
    funext n k j; rw [HostPre.arg4_eq m ρ c]; rfl
  have e2 : (fun (n : Fin 2048) (k : Fin 32) => V1 m ρ c main_arg2 (ix2 n k)) = dsOf (m ((c : Thread nD τ).loc main_arg2)) := by
    funext n k; rw [HostPre.arg2_eq m ρ c]; rfl
  have e5 : (fun (j : Fin 1024) => V1 m ρ c main_v4 (ix2 j (0 : Fin 1))) = whOf (m ((c : Thread nD τ).loc main_arg5)) :=
    funext fun j => HostPre.v4_apply m ρ c j
  have e5' : (fun (j : Fin 1024) => V1 m ρ c main_v7 (ix2 j (0 : Fin 1))) = wcOf (m ((c : Thread nD τ).loc main_arg5)) :=
    funext fun j => HostPre.v7_apply m ρ c j
  rw [e0, e4, e2, e5, e5', HostPre.v8_apply m ρ c]

/-- The mixing numbers region 0 leaves. -/
theorem mix_w2 (c : Dev nD) (n : Fin 2048) :
    W2 m ρ c (Proc.devRef .tc main_v19_1) (ix2 n (0 : Fin 1))
      = mixA (m ((c : Thread nD τ).loc main_arg0)) (m ((c : Thread nD τ).loc main_arg4)) (m ((c : Thread nD τ).loc main_arg7))
          (m ((c : Thread nD τ).loc main_arg8)) (m ((c : Thread nD τ).loc main_arg9)) (m ((c : Thread nD τ).loc main_arg10)) n := by
  have h : W2 m ρ c (Proc.devRef .tc main_v19_1) = (dat0 (V1 m ρ) c).arrAt 12 cfg0.N := W2_arr m ρ c 12
  rw [h, KFeatB.mix_arr (V1 m ρ) (fun x1 p q => KFeatA.ctxBlk_apply x1 p q) c n]
  unfold mixA
  have e0 : (fun (n : Fin 2048) (j : Fin 1024) => V1 m ρ c main_v0 (ix2 n j)) = hOf (m ((c : Thread nD τ).loc main_arg0)) :=
    funext fun n => funext fun j => HostPre.v0_apply m ρ c n j
  have e4 : (fun (n : Fin 2048) (k : Fin 32) (j : Fin 1024) => V1 m ρ c main_arg4 (ix3 n k j)) = shOf (m ((c : Thread nD τ).loc main_arg4)) := by
    funext n k j; rw [HostPre.arg4_eq m ρ c]; rfl
  have e7 : (fun (i j : Fin 1024) => V1 m ρ c main_v11 (ix2 j i)) = w1hOf (m ((c : Thread nD τ).loc main_arg7)) :=
    funext fun i => funext fun j => HostPre.v11_apply m ρ c i j
  have e7' : (fun (i j : Fin 1024) => V1 m ρ c main_v14 (ix2 j i)) = w1cOf (m ((c : Thread nD τ).loc main_arg7)) :=
    funext fun i => funext fun j => HostPre.v14_apply m ρ c i j
  have e8 : (fun (i : Fin 1024) => V1 m ρ c main_v15 (ix2 (0 : Fin 1) i)) = b1Of (m ((c : Thread nD τ).loc main_arg8)) :=
    funext fun i => HostPre.v15_apply m ρ c i
  have e9 : (fun (i : Fin 1024) => V1 m ρ c main_v17 (ix2 i (0 : Fin 1))) = w2Of (m ((c : Thread nD τ).loc main_arg9)) :=
    funext fun i => HostPre.v17_apply m ρ c i
  rw [e0, e4, e7, e7', e8, e9, HostPre.v18_apply m ρ c]

/-- The mixing numbers as region 1 finds them. -/
theorem v2_mix (c : Dev nD) : (fun (n : Fin 2048) => V2 m ρ c main_v19_1 (ix2 n (0 : Fin 1)))
    = mixA (m ((c : Thread nD τ).loc main_arg0)) (m ((c : Thread nD τ).loc main_arg4)) (m ((c : Thread nD τ).loc main_arg7))
          (m ((c : Thread nD τ).loc main_arg8)) (m ((c : Thread nD τ).loc main_arg9)) (m ((c : Thread nD τ).loc main_arg10)) :=
  funext fun n => mix_w2 m ρ c n

/-- THE RESULT: the last boundary's contents of the result buffer are the token positions' values laid over the base, row by row,
    of the eleven arguments — when every token number is a column of the logits. -/
theorem value (c : Dev nD) (hin : InR (tkOf (m ((c : Thread nD τ).loc main_arg3)))) :
    W6 (F := Ideal) m ρ c (Proc.devRef .tc main_v62)
      = outArr (koutA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))) := by
  rw [KTail.W6_result m ρ c]
  have htok : W3 m ρ c (Proc.devRef .tc main_arg3) = m ((c : Thread nD τ).loc main_arg3) :=
    ((W3_of_ne m ρ c main_arg3 (by decide)).trans (W2_of_ne m ρ c main_arg3 (by decide))).trans (HostPre.arg3_eq m ρ c)
  rw [htok]
  unfold koutA
  refine KTail.tail_apply _ _ _ _ _ _ _ _ _ ?_ ?_ ?_ ?_ ?_ hin
  · intro n v
    have h : W3 m ρ c (Proc.devRef .tc main_v20_0) = (dat1 (V2 m ρ) c).arrAt 2 cfg1.N := W3_arr m ρ c 2
    rw [h, KComb.base_arr (V2 m ρ) c n v, v2_lg m ρ c, v2_mix m ρ c]
  · intro n
    have h : W3 m ρ c (Proc.devRef .tc main_v20_1) = (dat1 (V2 m ρ) c).arrAt 3 cfg1.N := W3_arr m ρ c 3
    rw [h, KComb.lse_arr (V2 m ρ) c n, v2_lg m ρ c]
  · intro n k
    have h : W3 m ρ c (Proc.devRef .tc main_v19_0) = W2 m ρ c (Proc.devRef .tc main_v19_0) := W3_of_ne m ρ c main_v19_0 (by decide)
    rw [h]; exact knn_w2 m ρ c n k
  · intro n
    have h : W3 m ρ c (Proc.devRef .tc main_v19_1) = W2 m ρ c (Proc.devRef .tc main_v19_1) :=
      (W3_arr m ρ c 1).trans (((dat1 (V2 m ρ) c).arrAt_in 1 rfl _).trans (A_eq1 (V2 m ρ) c 1))
    rw [h]; exact mix_w2 m ρ c n
  · intro n v
    have h : W3 m ρ c (Proc.devRef .tc main_v1) = W2 m ρ c (Proc.devRef .tc main_v1) :=
      (W3_arr m ρ c 0).trans (((dat1 (V2 m ρ) c).arrAt_in 0 rfl _).trans (A_eq1 (V2 m ρ) c 0))
    rw [h]; exact congrFun (congrFun (v2_lg m ρ c) n) v

end Cert.KernelIdeal.KVal

end
-- ==== Proof.RefKnn.lean ====
/-
  The reference's retrieval weights, read at an index and identified with the shared specification.

  Row n of the flattened hidden states is row (n / 256, n % 256) of the batched ones.  The mean of the 32 retrieved
  vectors is their sum from zero divided by 32, which is the sum times 1/32.  The 2048 features of a row are its
  hidden state followed by that mean, so their inner product with the 2048 bandwidth weights splits into the first
  1024 terms against the hidden state and the last 1024 against the mean; with the bias this is the specification's
  linear form, and the bandwidth is its exponential.  The scaled distances are (0 - distance) / bandwidth.  The row
  maximum is the maximum with negative infinity of a fold of maxima from negative infinity, which is the fold
  itself.  The weights are the exponentials of the shifted scaled distances over their sum from zero.
-/
import proofs.«428110_j55259049230428_3_alg».proof.Proof.Gen.ReferenceIdeal.Read
import proofs.«428110_j55259049230428_3_alg».proof.Proof.Spec
import proofs.«428110_j55259049230428_3_alg».proof.Proof.Bridge
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

open scoped BigOperators

namespace Cert.RefKnn

open Cert.ReferenceIdeal Cert.ReferenceIdeal.Read Idealize.ShloMosaic Idealize.ShloMosaic.ValueIdx Cert.Spec

/-- Row n of the flattened hidden states is row (n / 256, n % 256) of the batched ones. -/
theorem h_apply (x0 : FVec Ideal S8x256x1024 .f32) (n : Fin 2048) (j : Fin 1024) :
    val_main_v0 (F := Ideal) x0 (ix2 n j) = hOf x0 n j := by
  rw [val_main_v0_apply]
  unfold hOf
  refine congrArg x0 (funext fun a => Fin.ext ?_)
  have hn := n.isLt
  have hj := j.isLt
  match a with
  | ⟨0, _⟩ => show (n.val * 1024 + j.val) / 262144 = n.val / 256; omega
  | ⟨1, _⟩ => show (n.val * 1024 + j.val) / 1024 % 256 = n.val % 256; omega
  | ⟨2, _⟩ => show (n.val * 1024 + j.val) % 1024 = j.val; omega

/-- The sum of the 32 retrieved vectors divided by 32 is the specification's mean. -/
theorem ctx_apply (x4 : FVec Ideal S2048x32x1024 .f32) (n : Fin 2048) (j : Fin 1024) :
    val_main_v4 (F := Ideal) x4 (ix2 n j) = Cert.Spec.ctx (shOf x4) n j := by
  rw [val_main_v4_apply, val_main_v2_apply, val_main_v3_apply, val_main_cst_0_apply, val_main_cst_apply]
  simp only [Ideal.hostDivf_def, Ideal.ofBits_def]
  rw [Ideal.ofBits_zero_f32, zero_add, Cert.Bridge.div32]
  unfold Cert.Spec.ctx shOf
  refine congrArg (· * c32) (Finset.sum_congr rfl fun k _ => congrArg x4 ?_)
  exact funext fun a => Fin.ext (by match a with | ⟨0, _⟩ => rfl | ⟨1, _⟩ => rfl | ⟨2, _⟩ => rfl)

/-- The first 1024 features of row n are its hidden state. -/
theorem feat_lo (x0 : FVec Ideal S8x256x1024 .f32) (x4 : FVec Ideal S2048x32x1024 .f32) (n : Fin 2048) (j : Fin 1024) :
    val_main_v5 (F := Ideal) x0 x4 (ix2 n (loHalf j)) = hOf x0 n j := by
  unfold val_main_v5
  rw [concatenate_pair_apply_left (t := S2048x2048) (s₁ := S2048x1024) (s₂ := S2048x1024) 1 (val_main_v0 (F := Ideal) x0)
    (val_main_v4 (F := Ideal) x4) _ (ix2 n (loHalf j)) rfl (ix2 n j)
    (fun b => by match b with | ⟨0, _⟩ => rfl | ⟨1, _⟩ => rfl)]
  exact h_apply x0 n j

/-- The last 1024 features of row n are the mean of its retrieved vectors. -/
theorem feat_hi (x0 : FVec Ideal S8x256x1024 .f32) (x4 : FVec Ideal S2048x32x1024 .f32) (n : Fin 2048) (j : Fin 1024) :
    val_main_v5 (F := Ideal) x0 x4 (ix2 n (hiHalf j)) = Cert.Spec.ctx (shOf x4) n j := by
  unfold val_main_v5
  rw [concatenate_pair_apply_right (t := S2048x2048) (s₁ := S2048x1024) (s₂ := S2048x1024) 1 (val_main_v0 (F := Ideal) x0)
    (val_main_v4 (F := Ideal) x4) _ (ix2 n (hiHalf j)) rfl rfl (ix2 n j)
    (fun b hb => by
      match b with
      | ⟨0, _⟩ => rfl
      | ⟨1, _⟩ => exact absurd rfl hb)
    (by show j.val + 1024 = 1024 + j.val; omega)]
  exact ctx_apply x4 n j

/-- A sum over 2048 positions is the sum over the first 1024 plus the sum over the last 1024. -/
theorem sum_halves {M : Type} [AddCommMonoid M] (f : Fin 2048 → M) :
    ∑ j : Fin 2048, f j = ∑ j : Fin 1024, f (loHalf j) + ∑ j : Fin 1024, f (hiHalf j) :=
  Fin.sum_univ_add (a := 1024) (b := 1024) f

/-- The inner product of the 2048 features with the bandwidth weights, plus the bias, is the specification's
    linear form: the hidden half against the first 1024 weights, the mean half against the last 1024. -/
theorem lin_apply (x0 : FVec Ideal S8x256x1024 .f32) (x4 : FVec Ideal S2048x32x1024 .f32) (x5 : FVec Ideal S1x2048 .f32)
    (x6 : FVec Ideal S1 .f32) (n : Fin 2048) :
    val_main_v10 (F := Ideal) x0 x4 x5 x6 (ix2 n (0 : Fin 1))
      = lin (hOf x0) (shOf x4) (whOf x5) (wcOf x5) (s1Of x6) n := by
  rw [val_main_v10_apply, val_main_v7_apply, val_main_v9_apply, val_main_v8_apply]
  simp only [Ideal.addf_def]
  unfold lin
  rw [sum_halves]
  refine congrArg₂ (· + ·) (congrArg₂ (· + ·) (Finset.sum_congr rfl fun j _ => ?_) (Finset.sum_congr rfl fun j _ => ?_)) ?_
  · have e1 : lidx_main_v7 (ix2 n (0 : Fin 1)) (loHalf j) = ix2 n (loHalf j) :=
      funext fun a => Fin.ext (by match a with | ⟨0, _⟩ => rfl | ⟨1, _⟩ => rfl)
    rw [e1, feat_lo, val_main_v6_apply]
    unfold whOf
    refine congrArg (hOf x0 n j * ·) (congrArg x5 ?_)
    exact funext fun a => Fin.ext (by match a with | ⟨0, _⟩ => rfl | ⟨1, _⟩ => rfl)
  · have e1 : lidx_main_v7 (ix2 n (0 : Fin 1)) (hiHalf j) = ix2 n (hiHalf j) :=
      funext fun a => Fin.ext (by match a with | ⟨0, _⟩ => rfl | ⟨1, _⟩ => rfl)
    rw [e1, feat_hi, val_main_v6_apply]
    unfold wcOf
    refine congrArg (Cert.Spec.ctx (shOf x4) n j * ·) (congrArg x5 ?_)
    exact funext fun a => Fin.ext (by match a with | ⟨0, _⟩ => rfl | ⟨1, _⟩ => rfl)
  · unfold s1Of
    refine congrArg x6 ?_
    exact funext fun a => Fin.ext (by match a with | ⟨0, _⟩ => rfl)

/-- The scaled negative distances. -/
theorem sc_apply (x0 : FVec Ideal S8x256x1024 .f32) (x2 : FVec Ideal S2048x32 .f32) (x4 : FVec Ideal S2048x32x1024 .f32)
    (x5 : FVec Ideal S1x2048 .f32) (x6 : FVec Ideal S1 .f32) (n : Fin 2048) (k : Fin 32) :
    val_main_v14 (F := Ideal) x0 x2 x4 x5 x6 (ix2 n k)
      = sc (hOf x0) (shOf x4) (dsOf x2) (whOf x5) (wcOf x5) (s1Of x6) n k := by
  rw [val_main_v14_apply, val_main_v12_apply, val_main_v13_apply, val_main_v11_apply]
  have e1 : idx_main_v13 (ix2 n k) = ix2 n (0 : Fin 1) :=
    funext fun a => Fin.ext (by match a with | ⟨0, _⟩ => rfl | ⟨1, _⟩ => rfl)
  rw [e1, lin_apply]
  simp only [Ideal.hostDivf_def, Ideal.hostUnary_exp_def, Ideal.hostNegf_def, Ideal.negf_def]
  unfold sc dsOf
  rw [Cert.Bridge.zero_sub']

/-- Dropping the second axis of a [2048, 32] array leaves its rows. -/
theorem red : S2048x32.Reduces [1] S2048 := by decide

/-- Row n with position k put back on the dropped axis is (n, k). -/
theorem lift_row (n : Fin 2048) (k : Fin (S2048x32.size 1)) :
    red.lift (ix1 n) k = ix2 n (⟨k.val, k.isLt⟩ : Fin 32) :=
  funext fun c => Fin.ext (by match c with | ⟨0, _⟩ => rfl | ⟨1, _⟩ => rfl)

/-- The row maximum: the maximum with negative infinity of the fold of maxima from negative infinity. -/
theorem max_apply (x0 : FVec Ideal S8x256x1024 .f32) (x2 : FVec Ideal S2048x32 .f32) (x4 : FVec Ideal S2048x32x1024 .f32)
    (x5 : FVec Ideal S1x2048 .f32) (x6 : FVec Ideal S1 .f32) (n : Fin 2048) :
    val_main_v17 (F := Ideal) x0 x2 x4 x5 x6 (ix1 n)
      = rmax (sc (hOf x0) (shOf x4) (dsOf x2) (whOf x5) (wcOf x5) (s1Of x6) n) := by
  rw [val_main_v17_apply, val_main_v16_apply, val_main_cst_2_apply]
  unfold val_main_v15
  rw [Host.reduce_eq_fold_single FloatOps.maximumf _ _ Facts₀.reducesTo_S2048x32_S2048_d1 red Facts₀.h_S_,
    val_main_cst_1_apply]
  simp only [Ideal.maximumf_def, Ideal.ofBits_def]
  rw [Cert.Bridge.bot_word, Cert.Bridge.max_bot_left]
  unfold rmax
  have hf : (val_main_v14 (F := Ideal) x0 x2 x4 x5 x6 ∘ red.lift (ix1 n))
      = fun k : Fin 32 => sc (hOf x0) (shOf x4) (dsOf x2) (whOf x5) (wcOf x5) (s1Of x6) n k :=
    funext fun k => by
      show val_main_v14 (F := Ideal) x0 x2 x4 x5 x6 (red.lift (ix1 n) k) = _
      rw [lift_row, sc_apply]
      rfl
  exact congrArg (fun f => Finset.fold max (⊥ : EReal) f (Finset.univ : Finset (Fin 32))) hf

/-- exp of the scaled distances, shifted by the row maximum. -/
theorem ee_apply (x0 : FVec Ideal S8x256x1024 .f32) (x2 : FVec Ideal S2048x32 .f32) (x4 : FVec Ideal S2048x32x1024 .f32)
    (x5 : FVec Ideal S1x2048 .f32) (x6 : FVec Ideal S1 .f32) (n : Fin 2048) (k : Fin 32) :
    val_main_v21 (F := Ideal) x0 x2 x4 x5 x6 (ix2 n k)
      = ee (hOf x0) (shOf x4) (dsOf x2) (whOf x5) (wcOf x5) (s1Of x6) n k := by
  rw [val_main_v21_apply, val_main_v20_apply, val_main_v19_apply, val_main_v18_apply]
  have e1 : idx_main_v18 (idx_main_v19 (ix2 n k)) = ix1 n :=
    funext fun a => Fin.ext (by match a with | ⟨0, _⟩ => rfl)
  rw [e1, max_apply, sc_apply]
  simp only [Ideal.hostUnary_exp_def, Ideal.subf_def]
  rfl

/-- The softmax denominator of row n. -/
theorem den_apply (x0 : FVec Ideal S8x256x1024 .f32) (x2 : FVec Ideal S2048x32 .f32) (x4 : FVec Ideal S2048x32x1024 .f32)
    (x5 : FVec Ideal S1x2048 .f32) (x6 : FVec Ideal S1 .f32) (n : Fin 2048) :
    val_main_v22 (F := Ideal) x0 x2 x4 x5 x6 (ix1 n)
      = ∑ k' : Fin 32, ee (hOf x0) (shOf x4) (dsOf x2) (whOf x5) (wcOf x5) (s1Of x6) n k' := by
  rw [val_main_v22_apply, val_main_cst_3_apply]
  simp only [Ideal.ofBits_def]
  rw [Ideal.ofBits_zero_f32, zero_add]
  refine Finset.sum_congr rfl fun k' _ => ?_
  have e1 : idx_main_v22 (ix1 n) k' = ix2 n k' :=
    funext fun a => Fin.ext (by match a with | ⟨0, _⟩ => rfl | ⟨1, _⟩ => rfl)
  rw [e1, ee_apply]

/-- The reference's retrieval weights are the specification's. -/
theorem knn_apply (x0 : FVec Ideal S8x256x1024 .f32) (x2 : FVec Ideal S2048x32 .f32) (x4 : FVec Ideal S2048x32x1024 .f32)
    (x5 : FVec Ideal S1x2048 .f32) (x6 : FVec Ideal S1 .f32) (n : Fin 2048) (k : Fin 32) :
    val_main_v25 (F := Ideal) x0 x2 x4 x5 x6 (ix2 n k) = Cert.Spec.knnA x0 x2 x4 x5 x6 n k := by
  rw [val_main_v25_apply, val_main_v24_apply, val_main_v23_apply]
  have e1 : idx_main_v23 (idx_main_v24 (ix2 n k)) = ix1 n :=
    funext fun a => Fin.ext (by match a with | ⟨0, _⟩ => rfl)
  rw [e1, den_apply, ee_apply]
  simp only [Ideal.hostDivf_def]
  rfl

end Cert.RefKnn

end
-- ==== Proof.RefMix.lean ====
/-
  The reference's mixing number, read at a row.  The stages of the reference that lead to it are read at explicit
  coordinates: the reshaped hidden vectors, the mean of the 32 retrieved vectors (a sum divided by 32, which is the
  sum times 1/32), their concatenation (the hidden vector on the first 1024 columns, the mean on the last 1024), the
  first layer (an inner product over the 2048 concatenated features, split into its two halves, plus a bias, then the
  maximum with zero), the second layer (an inner product over 1024 entries plus a bias) and the logistic function
  written as 1 / (1 + exp(-x)).  Together they are the specification's mixing number of the argument arrays.
-/
import proofs.«428110_j55259049230428_3_alg».proof.Proof.Gen.ReferenceIdeal.Read
import proofs.«428110_j55259049230428_3_alg».proof.Proof.Spec
import proofs.«428110_j55259049230428_3_alg».proof.Proof.Bridge
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

noncomputable section

open scoped BigOperators

namespace Cert.RefMix

open Cert.ReferenceIdeal Cert.ReferenceIdeal.Read Idealize.ShloMosaic Idealize.ShloMosaic.ValueIdx Cert.Spec

/-! ## The features -/

/-- The reshaped hidden array at (n, j) is the hidden vector of row n at j. -/
theorem v0_at (x0 : FVec Ideal S8x256x1024 .f32) (n : Fin 2048) (j : Fin 1024) :
    val_main_v0 (F := Ideal) x0 (ix2 n j) = hOf x0 n j := by
  rw [val_main_v0_apply]
  unfold hOf
  refine congrArg x0 (funext fun a => Fin.ext ?_)
  have hn := n.isLt
  have hj := j.isLt
  match a with
  | ⟨0, _⟩ => show (n.val * 1024 + j.val) / 262144 = n.val / 256; omega
  | ⟨1, _⟩ => show (n.val * 1024 + j.val) / 1024 % 256 = n.val % 256; omega
  | ⟨2, _⟩ => show (n.val * 1024 + j.val) % 1024 = j.val; omega

/-- The sum over the 32 retrieved vectors divided by 32 is the specification's mean. -/
theorem v4_at (x4 : FVec Ideal S2048x32x1024 .f32) (n : Fin 2048) (j : Fin 1024) :
    val_main_v4 (F := Ideal) x4 (ix2 n j) = ctx (shOf x4) n j := by
  rw [val_main_v4_apply, val_main_v2_apply, val_main_v3_apply, val_main_cst_0_apply, val_main_cst_apply]
  simp only [Ideal.hostDivf_def, Ideal.ofBits_def, Ideal.ofBits_zero_f32, zero_add]
  rw [Cert.Bridge.div32]
  unfold ctx shOf
  refine congrArg (· * c32) (Finset.sum_congr rfl fun k _ => ?_)
  exact congrArg x4 (funext fun a => Fin.ext (by match a with | ⟨0, _⟩ => rfl | ⟨1, _⟩ => rfl | ⟨2, _⟩ => rfl))

/-- On its first 1024 columns the concatenation is the hidden vector. -/
theorem v5_lo (x0 : FVec Ideal S8x256x1024 .f32) (x4 : FVec Ideal S2048x32x1024 .f32) (n : Fin 2048) (j : Fin 1024) :
    val_main_v5 (F := Ideal) x0 x4 (ix2 n (loHalf j)) = hOf x0 n j := by
  unfold val_main_v5
  rw [← v0_at]
  exact concatenate_pair_apply_left (t := S2048x2048) (s₁ := S2048x1024) (s₂ := S2048x1024) 1 _ _ _
    (ix2 n (loHalf j)) rfl (ix2 n j)
    (fun b => by
      match b with
      | ⟨0, _⟩ => rfl
      | ⟨1, _⟩ => rfl)

/-- On its last 1024 columns the concatenation is the mean of the retrieved vectors. -/
theorem v5_hi (x0 : FVec Ideal S8x256x1024 .f32) (x4 : FVec Ideal S2048x32x1024 .f32) (n : Fin 2048) (j : Fin 1024) :
    val_main_v5 (F := Ideal) x0 x4 (ix2 n (hiHalf j)) = ctx (shOf x4) n j := by
  unfold val_main_v5
  rw [← v4_at]
  exact concatenate_pair_apply_right (t := S2048x2048) (s₁ := S2048x1024) (s₂ := S2048x1024) 1 _ _ _
    (ix2 n (hiHalf j)) rfl rfl (ix2 n j)
    (fun b hb => by
      match b with
      | ⟨0, _⟩ => rfl
      | ⟨1, _⟩ => exact absurd rfl hb)
    (Nat.add_comm j.val 1024)

/-- The transposed first-layer weights at (j, i) are the weights at (i, j). -/
theorem v44_at (x7 : FVec Ideal S1024x2048 .f32) (j : Fin 2048) (i : Fin 1024) :
    val_main_v44 (F := Ideal) x7 (ix2 j i) = x7 (ix2 i j) := by
  rw [val_main_v44_apply]
  exact congrArg x7 (funext fun a => Fin.ext (by match a with | ⟨0, _⟩ => rfl | ⟨1, _⟩ => rfl))

/-- A sum over 2048 entries is the sum over its first half plus the sum over its second half. -/
theorem sum_halves (f : Fin 2048 → EReal) :
    ∑ j : Fin 2048, f j = ∑ j : Fin 1024, f (loHalf j) + ∑ j : Fin 1024, f (hiHalf j) := by
  have h := Fin.sum_univ_add (M := EReal) (a := 1024) (b := 1024) f
  refine h.trans ?_
  refine congrArg₂ (· + ·) (Finset.sum_congr rfl fun j _ => congrArg f (Fin.ext rfl))
    (Finset.sum_congr rfl fun j _ => congrArg f (Fin.ext rfl))

/-! ## The two layers -/

/-- The first layer before its activation: entry i of W1h h n + W1c ctx n + b1. -/
theorem v48_at (x0 : FVec Ideal S8x256x1024 .f32) (x4 : FVec Ideal S2048x32x1024 .f32)
    (x7 : FVec Ideal S1024x2048 .f32) (x8 : FVec Ideal S1024 .f32) (n : Fin 2048) (i : Fin 1024) :
    val_main_v48 (F := Ideal) x0 x4 x7 x8 (ix2 n i)
      = lin (hOf x0) (shOf x4) (w1hOf x7 i) (w1cOf x7 i) (b1Of x8 i) n := by
  rw [val_main_v48_apply, val_main_v45_apply, val_main_v47_apply, val_main_v46_apply]
  have el : ∀ k : Fin 2048, lidx_main_v45 (ix2 n i) k = ix2 n k := fun k =>
    funext fun a => Fin.ext (by match a with | ⟨0, _⟩ => rfl | ⟨1, _⟩ => rfl)
  have er : ∀ k : Fin 2048, ridx_main_v45 (ix2 n i) k = ix2 k i := fun k =>
    funext fun a => Fin.ext (by match a with | ⟨0, _⟩ => rfl | ⟨1, _⟩ => rfl)
  have eb : idx_main_v46 (idx_main_v47 (ix2 n i)) = ix1 i :=
    funext fun a => Fin.ext (by match a with | ⟨0, _⟩ => rfl)
  simp only [Ideal.addf_def, el, er, eb, v44_at]
  rw [sum_halves]
  simp only [v5_lo, v5_hi]
  rfl

/-- The hidden layer: the maximum of the first layer with zero. -/
theorem v49_at (x0 : FVec Ideal S8x256x1024 .f32) (x4 : FVec Ideal S2048x32x1024 .f32)
    (x7 : FVec Ideal S1024x2048 .f32) (x8 : FVec Ideal S1024 .f32) (n : Fin 2048) (i : Fin 1024) :
    val_main_v49 (F := Ideal) x0 x4 x7 x8 (ix2 n i)
      = mh (hOf x0) (shOf x4) (w1hOf x7) (w1cOf x7) (b1Of x8) n i := by
  rw [val_main_v49_apply, val_main_call0_v0_apply, val_main_call0_cst_apply, v48_at]
  simp only [Ideal.maximumf_def, Ideal.ofBits_def, Ideal.ofBits_zero_f32]
  rfl

/-- The second layer: the inner product of the hidden layer with w2, plus b2. -/
theorem v54_at (x0 : FVec Ideal S8x256x1024 .f32) (x4 : FVec Ideal S2048x32x1024 .f32)
    (x7 : FVec Ideal S1024x2048 .f32) (x8 : FVec Ideal S1024 .f32) (x9 : FVec Ideal S1x1024 .f32)
    (x10 : FVec Ideal S1 .f32) (n : Fin 2048) :
    val_main_v54 (F := Ideal) x0 x4 x7 x8 x9 x10 (ix2 n (0 : Fin 1))
      = (∑ i : Fin 1024, mh (hOf x0) (shOf x4) (w1hOf x7) (w1cOf x7) (b1Of x8) n i * w2Of x9 i) + s1Of x10 := by
  rw [val_main_v54_apply, val_main_v51_apply, val_main_v53_apply, val_main_v52_apply]
  have el : ∀ k : Fin 1024, lidx_main_v51 (ix2 n (0 : Fin 1)) k = ix2 n k := fun k =>
    funext fun a => Fin.ext (by match a with | ⟨0, _⟩ => rfl | ⟨1, _⟩ => rfl)
  have er : ∀ k : Fin 1024, idx_main_v50 (ridx_main_v51 (ix2 n (0 : Fin 1)) k) = ix2 (0 : Fin 1) k := fun k =>
    funext fun a => Fin.ext (by match a with | ⟨0, _⟩ => rfl | ⟨1, _⟩ => rfl)
  have eb : idx_main_v52 (idx_main_v53 (ix2 n (0 : Fin 1))) = ix1 (0 : Fin 1) :=
    funext fun a => Fin.ext (by match a with | ⟨0, _⟩ => rfl)
  simp only [Ideal.addf_def, val_main_v50_apply, el, er, eb, v49_at]
  rfl

/-- The word 0x3F800000 is 1. -/
theorem one_word : Ideal.ofBits .f32 0x3F800000#32 = (1 : EReal) := by
  simp [Ideal.ofBits, Ideal.ieee, -EReal.coe_mul]; norm_num

/-! ## The mixing number -/

/-- The reference's mixing number at row n is the specification's, of the argument arrays. -/
theorem mix_apply (x0 : FVec Ideal S8x256x1024 .f32) (x4 : FVec Ideal S2048x32x1024 .f32)
    (x7 : FVec Ideal S1024x2048 .f32) (x8 : FVec Ideal S1024 .f32) (x9 : FVec Ideal S1x1024 .f32)
    (x10 : FVec Ideal S1 .f32) (n : Fin 2048) :
    val_main_v60 (F := Ideal) x0 x4 x7 x8 x9 x10 (ix2 n (0 : Fin 1)) = Cert.Spec.mixA x0 x4 x7 x8 x9 x10 n := by
  rw [val_main_v60_apply, val_main_v59_apply, val_main_cst_9_apply, val_main_v58_apply, val_main_v57_apply,
    val_main_cst_8_apply, val_main_v56_apply, val_main_v55_apply, v54_at]
  simp only [Ideal.hostDivf_def, Ideal.addf_def, Ideal.hostUnary_exp_def, Ideal.hostNegf_def, Ideal.negf_def,
    Ideal.ofBits_def, one_word]
  rfl

end Cert.RefMix

end
-- ==== Proof.RefOut.lean ====
/-
  The reference's result, read at an index.  From its retrieval weights (taken as given, a [2048, 32] array) and its
  mixing numbers (taken as given, a [2048, 1] array) the reference computes, row by row of the 2048 rows:
  * the model distribution, a softmax over the 32000 logits of the row: the row maximum (a max-reduce from negative
    infinity, then a maximum with negative infinity), the shifted exponentials, their sum from zero, the quotient;
  * the example distribution: the weights scattered, accumulating, into a [2048, 32000] array of zeros at the index
    pairs (row, token column), both components wrapped when negative; the row component is the row itself, and a token
    number in range is its own column, so the entry at (n, v) is the sum of the weights of row n over the positions
    whose token's column is v;
  * log((1 - mixing) * model + mixing * example + 1e-10), reshaped to [8, 256, 32000].
  Each stage is identified at an index with the matching family of the shared specification.
-/
import proofs.«428110_j55259049230428_3_alg».proof.Proof.Gen.ReferenceIdeal.Read
import proofs.«428110_j55259049230428_3_alg».proof.Proof.Spec
import proofs.«428110_j55259049230428_3_alg».proof.Proof.LibPoint
import proofs.«428110_j55259049230428_3_alg».proof.Proof.Bridge
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.RefOut

open Cert.ReferenceIdeal Cert.ReferenceIdeal.Read Idealize.ShloMosaic Idealize.ShloMosaic.ValueIdx Cert.Spec

/-- The reshaped logits at (n, v) are the logits of row n at column v. -/
theorem v1_at (x1 : (⟨S8x256x32000, .f32⟩ : BufTy).Contents (Elt Ideal)) (n : Fin 2048) (v : Fin 32000) :
    val_main_v1 (F := Ideal) x1 (ix2 n v) = lgOf x1 n v := by
  rw [val_main_v1_apply]
  unfold lgOf
  refine congrArg x1 ?_
  funext a
  apply Fin.ext
  have hn := n.isLt
  have hv := v.isLt
  match a with
  | ⟨0, _⟩ => show (n.val * 32000 + v.val) / 8192000 = n.val / 256; omega
  | ⟨1, _⟩ => show (n.val * 32000 + v.val) / 32000 % 256 = n.val % 256; omega
  | ⟨2, _⟩ => show (n.val * 32000 + v.val) % 32000 = v.val; omega

/-- The reduced index n with column k put back is (n, k). -/
theorem lift_row (h : S2048x32000.Reduces [1] S2048) (n : Fin 2048) (k : Fin 32000) :
    h.lift (ix1 n) k = ix2 n k := by
  funext c; apply Fin.ext
  match c with
  | ⟨0, _⟩ => rfl
  | ⟨1, _⟩ => rfl

/-- The row maximum of the logits: the max-reduce from the bottom word, then the maximum with the bottom word. -/
theorem v63_at (x1 : (⟨S8x256x32000, .f32⟩ : BufTy).Contents (Elt Ideal)) (n : Fin 2048) :
    val_main_v63 (F := Ideal) x1 (ix1 n) = rmax (lgOf x1 n) := by
  rw [val_main_v63_apply, val_main_v62_apply, val_main_cst_11_apply]
  unfold val_main_v61
  have h : S2048x32000.Reduces [1] S2048 := by decide
  rw [Host.reduce_eq_fold_single FloatOps.maximumf _ _ Gen.reducesTo_S2048x32000_S2048_d1 h Gen.h_S_]
  rw [val_main_cst_10_apply, Ideal.maximumf_def, Ideal.ofBits_def, Cert.Bridge.bot_word, Cert.Bridge.max_bot_left]
  unfold rmax
  have hf : (val_main_v1 (F := Ideal) x1 ∘ h.lift (ix1 n)) = fun k : Fin 32000 => lgOf x1 n k :=
    funext fun k => (congrArg (val_main_v1 (F := Ideal) x1) (lift_row h n k)).trans (v1_at x1 n k)
  exact congrArg (fun f => Finset.fold max (⊥ : EReal) f (Finset.univ : Finset (Fin 32000))) hf

/-- exp of the shifted logits at (n, v). -/
theorem v67_at (x1 : (⟨S8x256x32000, .f32⟩ : BufTy).Contents (Elt Ideal)) (n : Fin 2048) (v : Fin 32000) :
    val_main_v67 (F := Ideal) x1 (ix2 n v) = e2 (lgOf x1) n v := by
  rw [val_main_v67_apply, val_main_v66_apply, v1_at, val_main_v65_apply, val_main_v64_apply]
  have hi : idx_main_v64 (idx_main_v65 (ix2 n v)) = ix1 n :=
    funext fun a => Fin.ext (by match a with | ⟨0, _⟩ => rfl)
  rw [hi, v63_at, Ideal.hostUnary_exp_def, Ideal.subf_def]
  rfl

/-- The softmax denominator of row n. -/
theorem v68_at (x1 : (⟨S8x256x32000, .f32⟩ : BufTy).Contents (Elt Ideal)) (n : Fin 2048) :
    val_main_v68 (F := Ideal) x1 (ix1 n) = d2 (lgOf x1) n := by
  rw [val_main_v68_apply, val_main_cst_12_apply, Ideal.ofBits_def, Ideal.ofBits_zero_f32, zero_add]
  unfold d2
  refine Finset.sum_congr rfl fun k _ => ?_
  have hi : idx_main_v68 (ix1 n) k = ix2 n k :=
    funext fun a => Fin.ext (by match a with | ⟨0, _⟩ => rfl | ⟨1, _⟩ => rfl)
  rw [hi, v67_at]

/-- The model distribution at (n, v). -/
theorem v71_at (x1 : (⟨S8x256x32000, .f32⟩ : BufTy).Contents (Elt Ideal)) (n : Fin 2048) (v : Fin 32000) :
    val_main_v71 (F := Ideal) x1 (ix2 n v) = md (lgOf x1) n v := by
  rw [val_main_v71_apply, v67_at, val_main_v70_apply, val_main_v69_apply]
  have hi : idx_main_v69 (idx_main_v70 (ix2 n v)) = ix1 n :=
    funext fun a => Fin.ext (by match a with | ⟨0, _⟩ => rfl)
  rw [hi, v68_at, Ideal.hostDivf_def]
  rfl

/-- A signed compare of a non-negative word with zero answers no. -/
theorem cmpi_slt_zero_of_nonneg (a : BitVec 32) (h : 0 ≤ a.toInt) : IntOp.cmpi .slt a 0#32 = 0#1 := by
  unfold IntOp.cmpi
  have h0 : (0#32 : BitVec 32).toInt = 0 := by decide
  have hlt : a.slt 0#32 = false := by
    simp only [BitVec.slt, h0]
    exact decide_eq_false (by omega)
  simp only [hlt]
  rfl

/-- Wrapping a non-negative word: the select keeps the word. -/
theorem wrap_nonneg (a b : BitVec 32) (h : 0 ≤ a.toInt) :
    Scalar.select (IntOp.cmpi .slt a 0#32) b a = a := by
  rw [cmpi_slt_zero_of_nonneg a h, select_zero]

/-- The row component of the index pair at (n, k) is n. -/
theorem v42_row (x3 : (⟨S2048x32, .i32⟩ : BufTy).Contents (Elt Ideal)) (n : Fin 2048) (k : Fin 32) :
    (val_main_v42 (F := Ideal) x3 (ix3 n k (0 : Fin 2))).toInt = (n.val : ℤ) := by
  unfold val_main_v42
  rw [concatenate_pair_apply_left (2 : Fin 3) (val_main_v40 (F := Ideal)) (val_main_v41 (F := Ideal) x3)
    Gen.concatenates_S2048x32x1_S2048x32x1_S2048x32x2_d2 (ix3 n k (0 : Fin 2)) rfl (ix3 n k (0 : Fin 1))
    (fun b => by match b with | ⟨0, _⟩ => rfl | ⟨1, _⟩ => rfl | ⟨2, _⟩ => rfl)]
  rw [val_main_v40_apply, val_main_v39_apply, val_main_v33_apply, val_main_v30_apply, val_main_v29_apply,
    val_main_c_apply, val_main_v27_apply, val_main_v26_apply]
  have hn := n.isLt
  have hv : (idx_main_v27 (idx_main_v39 (idx_main_v40 (ix3 n k (0 : Fin 1)))) 0).val = n.val := rfl
  rw [hv]
  have h0 : (BitVec.ofNat 32 n.val).toInt = (n.val : ℤ) :=
    StableHlo.Predicate.toInt_ofNat_small n.val (by omega)
  rw [wrap_nonneg _ _ (by rw [h0]; omega), h0]

/-- The column component of the index pair at (n, k) is the token number, when that is in range. -/
theorem v42_col (x3 : (⟨S2048x32, .i32⟩ : BufTy).Contents (Elt Ideal)) (hin : InR (tkOf x3)) (n : Fin 2048) (k : Fin 32) :
    (val_main_v42 (F := Ideal) x3 (ix3 n k (1 : Fin 2))).toInt = ((tcol (tkOf x3) n k).val : ℤ) := by
  unfold val_main_v42
  rw [concatenate_pair_apply_right (2 : Fin 3) (val_main_v40 (F := Ideal)) (val_main_v41 (F := Ideal) x3)
    Gen.concatenates_S2048x32x1_S2048x32x1_S2048x32x2_d2 (ix3 n k (1 : Fin 2)) rfl rfl (ix3 n k (0 : Fin 1))
    (fun b hb => by
      match b with
      | ⟨0, _⟩ => rfl
      | ⟨1, _⟩ => rfl
      | ⟨2, _⟩ => exact absurd rfl hb)
    rfl]
  rw [val_main_v41_apply, val_main_v38_apply, val_main_v35_apply, val_main_v34_apply, val_main_c_6_apply]
  have hi : idx_main_v41 (ix3 n k (0 : Fin 1)) = ix2 n k :=
    funext fun a => Fin.ext (by match a with | ⟨0, _⟩ => rfl | ⟨1, _⟩ => rfl)
  rw [hi]
  have hk : 0 ≤ (x3 (ix2 n k)).toInt := (hin n k).1
  rw [wrap_nonneg _ _ hk, Cert.Bridge.tcol_val (tkOf x3) hin n k]
  rfl

/-- The accumulating scatter of the weights into zeros, at (n, v): the example distribution. -/
theorem v43_at (x0 : (⟨S8x256x1024, .f32⟩ : BufTy).Contents (Elt Ideal)) (x2 : (⟨S2048x32, .f32⟩ : BufTy).Contents (Elt Ideal))
    (x3 : (⟨S2048x32, .i32⟩ : BufTy).Contents (Elt Ideal)) (x4 : (⟨S2048x32x1024, .f32⟩ : BufTy).Contents (Elt Ideal))
    (x5 : (⟨S1x2048, .f32⟩ : BufTy).Contents (Elt Ideal)) (x6 : (⟨S1, .f32⟩ : BufTy).Contents (Elt Ideal))
    (hin : InR (tkOf x3)) (n : Fin 2048) (v : Fin 32000) :
    val_main_v43 (F := Ideal) x0 x2 x3 x4 x5 x6 (ix2 n v)
      = exd (fun n k => val_main_v25 (F := Ideal) x0 x2 x4 x5 x6 (ix2 n k)) (tkOf x3) n v := by
  unfold val_main_v43
  generalize val_main_v25 (F := Ideal) x0 x2 x4 x5 x6 = kwA
  rw [Cert.LibPoint.point_scatterAdd_apply scatter_S2048x32000_S2048x32x2_S2048x32_n_01_01_2 rfl rfl rfl rfl
    (val_main_v28 (F := Ideal)) (val_main_v42 (F := Ideal) x3) kwA (tcol (tkOf x3))
    (v42_row x3) (v42_col x3 hin) n v]
  rw [val_main_v28_apply, val_main_cst_4_apply, Ideal.ofBits_def, Ideal.ofBits_zero_f32, zero_add]
  rfl

/-- The reference's result before the last reshape, at (n, v): the mixture formula. -/
theorem v81_at (x0 : FVec Ideal S8x256x1024 .f32) (x1 : FVec Ideal S8x256x32000 .f32) (x2 : FVec Ideal S2048x32 .f32) (x3 : IVec S2048x32 32) (x4 : FVec Ideal S2048x32x1024 .f32) (x5 : FVec Ideal S1x2048 .f32) (x6 : FVec Ideal S1 .f32) (x7 : FVec Ideal S1024x2048 .f32) (x8 : FVec Ideal S1024 .f32) (x9 : FVec Ideal S1x1024 .f32) (x10 : FVec Ideal S1 .f32)
    (hin : Cert.Spec.InR (Cert.Spec.tkOf x3)) (n : Fin 2048) (v : Fin 32000) :
    val_main_v81 (F := Ideal) x0 x1 x2 x3 x4 x5 x6 x7 x8 x9 x10 (ix2 n v)
      = Cert.Spec.rout (lgOf x1) (fun n => val_main_v60 (F := Ideal) x0 x4 x7 x8 x9 x10 (ix2 n (0 : Fin 1))) (fun n k => val_main_v25 (F := Ideal) x0 x2 x4 x5 x6 (ix2 n k)) (tkOf x3) n v := by
  rw [val_main_v81_apply, val_main_v80_apply, val_main_v79_apply, val_main_cst_14_apply, val_main_v78_apply,
    val_main_v75_apply, val_main_v74_apply, val_main_v73_apply, val_main_v72_apply, val_main_cst_13_apply,
    v71_at, val_main_v77_apply, val_main_v76_apply, v43_at x0 x2 x3 x4 x5 x6 hin]
  have h74 : idx_main_v74 (ix2 n v) = ix2 n (0 : Fin 1) :=
    funext fun a => Fin.ext (by match a with | ⟨0, _⟩ => rfl | ⟨1, _⟩ => rfl)
  have h76 : idx_main_v76 (ix2 n v) = ix2 n (0 : Fin 1) :=
    funext fun a => Fin.ext (by match a with | ⟨0, _⟩ => rfl | ⟨1, _⟩ => rfl)
  rw [h74, h76]
  simp only [Ideal.hostUnary_log_def, Ideal.addf_def, Ideal.mulf_def, Ideal.subf_def, Ideal.ofBits_def]
  rfl

/-- The reference's result at (a, b, c): the mixture formula at row 256 a + b, column c. -/
theorem out_at (x0 : FVec Ideal S8x256x1024 .f32) (x1 : FVec Ideal S8x256x32000 .f32) (x2 : FVec Ideal S2048x32 .f32) (x3 : IVec S2048x32 32) (x4 : FVec Ideal S2048x32x1024 .f32) (x5 : FVec Ideal S1x2048 .f32) (x6 : FVec Ideal S1 .f32) (x7 : FVec Ideal S1024x2048 .f32) (x8 : FVec Ideal S1024 .f32) (x9 : FVec Ideal S1x1024 .f32) (x10 : FVec Ideal S1 .f32)
    (hin : Cert.Spec.InR (Cert.Spec.tkOf x3)) (a : Fin 8) (b : Fin 256) (c : Fin 32000) :
    val_main_v82 (F := Ideal) x0 x1 x2 x3 x4 x5 x6 x7 x8 x9 x10 (ix3 a b c)
      = Cert.Spec.outArr (Cert.Spec.rout (lgOf x1) (fun n => val_main_v60 (F := Ideal) x0 x4 x7 x8 x9 x10 (ix2 n (0 : Fin 1))) (fun n k => val_main_v25 (F := Ideal) x0 x2 x4 x5 x6 (ix2 n k)) (tkOf x3)) (ix3 a b c) := by
  rw [val_main_v82_apply]
  have ha := a.isLt
  have hb := b.isLt
  have hc := c.isLt
  have hi : idx_main_v82 (ix3 a b c) = ix2 (⟨a.val * 256 + b.val, by omega⟩ : Fin 2048) c :=
    funext fun d => Fin.ext (by
      match d with
      | ⟨0, _⟩ => show ((a.val * 256 + b.val) * 32000 + c.val) / 32000 = a.val * 256 + b.val; omega
      | ⟨1, _⟩ => show ((a.val * 256 + b.val) * 32000 + c.val) % 32000 = c.val; omega)
  rw [hi, v81_at x0 x1 x2 x3 x4 x5 x6 x7 x8 x9 x10 hin]
  rfl

/-- The reference's result is the mixture formula of the logits, the mixing numbers, the retrieval weights and the
    token numbers, laid out as the [8, 256, 32000] array. -/
theorem out_eq (x0 : FVec Ideal S8x256x1024 .f32) (x1 : FVec Ideal S8x256x32000 .f32) (x2 : FVec Ideal S2048x32 .f32) (x3 : IVec S2048x32 32) (x4 : FVec Ideal S2048x32x1024 .f32) (x5 : FVec Ideal S1x2048 .f32) (x6 : FVec Ideal S1 .f32) (x7 : FVec Ideal S1024x2048 .f32) (x8 : FVec Ideal S1024 .f32) (x9 : FVec Ideal S1x1024 .f32) (x10 : FVec Ideal S1 .f32)
    (hin : Cert.Spec.InR (Cert.Spec.tkOf x3)) :
    val_main_v82 (F := Ideal) x0 x1 x2 x3 x4 x5 x6 x7 x8 x9 x10
      = Cert.Spec.outArr (Cert.Spec.rout (lgOf x1) (fun n => val_main_v60 (F := Ideal) x0 x4 x7 x8 x9 x10 (ix2 n (0 : Fin 1))) (fun n k => val_main_v25 (F := Ideal) x0 x2 x4 x5 x6 (ix2 n k)) (tkOf x3)) := by
  funext i
  rw [eq_ix3 i]
  exact out_at x0 x1 x2 x3 x4 x5 x6 x7 x8 x9 x10 hin (i 0) (i 1) (i 2)

end Cert.RefOut

end
-- ==== Proof.lean ====
/-
  Two programs compute, for each of 2048 rows, the logarithm of a mixture of two distributions over 32000 columns: the
  softmax of the row's logits, weighted 1 - mix, and a distribution that puts on the column of each of the row's 32 retrieved
  tokens the retrieval weight of that token (weights of equal tokens added), weighted mix; 1e-10 is added under the logarithm.
  The reference builds the second distribution by an accumulating scatter into zeros and evaluates the formula everywhere.
  The kernel evaluates log((1 - mix) * softmax + 1e-10) everywhere (its second region, which also returns each row's
  log-normaliser), computes at the 32 token positions of a row the full formula — the softmax entry recovered as
  exp(logit - log-normaliser), the added weights by comparing the row's token numbers pairwise — and overwrites the columns of
  the tokens with it.  The two agree when every token number is a column (0 ≤ token < 32000: then equal columns are equal
  token numbers, so the overwriting values at one column coincide) and the logits are finite (then the log-normaliser is a
  real number and exp(x - (M + log D)) = exp(x - M) / D).  The retrieval weights and the mixing number are computed the same
  way by both (the kernel's first region): the mean of the retrieved vectors, two linear forms over the concatenation
  [hidden, mean] — split by the kernel into the two halves —, a softmax over the 32 scaled distances, a logistic.
  The modules: Spec (the arithmetic, row by row), Bridge (the algebra joining the two forms), LibPoint (a point scatter and
  a point gather read at an index), PreDecode (the precondition read), HostPre / KFeatA / KFeatB / KComb / KTail / KVal (the kernel
  program's result as that function of its arguments), RefKnn / RefMix / RefOut (the reference's), KRun (the kernel program's run
  with its result named).
-/
import proofs.«428110_j55259049230428_3_alg».proof.Defs
import proofs.«428110_j55259049230428_3_alg».proof.Proof.Gen.Kernel
import proofs.«428110_j55259049230428_3_alg».proof.Proof.Gen.Kernel.Skeleton
import proofs.«428110_j55259049230428_3_alg».proof.Proof.Gen.Kernel.Launch
import proofs.«428110_j55259049230428_3_alg».proof.Proof.Gen.Kernel.Points
import proofs.«428110_j55259049230428_3_alg».proof.Proof.Gen.Kernel.Frame
import proofs.«428110_j55259049230428_3_alg».proof.Proof.Gen.KernelIdeal
import proofs.«428110_j55259049230428_3_alg».proof.Proof.Gen.KernelIdeal.Skeleton
import proofs.«428110_j55259049230428_3_alg».proof.Proof.Gen.KernelIdeal.Launch
import proofs.«428110_j55259049230428_3_alg».proof.Proof.Gen.KernelIdeal.Points
import proofs.«428110_j55259049230428_3_alg».proof.Proof.Gen.KernelIdeal.Frame
import proofs.«428110_j55259049230428_3_alg».proof.Proof.Gen.ReferenceIdeal
import proofs.«428110_j55259049230428_3_alg».proof.Proof.Gen.Pre_finite_inputs
import proofs.«428110_j55259049230428_3_alg».proof.Proof.Gen.ReferenceIdeal.Run
import proofs.«428110_j55259049230428_3_alg».proof.Proof.Gen.ReferenceIdeal.Read
import proofs.«428110_j55259049230428_3_alg».proof.Proof.Spec
import proofs.«428110_j55259049230428_3_alg».proof.Proof.Bridge
import proofs.«428110_j55259049230428_3_alg».proof.Proof.PreDecode
import proofs.«428110_j55259049230428_3_alg».proof.Proof.KRun
import proofs.«428110_j55259049230428_3_alg».proof.Proof.KVal
import proofs.«428110_j55259049230428_3_alg».proof.Proof.RefKnn
import proofs.«428110_j55259049230428_3_alg».proof.Proof.RefMix
import proofs.«428110_j55259049230428_3_alg».proof.Proof.RefOut
import Idealize.ShloMosaic.Adequacy
import Idealize.ShloMosaic.Init

noncomputable section

namespace Cert.Proof

open Idealize.ShloMosaic Idealize.ShloMosaic.ValueIdx Idealize.SL.Sem Cert.Spec

/-- The reference's result as the specification's formula of its arguments, when every token number is a column. -/
theorem ref_value (x0 : FVec Ideal Cert.ReferenceIdeal.S8x256x1024 .f32) (x1 : FVec Ideal Cert.ReferenceIdeal.S8x256x32000 .f32)
    (x2 : FVec Ideal Cert.ReferenceIdeal.S2048x32 .f32) (x3 : IVec Cert.ReferenceIdeal.S2048x32 32) (x4 : FVec Ideal Cert.ReferenceIdeal.S2048x32x1024 .f32)
    (x5 : FVec Ideal Cert.ReferenceIdeal.S1x2048 .f32) (x6 : FVec Ideal Cert.ReferenceIdeal.S1 .f32) (x7 : FVec Ideal Cert.ReferenceIdeal.S1024x2048 .f32)
    (x8 : FVec Ideal Cert.ReferenceIdeal.S1024 .f32) (x9 : FVec Ideal Cert.ReferenceIdeal.S1x1024 .f32) (x10 : FVec Ideal Cert.ReferenceIdeal.S1 .f32)
    (hin : InR (tkOf x3)) :
    Cert.ReferenceIdeal.Read.val_main_v82 (F := Ideal) x0 x1 x2 x3 x4 x5 x6 x7 x8 x9 x10 = outArr (routA x0 x1 x2 x3 x4 x5 x6 x7 x8 x9 x10) := by
  rw [Cert.RefOut.out_eq x0 x1 x2 x3 x4 x5 x6 x7 x8 x9 x10 hin]
  unfold routA
  have e1 : (fun n : Fin 2048 => Cert.ReferenceIdeal.Read.val_main_v60 (F := Ideal) x0 x4 x7 x8 x9 x10 (ix2 n (0 : Fin 1))) = mixA x0 x4 x7 x8 x9 x10 :=
    funext fun n => Cert.RefMix.mix_apply x0 x4 x7 x8 x9 x10 n
  have e2 : (fun (n : Fin 2048) (k : Fin 32) => Cert.ReferenceIdeal.Read.val_main_v25 (F := Ideal) x0 x2 x4 x5 x6 (ix2 n k)) = knnA x0 x2 x4 x5 x6 :=
    funext fun n => funext fun k => Cert.RefKnn.knn_apply x0 x2 x4 x5 x6 n k
  rw [e1, e2]

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at one function of the arguments: the kernel's at the overwritten base (its run with the
    result named, then its value), the reference's at the formula (its generated run, then its value), and the two
    functions are equal under the precondition's two facts. -/
theorem algebraic : Cert.algebraic_KernelIdeal_ReferenceIdeal := by
  intro m ρ m' ρ' hpre hagree
  have hd := fun c : Dev Cert.KernelIdeal.nD => Cert.PreDecode.decode _ _ _ _ _ _ _ _ _ _ _ (hpre c)
  refine ⟨fun c => outArr (koutA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))), ?_, ?_⟩
  · exact (θ_run Cert.KernelIdeal.defs _ _).mono
      (fun r h c => ⟨(h c).1.trans (Cert.KernelIdeal.KVal.value m ρ c (hd c).1), (h c).2⟩)
      (Cert.KernelIdeal.GenV.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v82_eq, a0, a1, a2, a3, a4, a5, a6, a7, a8, a9, a10]
    rw [ref_value _ _ _ _ _ _ _ _ _ _ _ (hd c).1]
    exact congrArg outArr (Cert.Bridge.koutA_eq_routA _ _ _ _ _ _ _ _ _ _ _ (hd c).1 (hd c).2).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
